-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x32 : Shape := ⟨2, ![800000, 32]⟩
abbrev S2x800000 : Shape := ⟨2, ![2, 800000]⟩
abbrev S32x32 : Shape := ⟨2, ![32, 32]⟩
abbrev S32 : Shape := ⟨1, ![32]⟩
abbrev S288x128 : Shape := ⟨2, ![288, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x384 : Shape := ⟨2, ![128, 384]⟩
abbrev S384 : Shape := ⟨1, ![384]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S288x128 : S_.BroadcastsInDim S288x128 (![] : Fin 0 → Fin S288x128.rank)
  reducesTo_S288x128_S_d0_1 : S288x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S2x800000 : S_.BroadcastsInDim S2x800000 (![] : Fin 0 → Fin S2x800000.rank)
  reducesTo_S2x800000_S_d0_1 : S2x800000.ReducesTo [0, 1] S_

variable [Facts]

def fn_part6 {F : FTy → Type} [FloatOps F] (main_arg2 : IVec S2x800000 32) (main_v98 : IVec S_ 1) (main_v101 : IVec S_ 1) : IVec S_ 1 :=
  let main_v102 : IVec S_ 1 := andi main_v98 main_v101
  let main_c_40 : IVec S_ 32 := constantI S_ 32 50000#32
  let main_v103 : IVec S2x800000 32 := broadcastInDim S2x800000 ![] bcast_S_S2x800000 main_c_40
  let main_v104 : IVec S2x800000 1 := cmpi .slt main_arg2 main_v103
  let main_c_41 : IVec S_ 1 := constantI S_ 1 1#1
  let main_v105 : IVec S_ 1 := (fun x v => Host.reduce IntOp.andi x v reducesTo_S2x800000_S_d0_1 h_S_) main_v104 main_c_41
  let main_v106 : IVec S_ 1 := andi main_v102 main_v105
  main_v106

def fn_part5 {F : FTy → Type} [FloatOps F] (main_arg2 : IVec S2x800000 32) (main_arg19 : FVec F S128 .f32) (main_arg20 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_c_38 : IVec S_ 32 := constantI S_ 32 0#32
  let main_v99 : IVec S2x800000 32 := broadcastInDim S2x800000 ![] bcast_S_S2x800000 main_c_38
  let main_v100 : IVec S2x800000 1 := cmpi .sge main_arg2 main_v99
  let main_c_39 : IVec S_ 1 := constantI S_ 1 1#1
  let main_v101 : IVec S_ 1 := (fun x v => Host.reduce IntOp.andi x v reducesTo_S2x800000_S_d0_1 h_S_) main_v100 main_c_39
  fn_part6 (F := F) main_arg2 main_v98 main_v101

def fn_part4 {F : FTy → Type} [FloatOps F] (main_arg2 : IVec S2x800000 32) (main_arg15 : FVec F S128x384 .f32) (main_arg16 : FVec F S384 .f32) (main_arg17 : FVec F S128 .f32) (main_arg18 : FVec F S128 .f32) (main_arg19 : FVec F S128 .f32) (main_arg20 : FVec F S128 .f32) (main_v63 : IVec S_ 1) (main_v67 : IVec S_ 1) : IVec S_ 1 :=
  let main_v68 : IVec S_ 1 := andi main_v63 main_v67
  let main_v69 : FVec F S128x384 .f32 := Host.absf main_arg15
  let main_cst_26 : FVec F S_ .f32 := constant S_ .f32 0x7F800000#32
  let main_v70 : FVec F S128x384 .f32 := broadcastInDim S128x384 ![] bcast_S_S128x384 main_cst_26
  let main_v71 : IVec S128x384 1 := cmpf .olt main_v69 main_v70
  let main_c_27 : IVec S_ 1 := constantI S_ 1 1#1
  let main_v72 : IVec S_ 1 := (fun x v => Host.reduce IntOp.andi x v reducesTo_S128x384_S_d0_1 h_S_) main_v71 main_c_27
  let main_v73 : IVec S_ 1 := andi main_v68 main_v72
  let main_v74 : FVec F S384 .f32 := Host.absf main_arg16
  let main_cst_28 : FVec F S_ .f32 := constant S_ .f32 0x7F800000#32
  let main_v75 : FVec F S384 .f32 := broadcastInDim S384 ![] bcast_S_S384 main_cst_28
  let main_v76 : IVec S384 1 := cmpf .olt main_v74 main_v75
  let main_c_29 : IVec S_ 1 := constantI S_ 1 1#1
  let main_v77 : IVec S_ 1 := (fun x v => Host.reduce IntOp.andi x v reducesTo_S384_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg2 main_arg19 main_arg20 main_v83 main_v84 main_cst_32

def fn_part3 {F : FTy → Type} [FloatOps F] (main_arg2 : IVec S2x800000 32) (main_arg12 : FVec F S128 .f32) (main_arg13 : FVec F S128x384 .f32) (main_arg14 : FVec F S384 .f32) (main_arg15 : FVec F S128x384 .f32) (main_arg16 : FVec F S384 .f32) (main_arg17 : FVec F S128 .f32) (main_arg18 : FVec F S128 .f32) (main_arg19 : FVec F S128 .f32) (main_arg20 : FVec F S128 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x384 .f32 := Host.absf main_arg13
  let main_cst_22 : FVec F S_ .f32 := constant S_ .f32 0x7F800000#32
  let main_v60 : FVec F S128x384 .f32 := broadcastInDim S128x384 ![] bcast_S_S128x384 main_cst_22
  let main_v61 : IVec S128x384 1 := cmpf .olt main_v59 main_v60
  let main_c_23 : IVec S_ 1 := constantI S_ 1 1#1
  let main_v62 : IVec S_ 1 := (fun x v => Host.reduce IntOp.andi x v reducesTo_S128x384_S_d0_1 h_S_) main_v61 main_c_23
  let main_v63 : IVec S_ 1 := andi main_v58 main_v62
  let main_v64 : FVec F S384 .f32 := Host.absf main_arg14
  let main_cst_24 : FVec F S_ .f32 := constant S_ .f32 0x7F800000#32
  let main_v65 : FVec F S384 .f32 := broadcastInDim S384 ![] bcast_S_S384 main_cst_24
  let main_v66 : IVec S384 1 := cmpf .olt main_v64 main_v65
  let main_c_25 : IVec S_ 1 := constantI S_ 1 1#1
  let main_v67 : IVec S_ 1 := (fun x v => Host.reduce IntOp.andi x v reducesTo_S384_S_d0 h_S_) main_v66 main_c_25
  fn_part4 (F := F) main_arg2 main_arg15 main_arg16 main_arg17 main_arg18 main_arg19 main_arg20 main_v63 main_v67

def fn_part2 {F : FTy → Type} [FloatOps F] (main_arg2 : IVec S2x800000 32) (main_arg8 : FVec F S128 .f32) (main_arg9 : FVec F S128x64 .f32) (main_arg10 : FVec F S64 .f32) (main_arg11 : FVec F S64x128 .f32) (main_arg12 : FVec F S128 .f32) (main_arg13 : FVec F S128x384 .f32) (main_arg14 : FVec F S384 .f32) (main_arg15 : FVec F S128x384 .f32) (main_arg16 : FVec F S384 .f32) (main_arg17 : FVec F S128 .f32) (main_arg18 : FVec F S128 .f32) (main_arg19 : FVec F S128 .f32) (main_arg20 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg11
  let main_cst_18 : FVec F S_ .f32 := constant S_ .f32 0x7F800000#32
  let main_v50 : FVec F S64x128 .f32 := broadcastInDim S64x128 ![] bcast_S_S64x128 main_cst_18
  fn_part3 (F := F) main_arg2 main_arg12 main_arg13 main_arg14 main_arg15 main_arg16 main_arg17 main_arg18 main_arg19 main_arg20 main_v48 main_v49 main_v50

def fn_part1 {F : FTy → Type} [FloatOps F] (main_arg2 : IVec S2x800000 32) (main_arg5 : FVec F S32x32 .f32) (main_arg6 : FVec F S32 .f32) (main_arg7 : FVec F S288x128 .f32) (main_arg8 : FVec F S128 .f32) (main_arg9 : FVec F S128x64 .f32) (main_arg10 : FVec F S64 .f32) (main_arg11 : FVec F S64x128 .f32) (main_arg12 : FVec F S128 .f32) (main_arg13 : FVec F S128x384 .f32) (main_arg14 : FVec F S384 .f32) (main_arg15 : FVec F S128x384 .f32) (main_arg16 : FVec F S384 .f32) (main_arg17 : FVec F S128 .f32) (main_arg18 : FVec F S128 .f32) (main_arg19 : FVec F S128 .f32) (main_arg20 : FVec F S128 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S288x128 .f32 := Host.absf main_arg7
  let main_cst_10 : FVec F S_ .f32 := constant S_ .f32 0x7F800000#32
  let main_v30 : FVec F S288x128 .f32 := broadcastInDim S288x128 ![] bcast_S_S288x128 main_cst_10
  let main_v31 : IVec S288x128 1 := cmpf .olt main_v29 main_v30
  let main_c_11 : IVec S_ 1 := constantI S_ 1 1#1
  let main_v32 : IVec S_ 1 := (fun x v => Host.reduce IntOp.andi x v reducesTo_S288x128_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_arg19 main_arg20 main_v33

def fn {F : FTy → Type} [FloatOps F] (main_arg0 : FVec F S50000x128 .f32) (main_arg1 : FVec F S800000x32 .f32) (main_arg2 : IVec S2x800000 32) (main_arg3 : FVec F S32x32 .f32) (main_arg4 : FVec F S32 .f32) (main_arg5 : FVec F S32x32 .f32) (main_arg6 : FVec F S32 .f32) (main_arg7 : FVec F S288x128 .f32) (main_arg8 : FVec F S128 .f32) (main_arg9 : FVec F S128x64 .f32) (main_arg10 : FVec F S64 .f32) (main_arg11 : FVec F S64x128 .f32) (main_arg12 : FVec F S128 .f32) (main_arg13 : FVec F S128x384 .f32) (main_arg14 : FVec F S384 .f32) (main_arg15 : FVec F S128x384 .f32) (main_arg16 : FVec F S384 .f32) (main_arg17 : FVec F S128 .f32) (main_arg18 : FVec F S128 .f32) (main_arg19 : FVec F S128 .f32) (main_arg20 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S32x32 .f32 := Host.absf main_arg3
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S50000x128 : Shape := ⟨2, ![50000, 128]⟩
abbrev S800000x32 : Shape := ⟨2, ![800000, 32]⟩
abbrev S2x800000 : Shape := ⟨2, ![2, 800000]⟩
abbrev S32x32 : Shape := ⟨2, ![32, 32]⟩
abbrev S32 : Shape := ⟨1, ![32]⟩
abbrev S288x128 : Shape := ⟨2, ![288, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x384 : Shape := ⟨2, ![128, 384]⟩
abbrev S384 : Shape := ⟨1, ![384]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S128x128 : Shape := ⟨2, ![128, 128]⟩
abbrev S32x128 : Shape := ⟨2, ![32, 128]⟩
abbrev S1x32 : Shape := ⟨2, ![1, 32]⟩
abbrev S1x128 : Shape := ⟨2, ![1, 128]⟩
abbrev S1x64 : Shape := ⟨2, ![1, 64]⟩
abbrev S4000x128 : Shape := ⟨2, ![4000, 128]⟩
abbrev S4000x32 : Shape := ⟨2, ![4000, 32]⟩
abbrev S4000x64 : Shape := ⟨2, ![4000, 64]⟩
abbrev S1x384 : Shape := ⟨2, ![1, 384]⟩
abbrev S2000x128 : Shape := ⟨2, ![2000, 128]⟩
abbrev S2000x384 : Shape := ⟨2, ![2000, 384]⟩

abbrev nBuf : Space → Nat
  | .hbm => 91
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S800000x32, .f32⟩
  | .hbm, ⟨2, _⟩ => ⟨S2x800000, .i32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S288x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64x128, .f32⟩
  | .hbm, ⟨12, _⟩ => ⟨S128, .f32⟩
  | .hbm, ⟨13, _⟩ => ⟨S128x384, .f32⟩
  | .hbm, ⟨14, _⟩ => ⟨S384, .f32⟩
  | .hbm, ⟨15, _⟩ => ⟨S128x384, .f32⟩
  | .hbm, ⟨16, _⟩ => ⟨S384, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S1x800000, .i32⟩
  | .hbm, ⟨22, _⟩ => ⟨S800000, .i32⟩
  | .hbm, ⟨23, _⟩ => ⟨S1x800000, .i32⟩
  | .hbm, ⟨24, _⟩ => ⟨S800000, .i32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S1, .i32⟩
  | .hbm, ⟨34, _⟩ => ⟨S_, .i32⟩
  | .hbm, ⟨35, _⟩ => ⟨S800000x1, .i32⟩
  | .hbm, ⟨36, _⟩ => ⟨S800000x1, .i1⟩
  | .hbm, ⟨37, _⟩ => ⟨S1x1, .i32⟩
  | .hbm, ⟨38, _⟩ => ⟨S800000x1, .i32⟩
  | .hbm, ⟨39, _⟩ => ⟨S800000x1, .i1⟩
  | .hbm, ⟨40, _⟩ => ⟨S800000x1, .i1⟩
  | .hbm, ⟨41, _⟩ => ⟨S_, .i1⟩
  | .hbm, ⟨42, _⟩ => ⟨S800000, .i1⟩
  | .hbm, ⟨43, _⟩ => ⟨S800000x128, .f32⟩
  | .hbm, ⟨44, _⟩ => ⟨S800000x128, .i1⟩
  | .hbm, ⟨45, _⟩ => ⟨S_, .f32⟩
  | .hbm, ⟨46, _⟩ => ⟨S800000x128, .f32⟩
  | .hbm, ⟨47, _⟩ => ⟨S800000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S1, .i32⟩
  | .hbm, ⟨57, _⟩ => ⟨S_, .i32⟩
  | .hbm, ⟨58, _⟩ => ⟨S800000x1, .i32⟩
  | .hbm, ⟨59, _⟩ => ⟨S800000x1, .i1⟩
  | .hbm, ⟨60, _⟩ => ⟨S1x1, .i32⟩
  | .hbm, ⟨61, _⟩ => ⟨S800000x1, .i32⟩
  | .hbm, ⟨62, _⟩ => ⟨S800000x1, .i1⟩
  | .hbm, ⟨63, _⟩ => ⟨S800000x1, .i1⟩
  | .hbm, ⟨64, _⟩ => ⟨S_, .i1⟩
  | .hbm, ⟨65, _⟩ => ⟨S800000, .i1⟩
  | .hbm, ⟨66, _⟩ => ⟨S800000x128, .f32⟩
  | .hbm, ⟨67, _⟩ => ⟨S800000x128, .i1⟩
  | .hbm, ⟨68, _⟩ => ⟨S_, .f32⟩
  | .hbm, ⟨69, _⟩ => ⟨S800000x128, .f32⟩
  | .hbm, ⟨70, _⟩ => ⟨S800000x128, .f32⟩
  | .hbm, ⟨71, _⟩ => ⟨S128x128, .f32⟩
  | .hbm, ⟨72, _⟩ => ⟨S128x128, .f32⟩
  | .hbm, ⟨73, _⟩ => ⟨S32x128, .f32⟩
  | .hbm, ⟨74, _⟩ => ⟨S1x32, .f32⟩
  | .hbm, ⟨75, _⟩ => ⟨S1x32, .f32⟩
  | .hbm, ⟨76, _⟩ => ⟨S1x128, .f32⟩
  | .hbm, ⟨77, _⟩ => ⟨S1x64, .f32⟩
  | .hbm, ⟨78, _⟩ => ⟨S1x128, .f32⟩
  | .hbm, ⟨79, _⟩ => ⟨S800000x128, .f32⟩
  | .hbm, ⟨80, _⟩ => ⟨S_, .f32⟩
  | .hbm, ⟨81, _⟩ => ⟨S50000x128, .f32⟩
  | .hbm, ⟨82, _⟩ => ⟨S800000x1, .i32⟩
  | .hbm, ⟨83, _⟩ => ⟨S50000x128, .f32⟩
  | .hbm, ⟨84, _⟩ => ⟨S1x384, .f32⟩
  | .hbm, ⟨85, _⟩ => ⟨S1x384, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x32, .f32⟩
  | .local _ .vmem, ⟨5, _⟩ => ⟨S4000x32, .f32⟩
  | .local _ .vmem, ⟨6, _⟩ => ⟨S32x32, .f32⟩
  | .local _ .vmem, ⟨7, _⟩ => ⟨S1x32, .f32⟩
  | .local _ .vmem, ⟨8, _⟩ => ⟨S32x32, .f32⟩
  | .local _ .vmem, ⟨9, _⟩ => ⟨S1x32, .f32⟩
  | .local _ .vmem, ⟨10, _⟩ => ⟨S128x128, .f32⟩
  | .local _ .vmem, ⟨11, _⟩ => ⟨S128x128, .f32⟩
  | .local _ .vmem, ⟨12, _⟩ => ⟨S32x128, .f32⟩
  | .local _ .vmem, ⟨13, _⟩ => ⟨S1x128, .f32⟩
  | .local _ .vmem, ⟨14, _⟩ => ⟨S128x64, .f32⟩
  | .local _ .vmem, ⟨15, _⟩ => ⟨S1x64, .f32⟩
  | .local _ .vmem, ⟨16, _⟩ => ⟨S64x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x384, .f32⟩
  | .local _ .vmem, ⟨25, _⟩ => ⟨S1x384, .f32⟩
  | .local _ .vmem, ⟨26, _⟩ => ⟨S128x384, .f32⟩
  | .local _ .vmem, ⟨27, _⟩ => ⟨S1x384, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v4 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v5 : Ref sig .tc := ⟨.hbm, 70, rfl⟩
abbrev main_v6 : Ref sig .tc := ⟨.hbm, 71, rfl⟩
abbrev main_v7 : Ref sig .tc := ⟨.hbm, 72, rfl⟩
abbrev main_v8 : Ref sig .tc := ⟨.hbm, 73, rfl⟩
abbrev main_v9 : Ref sig .tc := ⟨.hbm, 74, rfl⟩
abbrev main_v10 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_cst : Ref sig .tc := ⟨.hbm, 80, rfl⟩
abbrev main_v15 : Ref sig .tc := ⟨.hbm, 81, rfl⟩
abbrev main_v16 : Ref sig .tc := ⟨.hbm, 82, rfl⟩
abbrev main_v17 : Ref sig .tc := ⟨.hbm, 83, rfl⟩
abbrev main_v18 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg10_0 : Ref sig .tc := ⟨.vmem, 32, rfl⟩
abbrev cc1_stg10_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem10_0 : DmaSem sig := 32
abbrev cc1_sem10_1 : DmaSem sig := 33

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S4000x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  slices_S288x128_S128x128_0_0 : S288x128.Slices ![0, 0] S128x128
  slices_S288x128_S128x128_128_0 : S288x128.Slices ![128, 0] S128x128
  slices_S288x128_S32x128_256_0 : S288x128.Slices ![256, 0] S32x128
  shapeCasts_S32_S1x32 : S32.ShapeCasts S1x32
  shapeCasts_S128_S1x128 : S128.ShapeCasts S1x128
  shapeCasts_S64_S1x64 : S64.ShapeCasts S1x64
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S4000x32_S4000x32_0_0 : ∀ a, (![0, 0] : Fin 2 → Nat) a + S4000x32.size a ≤ S4000x32.size a
  h_S4000x32 : 0 < S4000x32.numel
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x128_S64x128_0_0 : ∀ a, (![0, 0] : Fin 2 → Nat) a + S64x128.size a ≤ S64x128.size a
  h_S64x128 : 0 < S64x128.numel
  bcast_S_S50000x128 : S_.BroadcastsInDim S50000x128 (![] : Fin 0 → Fin S50000x128.rank)
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x384_S128x384_0_0 : ∀ a, (![0, 0] : Fin 2 → Nat) a + S128x384.size a ≤ S128x384.size a
  h_S128x384 : 0 < S128x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  dot_S4000x32_S32x32_S4000x32_1_0_0_1_n_n_wf : DotDims.WF S4000x32 S32x32 S4000x32 [1] [0] [0] [1] [] []
  dot_S4000x128_S128x128_S4000x128_1_0_0_1_n_n_wf : DotDims.WF S4000x128 S128x128 S4000x128 [1] [0] [0] [1] [] []
  dot_S4000x32_S32x128_S4000x128_1_0_0_1_n_n_wf : DotDims.WF S4000x32 S32x128 S4000x128 [1] [0] [0] [1] [] []
  dot_S4000x128_S128x64_S4000x64_1_0_0_1_n_n_wf : DotDims.WF S4000x128 S128x64 S4000x64 [1] [0] [0] [1] [] []
  dot_S4000x64_S64x128_S4000x128_1_0_0_1_n_n_wf : DotDims.WF S4000x64 S64x128 S4000x128 [1] [0] [0] [1] [] []
  scatter_S50000x128_S800000x1_S800000x128_1_0_0_1_wf : ScatterDims.WF S50000x128 S800000x1 S800000x128 [1] [0] [0] 1
  dot_S2000x128_S128x384_S2000x384_1_0_0_1_n_n_wf : DotDims.WF S2000x128 S128x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .f32 = 32 ∨ (Rect.block (s := S800000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S800000x32.size a
  hwx0_2 : ∀ i : grid0.Coords, EltTy.bits .f32 = 32 ∨ (Rect.block (s := S800000x32) S4000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x128.size a ≤ S32x128.size a
  hwx0_9 : ∀ i : grid0.Coords, EltTy.bits .f32 = 32 ∨ (Rect.block (s := S32x128) S32x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x64.size a ≤ S128x64.size a
  hwx0_11 : ∀ i : grid0.Coords, EltTy.bits .f32 = 32 ∨ (Rect.block (s := S128x64) S128x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x128.size a ≤ S64x128.size a
  hwx0_13 : ∀ i : grid0.Coords, EltTy.bits .f32 = 32 ∨ (Rect.block (s := S64x128) S64x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S4000x128.size a ≤ S800000x128.size a
  hwx0_15 : ∀ i : grid0.Coords, EltTy.bits .f32 = 32 ∨ (Rect.block (s := S800000x128) S4000x128.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x384.size a ≤ S128x384.size a
  hwx1_2 : ∀ i : grid1.Coords, EltTy.bits .f32 = 32 ∨ (Rect.block (s := S128x384) S128x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x384.size a ≤ S1x384.size a
  hwx1_3 : ∀ i : grid1.Coords, EltTy.bits .f32 = 32 ∨ (Rect.block (s := S1x384) S1x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x384.size a ≤ S128x384.size a
  hwx1_4 : ∀ i : grid1.Coords, EltTy.bits .f32 = 32 ∨ (Rect.block (s := S128x384) S128x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x384.size a ≤ S1x384.size a
  hwx1_5 : ∀ i : grid1.Coords, EltTy.bits .f32 = 32 ∨ (Rect.block (s := S1x384) S1x384.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S50000x128.size a
  hwx1_10 : ∀ i : grid1.Coords, EltTy.bits .f32 = 32 ∨ (Rect.block (s := S50000x128) S2000x128.size (cc1_transform_10 i) (hinb1_10 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf

abbrev win0_0 : Pipeline.Window sig grid0 :=
  Pipeline.Window.ofSpec (Memref.whole main_v4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S32x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S128x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg11) S64x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v13) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v14) S4000x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v17) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg13) S128x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg15) S128x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v22) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v23) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v24) S2000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x32 : Shape := ⟨2, ![800000, 32]⟩
abbrev S2x800000 : Shape := ⟨2, ![2, 800000]⟩
abbrev S32x32 : Shape := ⟨2, ![32, 32]⟩
abbrev S32 : Shape := ⟨1, ![32]⟩
abbrev S288x128 : Shape := ⟨2, ![288, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x384 : Shape := ⟨2, ![128, 384]⟩
abbrev S384 : Shape := ⟨1, ![384]⟩
abbrev S1x800000 : Shape := ⟨2, ![1, 800000]⟩
abbrev S800000 : Shape := ⟨1, ![800000]⟩
abbrev S1x32 : Shape := ⟨2, ![1, 32]⟩
abbrev S_ : Shape := ⟨0, ![]⟩
abbrev S800000x1 : Shape := ⟨2, ![800000, 1]⟩
abbrev S800000x128 : Shape := ⟨2, ![800000, 128]⟩
abbrev S800000x288 : Shape := ⟨2, ![800000, 288]⟩
abbrev S1x128 : Shape := ⟨2, ![1, 128]⟩
abbrev S800000x64 : Shape := ⟨2, ![800000, 64]⟩
abbrev S1x64 : Shape := ⟨2, ![1, 64]⟩
abbrev S50000x384 : Shape := ⟨2, ![50000, 384]⟩
abbrev S1x384 : Shape := ⟨2, ![1, 384]⟩

abbrev nBuf : Space → Nat
  | .hbm => 135
  | .vmem => 0
  | .smem => 0
  | _ => 0

abbrev hbmTy0_0 (i : Nat) : BufTy := match i % 128 with
  | 0 => ⟨S50000x128, .f32⟩
  | 1 => ⟨S800000x32, .f32⟩
  | 2 => ⟨S2x800000, .i32⟩
  | 3 => ⟨S32x32, .f32⟩
  | 4 => ⟨S32, .f32⟩
  | 5 => ⟨S32x32, .f32⟩
  | 6 => ⟨S32, .f32⟩
  | 7 => ⟨S288x128, .f32⟩
  | 8 => ⟨S128, .f32⟩
  | 9 => ⟨S128x64, .f32⟩
  | 10 => ⟨S64, .f32⟩
  | 11 => ⟨S64x128, .f32⟩
  | 12 => ⟨S128, .f32⟩
  | 13 => ⟨S128x384, .f32⟩
  | 14 => ⟨S384, .f32⟩
  | 15 => ⟨S128x384, .f32⟩
  | 16 => ⟨S384, .f32⟩
  | 17 => ⟨S128, .f32⟩
  | 18 => ⟨S128, .f32⟩
  | 19 => ⟨S128, .f32⟩
  | 20 => ⟨S128, .f32⟩
  | 21 => ⟨S1x800000, .i32⟩
  | 22 => ⟨S800000, .i32⟩
  | 23 => ⟨S1x800000, .i32⟩
  | 24 => ⟨S800000, .i32⟩
  | 25 => ⟨S800000x32, .f32⟩
  | 26 => ⟨S1x32, .f32⟩
  | 27 => ⟨S800000x32, .f32⟩
  | 28 => ⟨S800000x32, .f32⟩
  | 29 => ⟨S_, .f32⟩
  | 30 => ⟨S800000x32, .f32⟩
  | 31 => ⟨S800000x32, .f32⟩
  | 32 => ⟨S800000x32, .f32⟩
  | 33 => ⟨S1x32, .f32⟩
  | 34 => ⟨S800000x32, .f32⟩
  | 35 => ⟨S800000x32, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x128, .f32⟩
  | 54 => ⟨S800000x288, .f32⟩
  | 55 => ⟨S800000x128, .f32⟩
  | 56 => ⟨S1x128, .f32⟩
  | 57 => ⟨S800000x128, .f32⟩
  | 58 => ⟨S800000x128, .f32⟩
  | 59 => ⟨S_, .f32⟩
  | 60 => ⟨S800000x128, .f32⟩
  | 61 => ⟨S800000x128, .f32⟩
  | 62 => ⟨S800000x64, .f32⟩
  | 63 => ⟨S1x64, .f32⟩
  | 64 => ⟨S800000x64, .f32⟩
  | 65 => ⟨S800000x64, .f32⟩
  | 66 => ⟨S_, .f32⟩
  | 67 => ⟨S800000x64, .f32⟩
  | 68 => ⟨S800000x64, .f32⟩
  | 69 => ⟨S800000x128, .f32⟩
  | 70 => ⟨S1x128, .f32⟩
  | 71 => ⟨S800000x128, .f32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S50000x384, .f32⟩
  | 78 => ⟨S1x384, .f32⟩
  | 79 => ⟨S50000x384, .f32⟩
  | 80 => ⟨S50000x384, .f32⟩
  | 81 => ⟨S50000x384, .f32⟩
  | 82 => ⟨S1x384, .f32⟩
  | 83 => ⟨S50000x384, .f32⟩
  | 84 => ⟨S50000x384, .f32⟩
  | 85 => ⟨S50000x128, .f32⟩
  | 86 => ⟨S50000x128, .f32⟩
  | 87 => ⟨S50000x128, .f32⟩
  | 88 => ⟨S50000x128, .f32⟩
  | 89 => ⟨S50000x128, .f32⟩
  | 90 => ⟨S50000x128, .f32⟩
  | 91 => ⟨S50000x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S50000x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S50000x128, .f32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S_, .f32⟩
  | 122 => ⟨S128, .f32⟩
  | 123 => ⟨S128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S1x128, .f32⟩
  | 4 => ⟨S50000x128, .f32⟩
  | 5 => ⟨S50000x128, .f32⟩
  | 6 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_call0_cst : Ref sig .tc := ⟨.hbm, 29, rfl⟩
abbrev main_call0_v0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_0 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_1 : Ref sig .tc := ⟨.hbm, 45, rfl⟩
abbrev main_v20 : Ref sig .tc := ⟨.hbm, 46, rfl⟩
abbrev main_v21 : Ref sig .tc := ⟨.hbm, 47, rfl⟩
abbrev main_c_2 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_call1_cst : Ref sig .tc := ⟨.hbm, 59, rfl⟩
abbrev main_call1_v0 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_call2_cst : Ref sig .tc := ⟨.hbm, 66, rfl⟩
abbrev main_call2_v0 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_3 : Ref sig .tc := ⟨.hbm, 94, rfl⟩
abbrev main_v62 : Ref sig .tc := ⟨.hbm, 95, rfl⟩
abbrev main_v63 : Ref sig .tc := ⟨.hbm, 96, rfl⟩
abbrev main_cst_4 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_5 : Ref sig .tc := ⟨.hbm, 103, rfl⟩
abbrev main_v69 : Ref sig .tc := ⟨.hbm, 104, rfl⟩
abbrev main_v70 : Ref sig .tc := ⟨.hbm, 105, rfl⟩
abbrev main_cst_6 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_7 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_8 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x32_S800000x288_d1 : Shape.Concatenates [S800000x128, S800000x128, S800000x32] S800000x288 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x128 : S_.BroadcastsInDim S50000x128 (![] : Fin 0 → Fin S50000x128.rank)
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  bcast_S1x128_S50000x128_0_1 : S1x128.BroadcastsInDim S50000x128 (![0, 1] : Fin 2 → Fin S50000x128.rank)
  bcast_S_S128 : S_.BroadcastsInDim S128 (![] : Fin 0 → Fin S128.rank)
  dot_S800000x32_S32x32_S800000x32_1_0_0_1_n_n_wf : DotDims.WF S800000x32 S32x32 S800000x32 [1] [0] [0] [1] [] []
  gather_S50000x128_S800000x1_S800000x128_1_0_n_n_0_1_1128_wf : GatherDims.WF S50000x128 S800000x1 S800000x128 [1] [0] [] [0] [] 1 ![1, 128]
  dot_S800000x288_S288x128_S800000x128_1_0_0_1_n_n_wf : DotDims.WF S800000x288 S288x128 S800000x128 [1] [0] [0] [1] [] []
  dot_S800000x128_S128x64_S800000x64_1_0_0_1_n_n_wf : DotDims.WF S800000x128 S128x64 S800000x64 [1] [0] [0] [1] [] []
  dot_S800000x64_S64x128_S800000x128_1_0_0_1_n_n_wf : DotDims.WF S800000x64 S64x128 S800000x128 [1] [0] [0] [1] [] []
  scatter_S50000x128_S800000x1_S800000x128_1_0_0_1_wf : ScatterDims.WF S50000x128 S800000x1 S800000x128 [1] [0] [0] 1
  dot_S50000x128_S128x384_S50000x384_1_0_0_1_n_n_wf : DotDims.WF S50000x128 S128x384 S50000x384 [1] [0] [0] [1] [] []

variable [Facts₀]

def dot_S800000x32_S32x32_S800000x32_1_0_0_1_n_n : DotDims S800000x32 S32x32 S800000x32 where
  lhsContracting := [1]
  rhsContracting := [0]
  lhsNonContracting := [0]
  rhsNonContracting := [1]
  lhsBatch := []
  rhsBatch := []
  wf := dot_S800000x32_S32x32_S800000x32_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x288_S288x128_S800000x128_1_0_0_1_n_n : DotDims S800000x288 S288x128 S800000x128 where
  lhsContracting := [1]
  rhsContracting := [0]
  lhsNonContracting := [0]
  rhsNonContracting := [1]
  lhsBatch := []
  rhsBatch := []
  wf := dot_S800000x288_S288x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf

class Facts : Prop extends Facts₀ where

variable [Facts]
-- ==== Proof.Spec.lean ====
/-
  The mathematics both programs compute, one row at a time, over the extended reals.

  An edge's message: the edge attributes go through Linear–ReLU–Linear (`encRow`); the first message layer
  multiplies the concatenation [x_dst ; x_src ; e] (288 entries) with a 288×128 matrix (`h1RowCat`), which is the sum of the three
  partial products of the 128, 128 and 32 leading, middle and trailing rows of that matrix (`h1Row`; `h1RowCat_eq`:
  a finite sum split at 128 and 256, nothing but associativity of addition); two more affine layers with a
  ReLU between them give the message (`msgRow`). A node's update: the GRU cell on the aggregated message and
  the node's features, an affine normalisation with running statistics, and the residual (`updRow`).
  `msgArr` / `updArr` lay the rows out as whole arrays: row `i 0`, column `i 1`.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx
open scoped BigOperators

/-- One row of an affine layer: `a · W + b`. -/
def aff {K J : ℕ} (a : Fin K → EReal) (W : Fin K → Fin J → EReal) (b : Fin J → EReal) (j : Fin J) : EReal :=
  (∑ k : Fin K, a k * W k j) + b j

/-- ReLU against the f32 zero word (the same word in both programs). -/
def relu (x : EReal) : EReal := max x (Ideal.ofBits .f32 0x00000000#32)

/-- Row `r` of a rank-2 array. -/
def row2 {R C : ℕ} (A : (⟨2, ![R, C]⟩ : Shape).Idx → EReal) (r : Fin R) : Fin C → EReal := fun k => A (ix2 r k)

/-- A rank-2 array as a matrix. -/
def mat2 {R C : ℕ} (A : (⟨2, ![R, C]⟩ : Shape).Idx → EReal) : Fin R → Fin C → EReal := fun r k => A (ix2 r k)

/-- A rank-1 array as a vector. -/
def vec1 {C : ℕ} (b : (⟨1, ![C]⟩ : Shape).Idx → EReal) : Fin C → EReal := fun k => b (ix1 k)

/-- The edge encoder on one edge: Linear, ReLU, Linear. -/
def encRow (ea : Fin 32 → EReal) (We1 : Fin 32 → Fin 32 → EReal) (be1 : Fin 32 → EReal)
    (We2 : Fin 32 → Fin 32 → EReal) (be2 : Fin 32 → EReal) : Fin 32 → EReal :=
  aff (fun k => relu (aff ea We1 be1 k)) We2 be2

/-- The first message layer as three partial products, added left to right, then the bias, then ReLU. -/
def h1Row (xd xs : Fin 128 → EReal) (e : Fin 32 → EReal) (Wd Ws : Fin 128 → Fin 128 → EReal)
    (We : Fin 32 → Fin 128 → EReal) (b : Fin 128 → EReal) (j : Fin 128) : EReal :=
  relu ((((∑ k : Fin 128, xd k * Wd k j) + (∑ k : Fin 128, xs k * Ws k j)) + (∑ k : Fin 32, e k * We k j)) + b j)

/-- The concatenation [x_dst ; x_src ; e] of one edge. -/
def cat3 (xd xs : Fin 128 → EReal) (e : Fin 32 → EReal) (k : Fin 288) : EReal :=
  if h : k.val < 128 then xd ⟨k.val, h⟩
  else if h2 : k.val < 256 then xs ⟨k.val - 128, by omega⟩
  else e ⟨k.val - 256, by have := k.isLt; omega⟩

/-- The first message layer on the concatenation. -/
def h1RowCat (xd xs : Fin 128 → EReal) (e : Fin 32 → EReal) (W : Fin 288 → Fin 128 → EReal)
    (b : Fin 128 → EReal) (j : Fin 128) : EReal :=
  relu ((∑ k : Fin 288, cat3 xd xs e k * W k j) + b j)

/-- The leading, middle and trailing rows of the 288×128 matrix. -/
def topRows (W : Fin 288 → Fin 128 → EReal) : Fin 128 → Fin 128 → EReal := fun k j => W ⟨k.val, by have := k.isLt; omega⟩ j
def midRows (W : Fin 288 → Fin 128 → EReal) : Fin 128 → Fin 128 → EReal := fun k j => W ⟨128 + k.val, by have := k.isLt; omega⟩ j
def botRows (W : Fin 288 → Fin 128 → EReal) : Fin 32 → Fin 128 → EReal := fun k j => W ⟨256 + k.val, by have := k.isLt; omega⟩ j

/-- A sum over 288 indices is the sum over the first 128, the next 128 and the last 32. -/
theorem sum288 (f : Fin 288 → EReal) :
    ∑ k : Fin 288, f k
      = ((∑ k : Fin 128, f ⟨k.val, by have := k.isLt; omega⟩) + (∑ k : Fin 128, f ⟨128 + k.val, by have := k.isLt; omega⟩))
        + ∑ k : Fin 32, f ⟨256 + k.val, by have := k.isLt; omega⟩ := by
  have h1 : ∑ k : Fin 288, f k = (∑ i : Fin 256, f (Fin.castAdd 32 i)) + ∑ i : Fin 32, f (Fin.natAdd 256 i) :=
    Fin.sum_univ_add (a := 256) (b := 32) (f : Fin (256 + 32) → EReal)
  have h2 : (∑ i : Fin 256, f (Fin.castAdd 32 i))
      = (∑ i : Fin 128, f (Fin.castAdd 32 (Fin.castAdd 128 i))) + ∑ i : Fin 128, f (Fin.castAdd 32 (Fin.natAdd 128 i)) :=
    Fin.sum_univ_add (a := 128) (b := 128) (fun i : Fin (128 + 128) => f (Fin.castAdd 32 i))
  rw [h1, h2]
  rfl

/-- The layer on the concatenation is the layer of three partial products. -/
theorem h1RowCat_eq (xd xs : Fin 128 → EReal) (e : Fin 32 → EReal) (W : Fin 288 → Fin 128 → EReal)
    (b : Fin 128 → EReal) (j : Fin 128) :
    h1RowCat xd xs e W b j = h1Row xd xs e (topRows W) (midRows W) (botRows W) b j := by
  unfold h1RowCat h1Row
  rw [sum288]
  congr 3

/-- One edge's message from its first-layer activations. -/
def msgTail (h1 : Fin 128 → EReal) (Wm2 : Fin 128 → Fin 64 → EReal) (bm2 : Fin 64 → EReal)
    (Wm3 : Fin 64 → Fin 128 → EReal) (bm3 : Fin 128 → EReal) : Fin 128 → EReal :=
  aff (fun k => relu (aff h1 Wm2 bm2 k)) Wm3 bm3

/-- One edge's message, the first layer as three partial products. -/
def msgRow (xd xs : Fin 128 → EReal) (ea : Fin 32 → EReal) (We1 : Fin 32 → Fin 32 → EReal) (be1 : Fin 32 → EReal)
    (We2 : Fin 32 → Fin 32 → EReal) (be2 : Fin 32 → EReal) (Wd Ws : Fin 128 → Fin 128 → EReal)
    (We : Fin 32 → Fin 128 → EReal) (bm1 : Fin 128 → EReal) (Wm2 : Fin 128 → Fin 64 → EReal) (bm2 : Fin 64 → EReal)
    (Wm3 : Fin 64 → Fin 128 → EReal) (bm3 : Fin 128 → EReal) : Fin 128 → EReal :=
  msgTail (h1Row xd xs (encRow ea We1 be1 We2 be2) Wd Ws We bm1) Wm2 bm2 Wm3 bm3

/-- One edge's message, the first layer on the concatenation. -/
def msgRowCat (xd xs : Fin 128 → EReal) (ea : Fin 32 → EReal) (We1 : Fin 32 → Fin 32 → EReal) (be1 : Fin 32 → EReal)
    (We2 : Fin 32 → Fin 32 → EReal) (be2 : Fin 32 → EReal) (Wm1 : Fin 288 → Fin 128 → EReal) (bm1 : Fin 128 → EReal)
    (Wm2 : Fin 128 → Fin 64 → EReal) (bm2 : Fin 64 → EReal)
    (Wm3 : Fin 64 → Fin 128 → EReal) (bm3 : Fin 128 → EReal) : Fin 128 → EReal :=
  msgTail (h1RowCat xd xs (encRow ea We1 be1 We2 be2) Wm1 bm1) Wm2 bm2 Wm3 bm3

theorem msgRowCat_eq (xd xs : Fin 128 → EReal) (ea : Fin 32 → EReal) (We1 : Fin 32 → Fin 32 → EReal) (be1 : Fin 32 → EReal)
    (We2 : Fin 32 → Fin 32 → EReal) (be2 : Fin 32 → EReal) (Wm1 : Fin 288 → Fin 128 → EReal) (bm1 : Fin 128 → EReal)
    (Wm2 : Fin 128 → Fin 64 → EReal) (bm2 : Fin 64 → EReal)
    (Wm3 : Fin 64 → Fin 128 → EReal) (bm3 : Fin 128 → EReal) :
    msgRowCat xd xs ea We1 be1 We2 be2 Wm1 bm1 Wm2 bm2 Wm3 bm3
      = msgRow xd xs ea We1 be1 We2 be2 (topRows Wm1) (midRows Wm1) (botRows Wm1) bm1 Wm2 bm2 Wm3 bm3 := by
  unfold msgRowCat msgRow
  congr 1
  funext j
  exact h1RowCat_eq _ _ _ _ _ j

/-- One node's update: GRU cell on (aggregated message, features), normalisation, residual. The gates
    read columns `j`, `128 + j`, `256 + j` of the two 384-wide affine maps. -/
def updRow (mr xr : Fin 128 → EReal) (Wih : Fin 128 → Fin 384 → EReal) (bih : Fin 384 → EReal)
    (Whh : Fin 128 → Fin 384 → EReal) (bhh : Fin 384 → EReal) (gamma beta rmean rvar : Fin 128 → EReal)
    (j : Fin 128) : EReal :=
  let gi := aff mr Wih bih
  let gh := aff xr Whh bhh
  let j0 : Fin 384 := ⟨j.val, by have := j.isLt; omega⟩
  let j1 : Fin 384 := ⟨128 + j.val, by have := j.isLt; omega⟩
  let j2 : Fin 384 := ⟨256 + j.val, by have := j.isLt; omega⟩
  let r := Ideal.logistic (gi j0 + gh j0)
  let z := Ideal.logistic (gi j1 + gh j1)
  let n := Ideal.tanh (gi j2 + r * gh j2)
  let h := (Ideal.ofBits .f32 0x3F800000#32 - z) * n + z * xr j
  (((h - rmean j) * Ideal.rsqrt (rvar j + Ideal.ofBits .f32 0x3727C5AC#32)) * gamma j + beta j) + xr j

/-- The messages of all 800000 edges. -/
def msgArr (xd xs : (⟨2, ![800000, 128]⟩ : Shape).Idx → EReal) (ea : (⟨2, ![800000, 32]⟩ : Shape).Idx → EReal)
    (We1 : Fin 32 → Fin 32 → EReal) (be1 : Fin 32 → EReal)
    (We2 : Fin 32 → Fin 32 → EReal) (be2 : Fin 32 → EReal) (Wd Ws : Fin 128 → Fin 128 → EReal)
    (We : Fin 32 → Fin 128 → EReal) (bm1 : Fin 128 → EReal) (Wm2 : Fin 128 → Fin 64 → EReal) (bm2 : Fin 64 → EReal)
    (Wm3 : Fin 64 → Fin 128 → EReal) (bm3 : Fin 128 → EReal) : (⟨2, ![800000, 128]⟩ : Shape).Idx → EReal :=
  fun i => msgRow (row2 xd ⟨(i 0).val, (i 0).isLt⟩) (row2 xs ⟨(i 0).val, (i 0).isLt⟩) (row2 ea ⟨(i 0).val, (i 0).isLt⟩)
    We1 be1 We2 be2 Wd Ws We bm1 Wm2 bm2 Wm3 bm3 ⟨(i 1).val, (i 1).isLt⟩

/-- The updated features of all 50000 nodes. -/
def updArr (M x : (⟨2, ![50000, 128]⟩ : Shape).Idx → EReal) (Wih : Fin 128 → Fin 384 → EReal) (bih : Fin 384 → EReal)
    (Whh : Fin 128 → Fin 384 → EReal) (bhh : Fin 384 → EReal) (gamma beta rmean rvar : Fin 128 → EReal) :
    (⟨2, ![50000, 128]⟩ : Shape).Idx → EReal :=
  fun i => updRow (row2 M ⟨(i 0).val, (i 0).isLt⟩) (row2 x ⟨(i 0).val, (i 0).isLt⟩) Wih bih Whh bhh gamma beta rmean rvar
    ⟨(i 1).val, (i 1).isLt⟩

end Cert.Spec

end
-- ==== Proof.Take.lean ====
/-
  Row lookup with out-of-range fill, on indices that are in range. The kernel's program looks rows of the node
  features up with a fill value for indices outside [0, 50000): it wraps a negative index by adding 50000, gathers, and
  replaces every row whose wrapped index is outside [0, 49999] by the fill value. When every index is in [0, 50000) no row
  is replaced: the lookup is the plain gather at the wrapped index column. The precondition says exactly that of both
  rows of the edge index array.
-/
import proofs.«418614_j29317446762811_1_alg».proof.KernelIdeal
import proofs.«418614_j29317446762811_1_alg».proof.Pre_finite_inputs
import Idealize.ShloMosaic.Lib.ValueIdx
import Idealize.ShloMosaic.Lib.ReduceAll
import Idealize.ShloMosaic.Lib.StableHlo.Predicate
import Idealize.ShloMosaic.Lib.Pipeline.Value

set_option maxRecDepth 16384

noncomputable section

namespace Cert.KernelIdeal.Take

open Cert.KernelIdeal Idealize.ShloMosaic Idealize.ShloMosaic.ValueIdx

variable [Cert.KernelIdeal.Facts]
open Cert.KernelIdeal.Facts₀ Cert.KernelIdeal.Facts

/-- The index column the lookup gathers at: a negative index wrapped by adding 50000, laid out as an [800000, 1] column. -/
def wrapIdx (i : IVec S800000 32) : IVec S800000x1 32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

/-- The lookup with fill: gather at the wrapped column; a row whose wrapped index is outside [0, 49999] is replaced by the fill word. -/
def takeFill (x : FVec Ideal S50000x128 .f32) (i : IVec S800000 32) : FVec Ideal S800000x128 .f32 :=
  select
    (broadcastInDim S800000x128 ![0] bcast_S800000_S800000x128_0
      (Host.reduce IntOp.andi
        (andi (cmpi .sge (wrapIdx i) (broadcastInDim S800000x1 ![] bcast_S_S800000x1 (constantI S_ 32 0#32)))
          (cmpi .sle (wrapIdx i)
            (broadcastInDim S800000x1 ![0, 1] bcast_S1x1_S800000x1_0_1 (broadcastInDim S1x1 ![1] bcast_S1_S1x1_1 (constantI S1 32 49999#32)))))
        (constantI S_ 1 1#1) reducesTo_S800000x1_S800000_d1 h_S_))
    (Host.gather gather_S50000x128_S800000x1_S800000x128_1_0_n_n_0_1_1128 x (wrapIdx i))
    (broadcastInDim S800000x128 ![] bcast_S_S800000x128 (constant S_ .f32 0x7FC00000#32))

/-! ### Words below 50000 under the signed comparisons -/

/-- A word below 50000 is not negative as a signed word. -/
theorem slt_zero_of_lt (w : BitVec 32) (hw : w.toNat < 50000) : IntOp.cmpi .slt w 0#32 = 0#1 := by
  apply eq_zero_of_ne_one
  intro hc
  have := (StableHlo.Predicate.slt_iff_toNat (a := w) (b := 0#32) (by omega) (by decide)).1 hc
  simp at this

/-- A word below 50000 is at least 0 as a signed word. -/
theorem sge_zero_of_lt (w : BitVec 32) (hw : w.toNat < 50000) : IntOp.cmpi .sge w 0#32 = 1#1 :=
  (StableHlo.Predicate.sge_iff_toNat (a := w) (b := 0#32) (by omega) (by decide)).2 (by simp)

/-- A word below 50000 is at most 49999 as a signed word. -/
theorem sle_top_of_lt (w : BitVec 32) (hw : w.toNat < 50000) : IntOp.cmpi .sle w 49999#32 = 1#1 :=
  (StableHlo.Predicate.sle_iff_toNat (a := w) (b := 49999#32) (by omega) (by decide)).2
    (by have : (49999#32 : BitVec 32).toNat = 49999 := by decide
        omega)

/-- A word that is at least 0 and below 50000 as a signed word is below 50000 read unsigned: not being negative its sign
    bit is clear, so its signed and unsigned readings agree. -/
theorem toNat_lt_of_signed_range (w : BitVec 32) (h0 : IntOp.cmpi .sge w 0#32 = 1#1) (h1 : IntOp.cmpi .slt w 50000#32 = 1#1) :
    w.toNat < 50000 := by
  have hw : w.toNat < 2 ^ 31 := by
    have h0' : BitVec.ofBool ((0#32 : BitVec 32).sle w) = 1#1 := h0
    rw [StableHlo.Predicate.ofBool_eq_one_iff] at h0'
    simp only [BitVec.sle, decide_eq_true_eq] at h0'
    have hz : (0#32 : BitVec 32).toInt = 0 := by decide
    rw [hz, BitVec.toInt_eq_toNat_cond] at h0'
    have := w.isLt
    split at h0' <;> omega
  have := (StableHlo.Predicate.slt_iff_toNat (a := w) (b := 50000#32) hw (by decide)).1 h1
  have h5 : (50000#32 : BitVec 32).toNat = 50000 := by decide
  omega

/-- Every entry of the wrapped column is an entry of the index vector itself: no index is negative, so none is wrapped. -/
theorem wrapIdx_lt (i : IVec S800000 32) (h : ∀ e : S800000.Idx, (i e).toNat < 50000) (k : S800000x1.Idx) :
    (wrapIdx i k).toNat < 50000 := by
  unfold wrapIdx
  simp only [broadcastInDim, select_apply, cmpi, addi, constantI]
  rw [slt_zero_of_lt _ (h _), select_zero]
  exact h _

/-- A left fold by `and` from 1 over words that are all 1 is 1. -/
theorem foldl_andi_one {ι : Type} (f : ι → BitVec 1) (hf : ∀ n, f n = 1#1) (l : List ι) :
    l.foldl (fun r n => IntOp.andi r (f n)) 1#1 = 1#1 := by
  induction l with
  | nil => rfl
  | cons a l ih =>
    rw [List.foldl_cons, hf a, show IntOp.andi 1#1 1#1 = 1#1 from by decide]
    exact ih

/-- On indices in [0, 50000) the lookup with fill is the plain gather at the wrapped index column. -/
theorem takeFill_eq (x : FVec Ideal S50000x128 .f32) (i : IVec S800000 32) (h : ∀ e : S800000.Idx, (i e).toNat < 50000) :
    takeFill x i = Host.gather gather_S50000x128_S800000x1_S800000x128_1_0_n_n_0_1_1128 x (wrapIdx i) := by
  funext j
  unfold takeFill
  rw [select_apply]
  -- the mask bit of row `j 0`: every entry of the wrapped column passes both range tests
  have hel : ∀ k : S800000x1.Idx,
      andi (cmpi .sge (wrapIdx i) (broadcastInDim S800000x1 ![] bcast_S_S800000x1 (constantI S_ 32 0#32)))
        (cmpi .sle (wrapIdx i)
          (broadcastInDim S800000x1 ![0, 1] bcast_S1x1_S800000x1_0_1 (broadcastInDim S1x1 ![1] bcast_S1_S1x1_1 (constantI S1 32 49999#32)))) k
        = 1#1 := by
    intro k
    simp only [andi, cmpi, broadcastInDim, constantI]
    rw [sge_zero_of_lt _ (wrapIdx_lt i h k), sle_top_of_lt _ (wrapIdx_lt i h k)]
    decide
  have hm : ∀ r : S800000.Idx,
      Host.reduce IntOp.andi
        (andi (cmpi .sge (wrapIdx i) (broadcastInDim S800000x1 ![] bcast_S_S800000x1 (constantI S_ 32 0#32)))
          (cmpi .sle (wrapIdx i)
            (broadcastInDim S800000x1 ![0, 1] bcast_S1x1_S800000x1_0_1 (broadcastInDim S1x1 ![1] bcast_S1_S1x1_1 (constantI S1 32 49999#32)))))
        (constantI S_ 1 1#1) reducesTo_S800000x1_S800000_d1 h_S_ r = 1#1 := by
    intro r
    rw [Host.reduce_eq_foldl]
    exact foldl_andi_one _ hel _
  have hb : broadcastInDim S800000x128 ![0] bcast_S800000_S800000x128_0
      (Host.reduce IntOp.andi
        (andi (cmpi .sge (wrapIdx i) (broadcastInDim S800000x1 ![] bcast_S_S800000x1 (constantI S_ 32 0#32)))
          (cmpi .sle (wrapIdx i)
            (broadcastInDim S800000x1 ![0, 1] bcast_S1x1_S800000x1_0_1 (broadcastInDim S1x1 ![1] bcast_S1_S1x1_1 (constantI S1 32 49999#32)))))
        (constantI S_ 1 1#1) reducesTo_S800000x1_S800000_d1 h_S_) j = 1#1 := hm _
  rw [hb, select_one]

/-- The precondition's two last conjuncts: every entry of the edge index array, read unsigned, is below 50000
    (it is at least 0 and below 50000 as a signed word). -/
theorem range_of_pre [Cert.Pre_finite_inputs.Facts]
    (a0 : FVec Ideal S50000x128 .f32) (a1 : FVec Ideal S800000x32 .f32) (a2 : IVec S2x800000 32) (a3 : FVec Ideal S32x32 .f32)
    (a4 : FVec Ideal S32 .f32) (a5 : FVec Ideal S32x32 .f32) (a6 : FVec Ideal S32 .f32) (a7 : FVec Ideal S288x128 .f32)
    (a8 : FVec Ideal S128 .f32) (a9 : FVec Ideal S128x64 .f32) (a10 : FVec Ideal S64 .f32) (a11 : FVec Ideal S64x128 .f32)
    (a12 : FVec Ideal S128 .f32) (a13 : FVec Ideal S128x384 .f32) (a14 : FVec Ideal S384 .f32) (a15 : FVec Ideal S128x384 .f32)
    (a16 : FVec Ideal S384 .f32) (a17 a18 a19 a20 : FVec Ideal S128 .f32)
    (h : Cert.Pre_finite_inputs.fn (F := Ideal) a0 a1 a2 a3 a4 a5 a6 a7 a8 a9 a10 a11 a12 a13 a14 a15 a16 a17 a18 a19 a20 = fun _ => 1#1) :
    ∀ j : S2x800000.Idx, (a2 j).toNat < 50000 := by
  -- the predicate is one bit; it is the conjunction of all its tests, the two range tests last
  have e := congrFun h ValueIdx.ix0
  dsimp only [Cert.Pre_finite_inputs.fn, Cert.Pre_finite_inputs.fn_part1, Cert.Pre_finite_inputs.fn_part2, Cert.Pre_finite_inputs.fn_part3,
    Cert.Pre_finite_inputs.fn_part4, Cert.Pre_finite_inputs.fn_part5, Cert.Pre_finite_inputs.fn_part6] at e
  obtain ⟨e1, e2⟩ := IntOp.andi_eq_one.1 e
  obtain ⟨e3, e4⟩ := IntOp.andi_eq_one.1 e1
  clear e e1 e3
  -- each range test is a conjunction over all entries: it holds of entry `j`
  intro j
  haveI : Subsingleton Cert.Pre_finite_inputs.S_.Idx := ⟨fun a b => funext fun d => d.elim0⟩
  have g0 := Host.reduce_andi_all _ _ _ _ ValueIdx.ix0 e4 j
  have g1 := Host.reduce_andi_all _ _ _ _ ValueIdx.ix0 e2 j
  simp only [cmpi, broadcastInDim, constantI] at g0 g1
  exact toNat_lt_of_signed_range _ g0 g1

end Cert.KernelIdeal.Take

end
-- ==== Proof.KResult.lean ====
/-
  What the kernel's program leaves in its result, as one function of its arguments and of the two looked-up
  feature arrays: the node update (`Cert.Spec.updArr`) of the scatter-added messages (`Cert.Spec.msgArr`), the
  weights read as the program's host operations lay them out (a bias as the row of its one-row cast; the
  first-layer matrix as its three row slices — `Cert.Spec.row2_shapeCast`, `mat2_slice_*` turn those into the
  vector and the leading, middle and trailing rows).
-/
import proofs.«418614_j29317446762811_1_alg».proof.KernelIdeal
import proofs.«418614_j29317446762811_1_alg».proof.Proof.Spec
import proofs.«418614_j29317446762811_1_alg».proof.Proof.Take

noncomputable section

namespace Cert.KernelIdeal.Glue

open Cert.KernelIdeal Cert.KernelIdeal.Take Cert.Spec Idealize.ShloMosaic Idealize.ShloMosaic.ValueIdx

variable [Cert.KernelIdeal.Facts]
open Cert.KernelIdeal.Facts₀ Cert.KernelIdeal.Facts

/-- The second row of the edge index array, flat: the destinations. -/
def dstOf (a : IVec S2x800000 32) : IVec S800000 32 :=
  shapeCast S800000 (extractStridedSlice S1x800000 ![1, 0] a slices_S2x800000_S1x800000_1_0) shapeCasts_S1x800000_S800000

/-- The first row of the edge index array, flat: the sources. -/
def srcOf (a : IVec S2x800000 32) : IVec S800000 32 :=
  shapeCast S800000 (extractStridedSlice S1x800000 ![0, 0] a slices_S2x800000_S1x800000_0_0) shapeCasts_S1x800000_S800000

/-- The messages scatter-added to their destination nodes, from zero. -/
def aggregate (a2 : IVec S2x800000 32) (msg : FVec Ideal S800000x128 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (dstOf a2)) msg

/-- The kernel program's result from the looked-up features `xd`, `xs` and the arguments. -/
def kernelResult (xd xs : FVec Ideal S800000x128 .f32) (x : FVec Ideal S50000x128 .f32) (ea : FVec Ideal S800000x32 .f32)
    (a2 : IVec S2x800000 32) (We1 : FVec Ideal S32x32 .f32) (be1 : FVec Ideal S32 .f32) (We2 : FVec Ideal S32x32 .f32)
    (be2 : FVec Ideal S32 .f32) (Wm1 : FVec Ideal S288x128 .f32) (bm1 : FVec Ideal S128 .f32) (Wm2 : FVec Ideal S128x64 .f32)
    (bm2 : FVec Ideal S64 .f32) (Wm3 : FVec Ideal S64x128 .f32) (bm3 : FVec Ideal S128 .f32) (Wih : FVec Ideal S128x384 .f32)
    (bih : FVec Ideal S384 .f32) (Whh : FVec Ideal S128x384 .f32) (bhh : FVec Ideal S384 .f32)
    (gamma beta rmean rvar : FVec Ideal S128 .f32) : FVec Ideal S50000x128 .f32 :=
  updArr
    (aggregate a2
      (msgArr xd xs ea (mat2 We1) (vec1 be1) (mat2 We2) (vec1 be2) (topRows (mat2 Wm1)) (midRows (mat2 Wm1)) (botRows (mat2 Wm1))
        (vec1 bm1) (mat2 Wm2) (vec1 bm2) (mat2 Wm3) (vec1 bm3)))
    x (mat2 Wih) (vec1 bih) (mat2 Whh) (vec1 bhh) (vec1 gamma) (vec1 beta) (vec1 rmean) (vec1 rvar)

end Cert.KernelIdeal.Glue

end
-- ==== Proof.KEntry.lean ====
/-
  The kernel program's buffers at its two regions' entries, read back to the arguments: each host operation before
  a region writes its own result buffer and leaves the others, so a buffer's contents at a region's entry are the
  operations that wrote it, applied to the arguments.
-/
import proofs.«418614_j29317446762811_1_alg».proof.Proof.Gen.KernelIdeal.Frame
import proofs.«418614_j29317446762811_1_alg».proof.Proof.KResult
import Idealize.ShloMosaic.Lib.StableHlo.Run

set_option maxRecDepth 16384

noncomputable section

namespace Cert.KernelIdeal.Glue

open Cert.KernelIdeal Cert.KernelIdeal.Gen Cert.KernelIdeal.Take Cert.Spec
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The host operations before the first region, as one list. -/
abbrev pre0 : List (HloOp τ sig (Elt Ideal)) := hostOps0 ++ (hostOps0_1 ++ (hostOps0_2 ++ hostOps0_3))

/-- The first region is entered from the launch contents after those operations. -/
theorem W4_eq (c : Dev nD) : W4 (F := Ideal) m ρ c = StableHlo.after pre0 (W0 m ρ c) := by
  show StableHlo.after hostOps0_3 (StableHlo.after hostOps0_2 (StableHlo.after hostOps0_1 (StableHlo.after hostOps0 (W0 m ρ c)))) = _
  unfold pre0
  rw [StableHlo.after_append, StableHlo.after_append, StableHlo.after_append]

/-! ## At the first region's entry -/

theorem W4_arg0 (c : Dev nD) : W4 (F := Ideal) m ρ c (Proc.devRef .tc main_arg0) = m ((c : Thread nD τ).loc main_arg0) := by
  rw [W4_eq]; simp only [pre0, hostOps0, hostOps0_1, hostOps0_2, hostOps0_3, List.cons_append, List.nil_append]
  after_results_simp
theorem W4_arg1 (c : Dev nD) : W4 (F := Ideal) m ρ c (Proc.devRef .tc main_arg1) = m ((c : Thread nD τ).loc main_arg1) := by
  rw [W4_eq]; simp only [pre0, hostOps0, hostOps0_1, hostOps0_2, hostOps0_3, List.cons_append, List.nil_append]
  after_results_simp
theorem W4_arg3 (c : Dev nD) : W4 (F := Ideal) m ρ c (Proc.devRef .tc main_arg3) = m ((c : Thread nD τ).loc main_arg3) := by
  rw [W4_eq]; simp only [pre0, hostOps0, hostOps0_1, hostOps0_2, hostOps0_3, List.cons_append, List.nil_append]
  after_results_simp
theorem W4_arg5 (c : Dev nD) : W4 (F := Ideal) m ρ c (Proc.devRef .tc main_arg5) = m ((c : Thread nD τ).loc main_arg5) := by
  rw [W4_eq]; simp only [pre0, hostOps0, hostOps0_1, hostOps0_2, hostOps0_3, List.cons_append, List.nil_append]
  after_results_simp
theorem W4_arg9 (c : Dev nD) : W4 (F := Ideal) m ρ c (Proc.devRef .tc main_arg9) = m ((c : Thread nD τ).loc main_arg9) := by
  rw [W4_eq]; simp only [pre0, hostOps0, hostOps0_1, hostOps0_2, hostOps0_3, List.cons_append, List.nil_append]
  after_results_simp
theorem W4_arg11 (c : Dev nD) : W4 (F := Ideal) m ρ c (Proc.devRef .tc main_arg11) = m ((c : Thread nD τ).loc main_arg11) := by
  rw [W4_eq]; simp only [pre0, hostOps0, hostOps0_1, hostOps0_2, hostOps0_3, List.cons_append, List.nil_append]
  after_results_simp
theorem W4_arg13 (c : Dev nD) : W4 (F := Ideal) m ρ c (Proc.devRef .tc main_arg13) = m ((c : Thread nD τ).loc main_arg13) := by
  rw [W4_eq]; simp only [pre0, hostOps0, hostOps0_1, hostOps0_2, hostOps0_3, List.cons_append, List.nil_append]
  after_results_simp
theorem W4_arg14 (c : Dev nD) : W4 (F := Ideal) m ρ c (Proc.devRef .tc main_arg14) = m ((c : Thread nD τ).loc main_arg14) := by
  rw [W4_eq]; simp only [pre0, hostOps0, hostOps0_1, hostOps0_2, hostOps0_3, List.cons_append, List.nil_append]
  after_results_simp
theorem W4_arg15 (c : Dev nD) : W4 (F := Ideal) m ρ c (Proc.devRef .tc main_arg15) = m ((c : Thread nD τ).loc main_arg15) := by
  rw [W4_eq]; simp only [pre0, hostOps0, hostOps0_1, hostOps0_2, hostOps0_3, List.cons_append, List.nil_append]
  after_results_simp
theorem W4_arg16 (c : Dev nD) : W4 (F := Ideal) m ρ c (Proc.devRef .tc main_arg16) = m ((c : Thread nD τ).loc main_arg16) := by
  rw [W4_eq]; simp only [pre0, hostOps0, hostOps0_1, hostOps0_2, hostOps0_3, List.cons_append, List.nil_append]
  after_results_simp
theorem W4_arg17 (c : Dev nD) : W4 (F := Ideal) m ρ c (Proc.devRef .tc main_arg17) = m ((c : Thread nD τ).loc main_arg17) := by
  rw [W4_eq]; simp only [pre0, hostOps0, hostOps0_1, hostOps0_2, hostOps0_3, List.cons_append, List.nil_append]
  after_results_simp
theorem W4_arg18 (c : Dev nD) : W4 (F := Ideal) m ρ c (Proc.devRef .tc main_arg18) = m ((c : Thread nD τ).loc main_arg18) := by
  rw [W4_eq]; simp only [pre0, hostOps0, hostOps0_1, hostOps0_2, hostOps0_3, List.cons_append, List.nil_append]
  after_results_simp
theorem W4_arg19 (c : Dev nD) : W4 (F := Ideal) m ρ c (Proc.devRef .tc main_arg19) = m ((c : Thread nD τ).loc main_arg19) := by
  rw [W4_eq]; simp only [pre0, hostOps0, hostOps0_1, hostOps0_2, hostOps0_3, List.cons_append, List.nil_append]
  after_results_simp
theorem W4_arg20 (c : Dev nD) : W4 (F := Ideal) m ρ c (Proc.devRef .tc main_arg20) = m ((c : Thread nD τ).loc main_arg20) := by
  rw [W4_eq]; simp only [pre0, hostOps0, hostOps0_1, hostOps0_2, hostOps0_3, List.cons_append, List.nil_append]
  after_results_simp

theorem W4_v3 (c : Dev nD) : W4 (F := Ideal) m ρ c (Proc.devRef .tc main_v3) = dstOf (m ((c : Thread nD τ).loc main_arg2)) := by
  rw [W4_eq]; simp only [pre0, hostOps0, hostOps0_1, hostOps0_2, hostOps0_3, List.cons_append, List.nil_append]
  after_results_simp
  rfl
theorem W4_v6 (c : Dev nD) : W4 (F := Ideal) m ρ c (Proc.devRef .tc main_v6) = extractStridedSlice S128x128 ![0, 0] (m ((c : Thread nD τ).loc main_arg7)) slices_S288x128_S128x128_0_0 := by
  rw [W4_eq]; simp only [pre0, hostOps0, hostOps0_1, hostOps0_2, hostOps0_3, List.cons_append, List.nil_append]
  after_results_simp
theorem W4_v7 (c : Dev nD) : W4 (F := Ideal) m ρ c (Proc.devRef .tc main_v7) = extractStridedSlice S128x128 ![128, 0] (m ((c : Thread nD τ).loc main_arg7)) slices_S288x128_S128x128_128_0 := by
  rw [W4_eq]; simp only [pre0, hostOps0, hostOps0_1, hostOps0_2, hostOps0_3, List.cons_append, List.nil_append]
  after_results_simp
theorem W4_v8 (c : Dev nD) : W4 (F := Ideal) m ρ c (Proc.devRef .tc main_v8) = extractStridedSlice S32x128 ![256, 0] (m ((c : Thread nD τ).loc main_arg7)) slices_S288x128_S32x128_256_0 := by
  rw [W4_eq]; simp only [pre0, hostOps0, hostOps0_1, hostOps0_2, hostOps0_3, List.cons_append, List.nil_append]
  after_results_simp
theorem W4_v9 (c : Dev nD) : W4 (F := Ideal) m ρ c (Proc.devRef .tc main_v9) = shapeCast S1x32 (m ((c : Thread nD τ).loc main_arg4)) shapeCasts_S32_S1x32 := by
  rw [W4_eq]; simp only [pre0, hostOps0, hostOps0_1, hostOps0_2, hostOps0_3, List.cons_append, List.nil_append]
  after_results_simp
  rfl
theorem W4_v10 (c : Dev nD) : W4 (F := Ideal) m ρ c (Proc.devRef .tc main_v10) = shapeCast S1x32 (m ((c : Thread nD τ).loc main_arg6)) shapeCasts_S32_S1x32 := by
  rw [W4_eq]; simp only [pre0, hostOps0, hostOps0_1, hostOps0_2, hostOps0_3, List.cons_append, List.nil_append]
  after_results_simp
  rfl
theorem W4_v11 (c : Dev nD) : W4 (F := Ideal) m ρ c (Proc.devRef .tc main_v11) = shapeCast S1x128 (m ((c : Thread nD τ).loc main_arg8)) shapeCasts_S128_S1x128 := by
  rw [W4_eq]; simp only [pre0, hostOps0, hostOps0_1, hostOps0_2, hostOps0_3, List.cons_append, List.nil_append]
  after_results_simp
  rfl
theorem W4_v12 (c : Dev nD) : W4 (F := Ideal) m ρ c (Proc.devRef .tc main_v12) = shapeCast S1x64 (m ((c : Thread nD τ).loc main_arg10)) shapeCasts_S64_S1x64 := by
  rw [W4_eq]; simp only [pre0, hostOps0, hostOps0_1, hostOps0_2, hostOps0_3, List.cons_append, List.nil_append]
  after_results_simp
  rfl
theorem W4_v13 (c : Dev nD) : W4 (F := Ideal) m ρ c (Proc.devRef .tc main_v13) = shapeCast S1x128 (m ((c : Thread nD τ).loc main_arg12)) shapeCasts_S128_S1x128 := by
  rw [W4_eq]; simp only [pre0, hostOps0, hostOps0_1, hostOps0_2, hostOps0_3, List.cons_append, List.nil_append]
  after_results_simp
  rfl

end Cert.KernelIdeal.Glue

end
-- ==== Proof.KTake.lean ====
/-
  The kernel program's two row lookups at the first region's entry: each is the lookup with fill of the node features at
  one row of the edge index array (the destinations, then the sources).
-/
import proofs.«418614_j29317446762811_1_alg».proof.Proof.KEntry

set_option maxRecDepth 16384

noncomputable section

namespace Cert.KernelIdeal.Glue

open Cert.KernelIdeal Cert.KernelIdeal.Gen Cert.KernelIdeal.Take Cert.Spec
open Idealize.ShloMosaic Idealize.ShloMosaic.TcCoe Idealize.ShloMosaic.ValueIdx Idealize.SL.Sem Idealize.ShloMosaic.StableHlo

/-- Contents moved to a typed reference's buffer type and back are the contents. -/
theorem ofBuf_toBuf {σ : RefSig} {Val : EltTy → Type} {T : BufTy} (x : StableHlo.TRef σ T) (v : T.Contents Val) :
    x.ofBuf (x.toBuf v) = v := by
  obtain ⟨r, h, a, b⟩ := x
  subst h
  rfl

/-! At a literal reference the buffer's type is the value's type, and the move between them is the identity. -/

theorem toBuf_arg0 (x : FVec Ideal S50000x128 .f32) :
    (TRef.of main_arg0 : TRef sig ⟨S50000x128, .f32⟩).toBuf (Val := Elt Ideal) x = x := rfl
theorem toBuf_v1 (i : IVec S800000 32) :
    (TRef.of main_v1 : TRef sig ⟨S800000, .i32⟩).toBuf (Val := Elt Ideal) i = i := rfl
theorem toBuf_v3 (i : IVec S800000 32) :
    (TRef.of main_v3 : TRef sig ⟨S800000, .i32⟩).toBuf (Val := Elt Ideal) i = i := rfl
theorem toBuf_v4 (y : FVec Ideal S800000x128 .f32) :
    (TRef.of main_v4 : TRef sig ⟨S800000x128, .f32⟩).toBuf (Val := Elt Ideal) y = y := rfl
theorem toBuf_v5 (y : FVec Ideal S800000x128 .f32) :
    (TRef.of main_v5 : TRef sig ⟨S800000x128, .f32⟩).toBuf (Val := Elt Ideal) y = y := rfl

/-! The two lookups, each from any contents: the 23 operations wrap the index, gather, test the range and select. -/

set_option maxHeartbeats 400000 in
/-- The first lookup: from contents whose features buffer holds `x` and whose destination-index buffer holds `i`, its result buffer holds the lookup with fill of `x` at `i`. -/
theorem take_dst (Vv : Valuation τ sig (Elt Ideal)) (x : FVec Ideal S50000x128 .f32) (i : IVec S800000 32)
    (hx : Vv (Proc.devRef .tc main_arg0) = (TRef.of main_arg0 : TRef sig ⟨S50000x128, .f32⟩).toBuf x)
    (hi : Vv (Proc.devRef .tc main_v3) = (TRef.of main_v3 : TRef sig ⟨S800000, .i32⟩).toBuf i) :
    StableHlo.after (hostOps0_1 (F := Ideal)) Vv (Proc.devRef .tc main_v4)
      = (TRef.of main_v4 : TRef sig ⟨S800000x128, .f32⟩).toBuf (takeFill x i) := by
  after_results_simp
  rw [hx, hi]
  simp only [ofBuf_toBuf]
  unfold takeFill wrapIdx
  rfl

set_option maxHeartbeats 400000 in
/-- The second lookup, the same at the source-index buffer. -/
theorem take_src (Vv : Valuation τ sig (Elt Ideal)) (x : FVec Ideal S50000x128 .f32) (i : IVec S800000 32)
    (hx : Vv (Proc.devRef .tc main_arg0) = (TRef.of main_arg0 : TRef sig ⟨S50000x128, .f32⟩).toBuf x)
    (hi : Vv (Proc.devRef .tc main_v1) = (TRef.of main_v1 : TRef sig ⟨S800000, .i32⟩).toBuf i) :
    StableHlo.after (hostOps0_2 (F := Ideal)) Vv (Proc.devRef .tc main_v5)
      = (TRef.of main_v5 : TRef sig ⟨S800000x128, .f32⟩).toBuf (takeFill x i) := by
  after_results_simp
  rw [hx, hi]
  simp only [ofBuf_toBuf]
  unfold takeFill wrapIdx
  rfl

/-! What the other stretches leave alone. -/

set_option maxHeartbeats 400000 in
theorem ops3_v4 (V : Valuation τ sig (Elt Ideal)) :
    StableHlo.after (hostOps0_3 (F := Ideal)) V (Proc.devRef .tc main_v4) = V (Proc.devRef .tc main_v4) := by
  after_results_simp

set_option maxHeartbeats 400000 in
theorem ops3_v5 (V : Valuation τ sig (Elt Ideal)) :
    StableHlo.after (hostOps0_3 (F := Ideal)) V (Proc.devRef .tc main_v5) = V (Proc.devRef .tc main_v5) := by
  after_results_simp

set_option maxHeartbeats 400000 in
theorem ops2_v4 (V : Valuation τ sig (Elt Ideal)) :
    StableHlo.after (hostOps0_2 (F := Ideal)) V (Proc.devRef .tc main_v4) = V (Proc.devRef .tc main_v4) := by
  after_results_simp

set_option maxHeartbeats 400000 in
theorem ops1_arg0 (V : Valuation τ sig (Elt Ideal)) :
    StableHlo.after (hostOps0_1 (F := Ideal)) V (Proc.devRef .tc main_arg0) = V (Proc.devRef .tc main_arg0) := by
  after_results_simp

set_option maxHeartbeats 400000 in
theorem ops1_v1 (V : Valuation τ sig (Elt Ideal)) :
    StableHlo.after (hostOps0_1 (F := Ideal)) V (Proc.devRef .tc main_v1) = V (Proc.devRef .tc main_v1) := by
  after_results_simp

variable (m : (ℓ : Loc nD τ sig) → Buf (Elt Ideal) ℓ) (ρ : Dev nD → PrngReg)

/-! After the first four operations: the features as launched, and the two rows of the edge index array, flat. -/

theorem W1_arg0 (c : Dev nD) : W1 (F := Ideal) m ρ c (Proc.devRef .tc main_arg0) = m ((c : Thread nD τ).loc main_arg0) := by
  show StableHlo.after hostOps0 (W0 m ρ c) (Proc.devRef .tc main_arg0) = _
  after_results_simp
theorem W1_v3 (c : Dev nD) : W1 (F := Ideal) m ρ c (Proc.devRef .tc main_v3) = dstOf (m ((c : Thread nD τ).loc main_arg2)) := by
  show StableHlo.after hostOps0 (W0 m ρ c) (Proc.devRef .tc main_v3) = _
  after_results_simp
  rfl
theorem W1_v1 (c : Dev nD) : W1 (F := Ideal) m ρ c (Proc.devRef .tc main_v1) = srcOf (m ((c : Thread nD τ).loc main_arg2)) := by
  show StableHlo.after hostOps0 (W0 m ρ c) (Proc.devRef .tc main_v1) = _
  after_results_simp
  rfl

theorem W4_v4 (c : Dev nD) : W4 (F := Ideal) m ρ c (Proc.devRef .tc main_v4)
    = takeFill (m ((c : Thread nD τ).loc main_arg0)) (dstOf (m ((c : Thread nD τ).loc main_arg2))) := by
  show StableHlo.after hostOps0_3 (StableHlo.after hostOps0_2 (StableHlo.after hostOps0_1 (W1 m ρ c))) (Proc.devRef .tc main_v4) = _
  rw [ops3_v4, ops2_v4,
    take_dst (W1 m ρ c) _ _ ((W1_arg0 m ρ c).trans (toBuf_arg0 _).symm) ((W1_v3 m ρ c).trans (toBuf_v3 _).symm), toBuf_v4]

theorem W4_v5 (c : Dev nD) : W4 (F := Ideal) m ρ c (Proc.devRef .tc main_v5)
    = takeFill (m ((c : Thread nD τ).loc main_arg0)) (srcOf (m ((c : Thread nD τ).loc main_arg2))) := by
  show StableHlo.after hostOps0_3 (StableHlo.after hostOps0_2 (StableHlo.after hostOps0_1 (W1 m ρ c))) (Proc.devRef .tc main_v5) = _
  rw [ops3_v5,
    take_src (StableHlo.after hostOps0_1 (W1 m ρ c)) _ _
      ((ops1_arg0 _).trans ((W1_arg0 m ρ c).trans (toBuf_arg0 _).symm))
      ((ops1_v1 _).trans ((W1_v1 m ρ c).trans (toBuf_v1 _).symm)), toBuf_v5]

end Cert.KernelIdeal.Glue

end
-- ==== Proof.K0.lean ====
/-
  The first kernel region (one grid point per 4000 edges) at the extended reals: what it leaves in the
  message array, as one function of the arrays it finds when it is entered.
-/
import proofs.«418614_j29317446762811_1_alg».proof.Proof.Gen.KernelIdeal.Frame
import proofs.«418614_j29317446762811_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Cert.Spec
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! The contraction `4000x32 · 32x32`: the left operand is read at (row, k), the right at (k, column). -/

private theorem mm_enc_lhs_0 (i : S4000x32.Idx) (q : dot_S4000x32_S32x32_S4000x32_1_0_0_1_n_n.contr.Idx) :
    (dot_S4000x32_S32x32_S4000x32_1_0_0_1_n_n.lhsIdx i q 0).val = (i 0).val := by
  unfold DotDims.lhsIdx
  rw [dif_neg (show ¬(0 : Fin S4000x32.rank) ∈ dot_S4000x32_S32x32_S4000x32_1_0_0_1_n_n.lhsBatch by decide), dif_pos (show (0 : Fin S4000x32.rank) ∈ dot_S4000x32_S32x32_S4000x32_1_0_0_1_n_n.lhsNonContracting by decide)]
  rfl
private theorem mm_enc_lhs_1 (i : S4000x32.Idx) (q : dot_S4000x32_S32x32_S4000x32_1_0_0_1_n_n.contr.Idx) :
    (dot_S4000x32_S32x32_S4000x32_1_0_0_1_n_n.lhsIdx i q 1).val = (q ⟨0, by decide⟩).val :=
  dot_S4000x32_S32x32_S4000x32_1_0_0_1_n_n.lhsIdx_val_of_single rfl i q
private theorem mm_enc_rhs_0 (i : S4000x32.Idx) (q : dot_S4000x32_S32x32_S4000x32_1_0_0_1_n_n.contr.Idx) :
    (dot_S4000x32_S32x32_S4000x32_1_0_0_1_n_n.rhsIdx i q 0).val = (q ⟨0, by decide⟩).val :=
  dot_S4000x32_S32x32_S4000x32_1_0_0_1_n_n.rhsIdx_val_of_single rfl i q
private theorem mm_enc_rhs_1 (i : S4000x32.Idx) (q : dot_S4000x32_S32x32_S4000x32_1_0_0_1_n_n.contr.Idx) :
    (dot_S4000x32_S32x32_S4000x32_1_0_0_1_n_n.rhsIdx i q 1).val = (i 1).val := by
  unfold DotDims.rhsIdx
  rw [dif_neg (show ¬(1 : Fin S32x32.rank) ∈ dot_S4000x32_S32x32_S4000x32_1_0_0_1_n_n.rhsBatch by decide), dif_pos (show (1 : Fin S32x32.rank) ∈ dot_S4000x32_S32x32_S4000x32_1_0_0_1_n_n.rhsNonContracting by decide)]
  rfl

/-- Entry (p, j) of the product into a zero accumulator is the sum over k of A(p, k) · B(k, j). -/
theorem mm_enc_apply (A : FVec Ideal S4000x32 .bf16) (B : FVec Ideal S32x32 .bf16) (p : Fin 4000) (j : Fin 32) :
    matmul dot_S4000x32_S32x32_S4000x32_1_0_0_1_n_n none A B (constant (F := Ideal) S4000x32 .f32 0x00000000#32) (ix2 p j)
      = ∑ k : Fin 32, A (ix2 p k) * B (ix2 k j) := by
  simp only [matmul]
  rw [Ideal.matmul_constant_zero_apply, ← Equiv.sum_comp (contrEquiv1 dot_S4000x32_S32x32_S4000x32_1_0_0_1_n_n 32 rfl rfl).symm]
  refine Finset.sum_congr rfl fun k _ => ?_
  have hk := contrEquiv1_symm_val dot_S4000x32_S32x32_S4000x32_1_0_0_1_n_n 32 rfl rfl k
  have el : dot_S4000x32_S32x32_S4000x32_1_0_0_1_n_n.lhsIdx (ix2 p j) ((contrEquiv1 dot_S4000x32_S32x32_S4000x32_1_0_0_1_n_n 32 rfl rfl).symm k) = ix2 p k := funext fun a => Fin.ext (by
    match a with
    | ⟨0, _⟩ => exact mm_enc_lhs_0 _ _
    | ⟨1, _⟩ => exact (mm_enc_lhs_1 _ _).trans hk)
  have er : dot_S4000x32_S32x32_S4000x32_1_0_0_1_n_n.rhsIdx (ix2 p j) ((contrEquiv1 dot_S4000x32_S32x32_S4000x32_1_0_0_1_n_n 32 rfl rfl).symm k) = ix2 k j := funext fun a => Fin.ext (by
    match a with
    | ⟨0, _⟩ => exact (mm_enc_rhs_0 _ _).trans hk
    | ⟨1, _⟩ => exact mm_enc_rhs_1 _ _)
  rw [el, er]

/-! The contraction `4000x128 · 128x128`: the left operand is read at (row, k), the right at (k, column). -/

private theorem mm_node_lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
private theorem mm_node_lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
private theorem mm_node_rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
private theorem mm_node_rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry (p, j) of the product into a zero accumulator is the sum over k of A(p, k) · B(k, j). -/
theorem mm_node_apply (A : FVec Ideal S4000x128 .bf16) (B : FVec Ideal S128x128 .bf16) (p : Fin 4000) (j : Fin 128) :
    matmul dot_S4000x128_S128x128_S4000x128_1_0_0_1_n_n none A B (constant (F := Ideal) S4000x128 .f32 0x00000000#32) (ix2 p j)
      = ∑ k : Fin 128, A (ix2 p k) * B (ix2 k j) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p j) ((contrEquiv1 dot_S4000x128_S128x128_S4000x128_1_0_0_1_n_n 128 rfl rfl).symm k) = ix2 p k := funext fun a => Fin.ext (by
    match a with
    | ⟨0, _⟩ => exact mm_node_lhs_0 _ _
    | ⟨1, _⟩ => exact (mm_node_lhs_1 _ _).trans hk)
  have er : dot_S4000x128_S128x128_S4000x128_1_0_0_1_n_n.rhsIdx (ix2 p j) ((contrEquiv1 dot_S4000x128_S128x128_S4000x128_1_0_0_1_n_n 128 rfl rfl).symm k) = ix2 k j := funext fun a => Fin.ext (by
    match a with
    | ⟨0, _⟩ => exact (mm_node_rhs_0 _ _).trans hk
    | ⟨1, _⟩ => exact mm_node_rhs_1 _ _)
  rw [el, er]

/-! The contraction `4000x32 · 32x128`: the left operand is read at (row, k), the right at (k, column). -/

private theorem mm_edge_lhs_0 (i : S4000x128.Idx) (q : dot_S4000x32_S32x128_S4000x128_1_0_0_1_n_n.contr.Idx) :
    (dot_S4000x32_S32x128_S4000x128_1_0_0_1_n_n.lhsIdx i q 0).val = (i 0).val := by
  unfold DotDims.lhsIdx
  rw [dif_neg (show ¬(0 : Fin S4000x32.rank) ∈ dot_S4000x32_S32x128_S4000x128_1_0_0_1_n_n.lhsBatch by decide), dif_pos (show (0 : Fin S4000x32.rank) ∈ dot_S4000x32_S32x128_S4000x128_1_0_0_1_n_n.lhsNonContracting by decide)]
  rfl
private theorem mm_edge_lhs_1 (i : S4000x128.Idx) (q : dot_S4000x32_S32x128_S4000x128_1_0_0_1_n_n.contr.Idx) :
    (dot_S4000x32_S32x128_S4000x128_1_0_0_1_n_n.lhsIdx i q 1).val = (q ⟨0, by decide⟩).val :=
  dot_S4000x32_S32x128_S4000x128_1_0_0_1_n_n.lhsIdx_val_of_single rfl i q
private theorem mm_edge_rhs_0 (i : S4000x128.Idx) (q : dot_S4000x32_S32x128_S4000x128_1_0_0_1_n_n.contr.Idx) :
    (dot_S4000x32_S32x128_S4000x128_1_0_0_1_n_n.rhsIdx i q 0).val = (q ⟨0, by decide⟩).val :=
  dot_S4000x32_S32x128_S4000x128_1_0_0_1_n_n.rhsIdx_val_of_single rfl i q
private theorem mm_edge_rhs_1 (i : S4000x128.Idx) (q : dot_S4000x32_S32x128_S4000x128_1_0_0_1_n_n.contr.Idx) :
    (dot_S4000x32_S32x128_S4000x128_1_0_0_1_n_n.rhsIdx i q 1).val = (i 1).val := by
  unfold DotDims.rhsIdx
  rw [dif_neg (show ¬(1 : Fin S32x128.rank) ∈ dot_S4000x32_S32x128_S4000x128_1_0_0_1_n_n.rhsBatch by decide), dif_pos (show (1 : Fin S32x128.rank) ∈ dot_S4000x32_S32x128_S4000x128_1_0_0_1_n_n.rhsNonContracting by decide)]
  rfl

/-- Entry (p, j) of the product into a zero accumulator is the sum over k of A(p, k) · B(k, j). -/
theorem mm_edge_apply (A : FVec Ideal S4000x32 .bf16) (B : FVec Ideal S32x128 .bf16) (p : Fin 4000) (j : Fin 128) :
    matmul dot_S4000x32_S32x128_S4000x128_1_0_0_1_n_n none A B (constant (F := Ideal) S4000x128 .f32 0x00000000#32) (ix2 p j)
      = ∑ k : Fin 32, A (ix2 p k) * B (ix2 k j) := by
  simp only [matmul]
  rw [Ideal.matmul_constant_zero_apply, ← Equiv.sum_comp (contrEquiv1 dot_S4000x32_S32x128_S4000x128_1_0_0_1_n_n 32 rfl rfl).symm]
  refine Finset.sum_congr rfl fun k _ => ?_
  have hk := contrEquiv1_symm_val dot_S4000x32_S32x128_S4000x128_1_0_0_1_n_n 32 rfl rfl k
  have el : dot_S4000x32_S32x128_S4000x128_1_0_0_1_n_n.lhsIdx (ix2 p j) ((contrEquiv1 dot_S4000x32_S32x128_S4000x128_1_0_0_1_n_n 32 rfl rfl).symm k) = ix2 p k := funext fun a => Fin.ext (by
    match a with
    | ⟨0, _⟩ => exact mm_edge_lhs_0 _ _
    | ⟨1, _⟩ => exact (mm_edge_lhs_1 _ _).trans hk)
  have er : dot_S4000x32_S32x128_S4000x128_1_0_0_1_n_n.rhsIdx (ix2 p j) ((contrEquiv1 dot_S4000x32_S32x128_S4000x128_1_0_0_1_n_n 32 rfl rfl).symm k) = ix2 k j := funext fun a => Fin.ext (by
    match a with
    | ⟨0, _⟩ => exact (mm_edge_rhs_0 _ _).trans hk
    | ⟨1, _⟩ => exact mm_edge_rhs_1 _ _)
  rw [el, er]

/-! The contraction `4000x128 · 128x64`: the left operand is read at (row, k), the right at (k, column). -/

private theorem mm_mid_lhs_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
private theorem mm_mid_lhs_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
private theorem mm_mid_rhs_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
private theorem mm_mid_rhs_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- Entry (p, j) of the product into a zero accumulator is the sum over k of A(p, k) · B(k, j). -/
theorem mm_mid_apply (A : FVec Ideal S4000x128 .bf16) (B : FVec Ideal S128x64 .bf16) (p : Fin 4000) (j : Fin 64) :
    matmul dot_S4000x128_S128x64_S4000x64_1_0_0_1_n_n none A B (constant (F := Ideal) S4000x64 .f32 0x00000000#32) (ix2 p j)
      = ∑ k : Fin 128, A (ix2 p k) * B (ix2 k j) := by
  simp only [matmul]
  rw [Ideal.matmul_constant_zero_apply, ← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p j) ((contrEquiv1 dot_S4000x128_S128x64_S4000x64_1_0_0_1_n_n 128 rfl rfl).symm k) = ix2 p k := funext fun a => Fin.ext (by
    match a with
    | ⟨0, _⟩ => exact mm_mid_lhs_0 _ _
    | ⟨1, _⟩ => exact (mm_mid_lhs_1 _ _).trans hk)
  have er : dot_S4000x128_S128x64_S4000x64_1_0_0_1_n_n.rhsIdx (ix2 p j) ((contrEquiv1 dot_S4000x128_S128x64_S4000x64_1_0_0_1_n_n 128 rfl rfl).symm k) = ix2 k j := funext fun a => Fin.ext (by
    match a with
    | ⟨0, _⟩ => exact (mm_mid_rhs_0 _ _).trans hk
    | ⟨1, _⟩ => exact mm_mid_rhs_1 _ _)
  rw [el, er]

/-! The contraction `4000x64 · 64x128`: the left operand is read at (row, k), the right at (k, column). -/

private theorem mm_out_lhs_0 (i : S4000x128.Idx) (q : dot_S4000x64_S64x128_S4000x128_1_0_0_1_n_n.contr.Idx) :
    (dot_S4000x64_S64x128_S4000x128_1_0_0_1_n_n.lhsIdx i q 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
private theorem mm_out_lhs_1 (i : S4000x128.Idx) (q : dot_S4000x64_S64x128_S4000x128_1_0_0_1_n_n.contr.Idx) :
    (dot_S4000x64_S64x128_S4000x128_1_0_0_1_n_n.lhsIdx i q 1).val = (q ⟨0, by decide⟩).val :=
  dot_S4000x64_S64x128_S4000x128_1_0_0_1_n_n.lhsIdx_val_of_single rfl i q
private theorem mm_out_rhs_0 (i : S4000x128.Idx) (q : dot_S4000x64_S64x128_S4000x128_1_0_0_1_n_n.contr.Idx) :
    (dot_S4000x64_S64x128_S4000x128_1_0_0_1_n_n.rhsIdx i q 0).val = (q ⟨0, by decide⟩).val :=
  dot_S4000x64_S64x128_S4000x128_1_0_0_1_n_n.rhsIdx_val_of_single rfl i q
private theorem mm_out_rhs_1 (i : S4000x128.Idx) (q : dot_S4000x64_S64x128_S4000x128_1_0_0_1_n_n.contr.Idx) :
    (dot_S4000x64_S64x128_S4000x128_1_0_0_1_n_n.rhsIdx i q 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- Entry (p, j) of the product into a zero accumulator is the sum over k of A(p, k) · B(k, j). -/
theorem mm_out_apply (A : FVec Ideal S4000x64 .bf16) (B : FVec Ideal S64x128 .bf16) (p : Fin 4000) (j : Fin 128) :
    matmul dot_S4000x64_S64x128_S4000x128_1_0_0_1_n_n none A B (constant (F := Ideal) S4000x128 .f32 0x00000000#32) (ix2 p j)
      = ∑ k : Fin 64, A (ix2 p k) * B (ix2 k j) := by
  simp only [matmul]
  rw [Ideal.matmul_constant_zero_apply, ← Equiv.sum_comp (contrEquiv1 dot_S4000x64_S64x128_S4000x128_1_0_0_1_n_n 64 rfl rfl).symm]
  refine Finset.sum_congr rfl fun k _ => ?_
  have hk := contrEquiv1_symm_val dot_S4000x64_S64x128_S4000x128_1_0_0_1_n_n 64 rfl rfl k
  have el : dot_S4000x64_S64x128_S4000x128_1_0_0_1_n_n.lhsIdx (ix2 p j) ((contrEquiv1 dot_S4000x64_S64x128_S4000x128_1_0_0_1_n_n 64 rfl rfl).symm k) = ix2 p k := funext fun a => Fin.ext (by
    match a with
    | ⟨0, _⟩ => exact mm_out_lhs_0 _ _
    | ⟨1, _⟩ => exact (mm_out_lhs_1 _ _).trans hk)
  have er : dot_S4000x64_S64x128_S4000x128_1_0_0_1_n_n.rhsIdx (ix2 p j) ((contrEquiv1 dot_S4000x64_S64x128_S4000x128_1_0_0_1_n_n 64 rfl rfl).symm k) = ix2 k j := funext fun a => Fin.ext (by
    match a with
    | ⟨0, _⟩ => exact (mm_out_rhs_0 _ _).trans hk
    | ⟨1, _⟩ => exact mm_out_rhs_1 _ _)
  rw [el, er]

/-! ## The block's arithmetic at one entry -/

theorem zero_offsets : (![0, 0] : Fin 2 → Nat) = fun _ => 0 := funext fun a => by fin_cases a <;> rfl

/-- The edge encoder's output at (p, q): Linear, ReLU, Linear on row p of the edge attributes. -/
theorem encoder_entry (x2 : Vec Ideal S4000x32 .f32) (x3 : Vec Ideal S32x32 .f32) (x4 : Vec Ideal S1x32 .f32) (x5 : Vec Ideal S32x32 .f32) (x6 : Vec Ideal S1x32 .f32) (p : Fin 4000) (q : Fin 32) :
    k0_pay4 x2 x3 x4 x5 x6 (ix2 p q) = encRow (row2 x2 p) (mat2 x3) (row2 x4 0) (mat2 x5) (row2 x6 0) q := by
  unfold k0_pay4
  simp only [truncf_apply, addf_apply, mm_enc_apply, maximumf_apply, broadcast_apply, shapeCast_self, broadcastTo_1b_ab_apply]
  rfl

/-- The stored block at (p, q) is the message of row p, column q. -/
theorem stored_entry (x0 x1 : Vec Ideal S4000x128 .f32) (x2 : Vec Ideal S4000x32 .f32) (x3 : Vec Ideal S32x32 .f32) (x4 : Vec Ideal S1x32 .f32) (x5 : Vec Ideal S32x32 .f32) (x6 : Vec Ideal S1x32 .f32) (x7 x8 : Vec Ideal S128x128 .f32) (x9 : Vec Ideal S32x128 .f32) (x10 : Vec Ideal S1x128 .f32) (x11 : Vec Ideal S128x64 .f32) (x12 : Vec Ideal S1x64 .f32) (x13 : Vec Ideal S64x128 .f32) (x14 : Vec Ideal S1x128 .f32) (p : Fin 4000) (q : Fin 128) :
    out0_15 x0 x1 x2 x3 x4 x5 x6 x7 x8 x9 x10 x11 x12 x13 x14 (ix2 p q)
      = msgRow (row2 x0 p) (row2 x1 p) (row2 x2 p) (mat2 x3) (row2 x4 0) (mat2 x5) (row2 x6 0) (mat2 x7) (mat2 x8) (mat2 x9)
          (row2 x10 0) (mat2 x11) (row2 x12 0) (mat2 x13) (row2 x14 0) q := by
  unfold out0_15
  rw [View.canon_unit_zero zero_offsets]
  simp only [View.ld_unit_zero (S := S4000x128) zero_offsets, View.ld_unit_zero (S := S4000x32) zero_offsets,
    View.ld_unit_zero (S := S32x32) zero_offsets, View.ld_unit_zero (S := S1x32) zero_offsets,
    View.ld_unit_zero (S := S128x128) zero_offsets, View.ld_unit_zero (S := S32x128) zero_offsets,
    View.ld_unit_zero (S := S1x128) zero_offsets, View.ld_unit_zero (S := S128x64) zero_offsets,
    View.ld_unit_zero (S := S1x64) zero_offsets, View.ld_unit_zero (S := S64x128) zero_offsets]
  unfold k0_pay1 k0_pay2 k0_pay3 k0_pay5 k0_pay6 k0_pay7
  simp only [shapeCast_self, truncf_apply, addf_apply, mm_node_apply, mm_edge_apply, mm_mid_apply, mm_out_apply,
    broadcastTo_1b_ab_apply, maximumf_apply, broadcast_apply, encoder_entry]
  rfl

/-! ## Which rows of the arrays a grid point's blocks are -/

theorem blockIndex_0 : ∀ t : Fin cfg0.N, win0_0.index t (0 : Fin 2) = t.val ∧ win0_0.index t (1 : Fin 2) = 0 :=
  (by decide +kernel : ∀ t : Fin grid0.N, _)
theorem blockIndex_1 : ∀ t : Fin cfg0.N, win0_1.index t (0 : Fin 2) = t.val ∧ win0_1.index t (1 : Fin 2) = 0 :=
  (by decide +kernel : ∀ t : Fin grid0.N, _)
theorem blockIndex_2 : ∀ t : Fin cfg0.N, win0_2.index t (0 : Fin 2) = t.val ∧ win0_2.index t (1 : Fin 2) = 0 :=
  (by decide +kernel : ∀ t : Fin grid0.N, _)
theorem blockIndex_3 : ∀ t : Fin cfg0.N, win0_3.index t (0 : Fin 2) = 0 ∧ win0_3.index t (1 : Fin 2) = 0 :=
  (by decide +kernel : ∀ t : Fin grid0.N, _)
theorem blockIndex_4 : ∀ t : Fin cfg0.N, win0_4.index t (0 : Fin 2) = 0 ∧ win0_4.index t (1 : Fin 2) = 0 :=
  (by decide +kernel : ∀ t : Fin grid0.N, _)
theorem blockIndex_5 : ∀ t : Fin cfg0.N, win0_5.index t (0 : Fin 2) = 0 ∧ win0_5.index t (1 : Fin 2) = 0 :=
  (by decide +kernel : ∀ t : Fin grid0.N, _)
theorem blockIndex_6 : ∀ t : Fin cfg0.N, win0_6.index t (0 : Fin 2) = 0 ∧ win0_6.index t (1 : Fin 2) = 0 :=
  (by decide +kernel : ∀ t : Fin grid0.N, _)
theorem blockIndex_7 : ∀ t : Fin cfg0.N, win0_7.index t (0 : Fin 2) = 0 ∧ win0_7.index t (1 : Fin 2) = 0 :=
  (by decide +kernel : ∀ t : Fin grid0.N, _)
theorem blockIndex_8 : ∀ t : Fin cfg0.N, win0_8.index t (0 : Fin 2) = 0 ∧ win0_8.index t (1 : Fin 2) = 0 :=
  (by decide +kernel : ∀ t : Fin grid0.N, _)
theorem blockIndex_9 : ∀ t : Fin cfg0.N, win0_9.index t (0 : Fin 2) = 0 ∧ win0_9.index t (1 : Fin 2) = 0 :=
  (by decide +kernel : ∀ t : Fin grid0.N, _)
theorem blockIndex_10 : ∀ t : Fin cfg0.N, win0_10.index t (0 : Fin 2) = 0 ∧ win0_10.index t (1 : Fin 2) = 0 :=
  (by decide +kernel : ∀ t : Fin grid0.N, _)
theorem blockIndex_11 : ∀ t : Fin cfg0.N, win0_11.index t (0 : Fin 2) = 0 ∧ win0_11.index t (1 : Fin 2) = 0 :=
  (by decide +kernel : ∀ t : Fin grid0.N, _)
theorem blockIndex_12 : ∀ t : Fin cfg0.N, win0_12.index t (0 : Fin 2) = 0 ∧ win0_12.index t (1 : Fin 2) = 0 :=
  (by decide +kernel : ∀ t : Fin grid0.N, _)
theorem blockIndex_13 : ∀ t : Fin cfg0.N, win0_13.index t (0 : Fin 2) = 0 ∧ win0_13.index t (1 : Fin 2) = 0 :=
  (by decide +kernel : ∀ t : Fin grid0.N, _)
theorem blockIndex_14 : ∀ t : Fin cfg0.N, win0_14.index t (0 : Fin 2) = 0 ∧ win0_14.index t (1 : Fin 2) = 0 :=
  (by decide +kernel : ∀ t : Fin grid0.N, _)
theorem blockIndex_15 : ∀ t : Fin cfg0.N, win0_15.index t (0 : Fin 2) = t.val ∧ win0_15.index t (1 : Fin 2) = 0 :=
  (by decide +kernel : ∀ t : Fin grid0.N, _)

/-- Window 0's block at grid point t is rows 4000·t … 4000·t + 3999 of its array. -/
theorem rowsOf_0_entry (c : Dev nD) (t : Fin cfg0.N) (p : Fin 4000) (k : Fin 128) (r : Fin 800000) (hr : r.val = 4000 * t.val + p.val) :
    (iblk0 V c 0 t : Vec Ideal S4000x128 .f32) (ix2 p k) = (V c main_v4 : S800000x128.Idx → EReal) (ix2 r k) := by
  obtain ⟨e0, e1⟩ := blockIndex_0 t
  show V c main_v4 (((cfg0.win 0).blk t).view.emb (ix2 p k)) = V c main_v4 (ix2 r k)
  congr 1
  funext a
  apply Fin.ext
  match a with
  | ⟨0, _⟩ => show win0_0.index t (0 : Fin 2) * 4000 + 1 * p.val = r.val; rw [e0, hr]; omega
  | ⟨1, _⟩ => show win0_0.index t (1 : Fin 2) * 128 + 1 * k.val = k.val; rw [e1]; omega

theorem rowsOf_0 (c : Dev nD) (t : Fin cfg0.N) (p : Fin 4000) (r : Fin 800000) (hr : r.val = 4000 * t.val + p.val) :
    row2 (iblk0 V c 0 t : Vec Ideal S4000x128 .f32) p = row2 (V c main_v4) r :=
  funext fun k => rowsOf_0_entry V c t p k r hr

/-- Window 1's block at grid point t is rows 4000·t … 4000·t + 3999 of its array. -/
theorem rowsOf_1_entry (c : Dev nD) (t : Fin cfg0.N) (p : Fin 4000) (k : Fin 128) (r : Fin 800000) (hr : r.val = 4000 * t.val + p.val) :
    (iblk0 V c 1 t : Vec Ideal S4000x128 .f32) (ix2 p k) = (V c main_v5 : S800000x128.Idx → EReal) (ix2 r k) := by
  obtain ⟨e0, e1⟩ := blockIndex_1 t
  show V c main_v5 (((cfg0.win 1).blk t).view.emb (ix2 p k)) = V c main_v5 (ix2 r k)
  congr 1
  funext a
  apply Fin.ext
  match a with
  | ⟨0, _⟩ => show win0_1.index t (0 : Fin 2) * 4000 + 1 * p.val = r.val; rw [e0, hr]; omega
  | ⟨1, _⟩ => show win0_1.index t (1 : Fin 2) * 128 + 1 * k.val = k.val; rw [e1]; omega

theorem rowsOf_1 (c : Dev nD) (t : Fin cfg0.N) (p : Fin 4000) (r : Fin 800000) (hr : r.val = 4000 * t.val + p.val) :
    row2 (iblk0 V c 1 t : Vec Ideal S4000x128 .f32) p = row2 (V c main_v5) r :=
  funext fun k => rowsOf_1_entry V c t p k r hr

/-- Window 2's block at grid point t is rows 4000·t … 4000·t + 3999 of its array. -/
theorem rowsOf_2_entry (c : Dev nD) (t : Fin cfg0.N) (p : Fin 4000) (k : Fin 32) (r : Fin 800000) (hr : r.val = 4000 * t.val + p.val) :
    (iblk0 V c 2 t : Vec Ideal S4000x32 .f32) (ix2 p k) = (V c main_arg1 : S800000x32.Idx → EReal) (ix2 r k) := by
  obtain ⟨e0, e1⟩ := blockIndex_2 t
  show V c main_arg1 (((cfg0.win 2).blk t).view.emb (ix2 p k)) = V c main_arg1 (ix2 r k)
  congr 1
  funext a
  apply Fin.ext
  match a with
  | ⟨0, _⟩ => show win0_2.index t (0 : Fin 2) * 4000 + 1 * p.val = r.val; rw [e0, hr]; omega
  | ⟨1, _⟩ => show win0_2.index t (1 : Fin 2) * 32 + 1 * k.val = k.val; rw [e1]; omega

theorem rowsOf_2 (c : Dev nD) (t : Fin cfg0.N) (p : Fin 4000) (r : Fin 800000) (hr : r.val = 4000 * t.val + p.val) :
    row2 (iblk0 V c 2 t : Vec Ideal S4000x32 .f32) p = row2 (V c main_arg1) r :=
  funext fun k => rowsOf_2_entry V c t p k r hr

/-- Window 3's block at every grid point is its whole array. -/
theorem wholeOf_3 (c : Dev nD) (t : Fin cfg0.N) :
    (iblk0 V c 3 t : Vec Ideal S32x32 .f32) = (V c main_arg3 : S32x32.Idx → EReal) := by
  obtain ⟨e0, e1⟩ := blockIndex_3 t
  funext y
  show V c main_arg3 (((cfg0.win 3).blk t).view.emb y) = V c main_arg3 y
  congr 1
  funext a
  apply Fin.ext
  match a with
  | ⟨0, _⟩ => show win0_3.index t (0 : Fin 2) * 32 + 1 * (y 0).val = (y 0).val; rw [e0]; omega
  | ⟨1, _⟩ => show win0_3.index t (1 : Fin 2) * 32 + 1 * (y 1).val = (y 1).val; rw [e1]; omega

/-- Window 4's block at every grid point is its whole array. -/
theorem wholeOf_4 (c : Dev nD) (t : Fin cfg0.N) :
    (iblk0 V c 4 t : Vec Ideal S1x32 .f32) = (V c main_v9 : S1x32.Idx → EReal) := by
  obtain ⟨e0, e1⟩ := blockIndex_4 t
  funext y
  show V c main_v9 (((cfg0.win 4).blk t).view.emb y) = V c main_v9 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 32 + 1 * (y 1).val = (y 1).val; rw [e1]; omega

/-- Window 5's block at every grid point is its whole array. -/
theorem wholeOf_5 (c : Dev nD) (t : Fin cfg0.N) :
    (iblk0 V c 5 t : Vec Ideal S32x32 .f32) = (V c main_arg5 : S32x32.Idx → EReal) := by
  obtain ⟨e0, e1⟩ := blockIndex_5 t
  funext y
  show V c main_arg5 (((cfg0.win 5).blk t).view.emb y) = V c main_arg5 y
  congr 1
  funext a
  apply Fin.ext
  match a with
  | ⟨0, _⟩ => show win0_5.index t (0 : Fin 2) * 32 + 1 * (y 0).val = (y 0).val; rw [e0]; omega
  | ⟨1, _⟩ => show win0_5.index t (1 : Fin 2) * 32 + 1 * (y 1).val = (y 1).val; rw [e1]; omega

/-- Window 6's block at every grid point is its whole array. -/
theorem wholeOf_6 (c : Dev nD) (t : Fin cfg0.N) :
    (iblk0 V c 6 t : Vec Ideal S1x32 .f32) = (V c main_v10 : S1x32.Idx → EReal) := by
  obtain ⟨e0, e1⟩ := blockIndex_6 t
  funext y
  show V c main_v10 (((cfg0.win 6).blk t).view.emb y) = V c main_v10 y
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 32 + 1 * (y 1).val = (y 1).val; rw [e1]; omega

/-- Window 7's block at every grid point is its whole array. -/
theorem wholeOf_7 (c : Dev nD) (t : Fin cfg0.N) :
    (iblk0 V c 7 t : Vec Ideal S128x128 .f32) = (V c main_v6 : S128x128.Idx → EReal) := by
  obtain ⟨e0, e1⟩ := blockIndex_7 t
  funext y
  show V c main_v6 (((cfg0.win 7).blk t).view.emb y) = V c main_v6 y
  congr 1
  funext a
  apply Fin.ext
  match a with
  | ⟨0, _⟩ => show win0_7.index t (0 : Fin 2) * 128 + 1 * (y 0).val = (y 0).val; rw [e0]; omega
  | ⟨1, _⟩ => show win0_7.index t (1 : Fin 2) * 128 + 1 * (y 1).val = (y 1).val; rw [e1]; omega

/-- Window 8's block at every grid point is its whole array. -/
theorem wholeOf_8 (c : Dev nD) (t : Fin cfg0.N) :
    (iblk0 V c 8 t : Vec Ideal S128x128 .f32) = (V c main_v7 : S128x128.Idx → EReal) := by
  obtain ⟨e0, e1⟩ := blockIndex_8 t
  funext y
  show V c main_v7 (((cfg0.win 8).blk t).view.emb y) = V c main_v7 y
  congr 1
  funext a
  apply Fin.ext
  match a with
  | ⟨0, _⟩ => show win0_8.index t (0 : Fin 2) * 128 + 1 * (y 0).val = (y 0).val; rw [e0]; omega
  | ⟨1, _⟩ => show win0_8.index t (1 : Fin 2) * 128 + 1 * (y 1).val = (y 1).val; rw [e1]; omega

/-- Window 9's block at every grid point is its whole array. -/
theorem wholeOf_9 (c : Dev nD) (t : Fin cfg0.N) :
    (iblk0 V c 9 t : Vec Ideal S32x128 .f32) = (V c main_v8 : S32x128.Idx → EReal) := by
  obtain ⟨e0, e1⟩ := blockIndex_9 t
  funext y
  show V c main_v8 (((cfg0.win 9).blk t).view.emb y) = V c main_v8 y
  congr 1
  funext a
  apply Fin.ext
  match a with
  | ⟨0, _⟩ => show win0_9.index t (0 : Fin 2) * 32 + 1 * (y 0).val = (y 0).val; rw [e0]; omega
  | ⟨1, _⟩ => show win0_9.index t (1 : Fin 2) * 128 + 1 * (y 1).val = (y 1).val; rw [e1]; omega

/-- Window 10's block at every grid point is its whole array. -/
theorem wholeOf_10 (c : Dev nD) (t : Fin cfg0.N) :
    (iblk0 V c 10 t : Vec Ideal S1x128 .f32) = (V c main_v11 : S1x128.Idx → EReal) := by
  obtain ⟨e0, e1⟩ := blockIndex_10 t
  funext y
  show V c main_v11 (((cfg0.win 10).blk t).view.emb y) = V c main_v11 y
  congr 1
  funext a
  apply Fin.ext
  match a with
  | ⟨0, _⟩ => show win0_10.index t (0 : Fin 2) * 1 + 1 * (y 0).val = (y 0).val; rw [e0]; omega
  | ⟨1, _⟩ => show win0_10.index t (1 : Fin 2) * 128 + 1 * (y 1).val = (y 1).val; rw [e1]; omega

/-- Window 11's block at every grid point is its whole array. -/
theorem wholeOf_11 (c : Dev nD) (t : Fin cfg0.N) :
    (iblk0 V c 11 t : Vec Ideal S128x64 .f32) = (V c main_arg9 : S128x64.Idx → EReal) := by
  obtain ⟨e0, e1⟩ := blockIndex_11 t
  funext y
  show V c main_arg9 (((cfg0.win 11).blk t).view.emb y) = V c main_arg9 y
  congr 1
  funext a
  apply Fin.ext
  match a with
  | ⟨0, _⟩ => show win0_11.index t (0 : Fin 2) * 128 + 1 * (y 0).val = (y 0).val; rw [e0]; omega
  | ⟨1, _⟩ => show win0_11.index t (1 : Fin 2) * 64 + 1 * (y 1).val = (y 1).val; rw [e1]; omega

/-- Window 12's block at every grid point is its whole array. -/
theorem wholeOf_12 (c : Dev nD) (t : Fin cfg0.N) :
    (iblk0 V c 12 t : Vec Ideal S1x64 .f32) = (V c main_v12 : S1x64.Idx → EReal) := by
  obtain ⟨e0, e1⟩ := blockIndex_12 t
  funext y
  show V c main_v12 (((cfg0.win 12).blk t).view.emb y) = V c main_v12 y
  congr 1
  funext a
  apply Fin.ext
  match a with
  | ⟨0, _⟩ => show win0_12.index t (0 : Fin 2) * 1 + 1 * (y 0).val = (y 0).val; rw [e0]; omega
  | ⟨1, _⟩ => show win0_12.index t (1 : Fin 2) * 64 + 1 * (y 1).val = (y 1).val; rw [e1]; omega

/-- Window 13's block at every grid point is its whole array. -/
theorem wholeOf_13 (c : Dev nD) (t : Fin cfg0.N) :
    (iblk0 V c 13 t : Vec Ideal S64x128 .f32) = (V c main_arg11 : S64x128.Idx → EReal) := by
  obtain ⟨e0, e1⟩ := blockIndex_13 t
  funext y
  show V c main_arg11 (((cfg0.win 13).blk t).view.emb y) = V c main_arg11 y
  congr 1
  funext a
  apply Fin.ext
  match a with
  | ⟨0, _⟩ => show win0_13.index t (0 : Fin 2) * 64 + 1 * (y 0).val = (y 0).val; rw [e0]; omega
  | ⟨1, _⟩ => show win0_13.index t (1 : Fin 2) * 128 + 1 * (y 1).val = (y 1).val; rw [e1]; omega

/-- Window 14's block at every grid point is its whole array. -/
theorem wholeOf_14 (c : Dev nD) (t : Fin cfg0.N) :
    (iblk0 V c 14 t : Vec Ideal S1x128 .f32) = (V c main_v13 : S1x128.Idx → EReal) := by
  obtain ⟨e0, e1⟩ := blockIndex_14 t
  funext y
  show V c main_v13 (((cfg0.win 14).blk t).view.emb y) = V c main_v13 y
  congr 1
  funext a
  apply Fin.ext
  match a with
  | ⟨0, _⟩ => show win0_14.index t (0 : Fin 2) * 1 + 1 * (y 0).val = (y 0).val; rw [e0]; omega
  | ⟨1, _⟩ => show win0_14.index t (1 : Fin 2) * 128 + 1 * (y 1).val = (y 1).val; rw [e1]; omega

/-! ## From the blocks to the message array -/

/-- What grid point t writes back is rows 4000·t … 4000·t + 3999 of the message array. -/
theorem writeback_rows (c : Dev nD) (t : Fin cfg0.N) :
    (dat0 (F := Ideal) V c).flushed 15 t
      = ((cfg0.win 15).blk t).view.read (Elt Ideal) (msgArr (V c main_v4) (V c main_v5) (V c main_arg1) (mat2 (V c main_arg3)) (row2 (V c main_v9) 0)
          (mat2 (V c main_arg5)) (row2 (V c main_v10) 0) (mat2 (V c main_v6)) (mat2 (V c main_v7)) (mat2 (V c main_v8))
          (row2 (V c main_v11) 0) (mat2 (V c main_arg9)) (row2 (V c main_v12) 0) (mat2 (V c main_arg11))
          (row2 (V c main_v13) 0)) := by
  show (cfg0.win 15).cut (grid0.coords t) ((dat0 V c).after 15 t) = _
  rw [after0_15]
  obtain ⟨e0, e1⟩ := blockIndex_15 t
  have hN : cfg0.N = 200 := N_0
  funext j
  obtain ⟨p, q, rfl⟩ : ∃ (p : Fin 4000) (q : Fin 128), j = ix2 p q := ⟨j 0, j 1, eq_ix2 j⟩
  have hlt : 4000 * t.val + p.val < 800000 := by have := t.isLt; have := p.isLt; omega
  have hi : ((cfg0.win 15).blk t).view.emb (ix2 p q) = ix2 (⟨4000 * t.val + p.val, hlt⟩ : Fin 800000) q := by
    funext a
    apply Fin.ext
    match a with
    | ⟨0, _⟩ => show win0_15.index t (0 : Fin 2) * 4000 + 1 * p.val = 4000 * t.val + p.val; rw [e0]; omega
    | ⟨1, _⟩ => show win0_15.index t (1 : Fin 2) * 128 + 1 * q.val = q.val; rw [e1]; omega
  show out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (ix2 p q)
    = msgArr (V c main_v4) (V c main_v5) (V c main_arg1) (mat2 (V c main_arg3)) (row2 (V c main_v9) 0)
          (mat2 (V c main_arg5)) (row2 (V c main_v10) 0) (mat2 (V c main_v6)) (mat2 (V c main_v7)) (mat2 (V c main_v8))
          (row2 (V c main_v11) 0) (mat2 (V c main_arg9)) (row2 (V c main_v12) 0) (mat2 (V c main_arg11))
          (row2 (V c main_v13) 0) (((cfg0.win 15).blk t).view.emb (ix2 p q))
  rw [hi]
  refine (stored_entry _ _ _ _ _ _ _ _ _ _ _ _ _ _ _ p q).trans ?_
  rw [rowsOf_0 V c t p ⟨4000 * t.val + p.val, hlt⟩ rfl, rowsOf_1 V c t p ⟨4000 * t.val + p.val, hlt⟩ rfl,
    rowsOf_2 V c t p ⟨4000 * t.val + p.val, hlt⟩ rfl, wholeOf_3 V c t, wholeOf_4 V c t, wholeOf_5 V c t,
    wholeOf_6 V c t, wholeOf_7 V c t, wholeOf_8 V c t, wholeOf_9 V c t, wholeOf_10 V c t, wholeOf_11 V c t, wholeOf_12 V c t,
    wholeOf_13 V c t, wholeOf_14 V c t]
  rfl

/-- An entry of the message array is in grid point t's block iff its row is among the block's 4000 rows. -/
theorem mem_rowBlock (t : Fin cfg0.N) (i : S800000x128.Idx) :
    i ∈ ((cfg0.win 15).blk t).view.set ↔ ∀ a : Fin 2, win0_15.index t a * S4000x128.size a ≤ (i a).val ∧ (i a).val < win0_15.index t a * S4000x128.size a + S4000x128.size a := by
  show i ∈ ((View.whole main_v14).slice (win0_15.rect t)).set ↔ _
  rw [View.set_slice_whole, Rect.mem_set_unit]
  exact Iff.rfl

/-- After the region the message array holds `Cert.Spec.msgArr` of the region's input arrays: row `e` is the message
    of edge `e`, computed from row `e` of the two gathered feature arrays and of the edge attributes. -/
theorem arr0_eq (c : Dev nD) :
    (dat0 (F := Ideal) V c).arrAt 15 cfg0.N
      = msgArr (V c main_v4) (V c main_v5) (V c main_arg1) (mat2 (V c main_arg3)) (row2 (V c main_v9) 0)
          (mat2 (V c main_arg5)) (row2 (V c main_v10) 0) (mat2 (V c main_v6)) (mat2 (V c main_v7)) (mat2 (V c main_v8))
          (row2 (V c main_v11) 0) (mat2 (V c main_arg9)) (row2 (V c main_v12) 0) (mat2 (V c main_arg11))
          (row2 (V c main_v13) 0) := by
  refine (dat0 (F := Ideal) V c).arrAt_eq_of_cover 15 _ (fun t _ => writeback_rows V c t) fun i => ?_
  -- row r of the 800000 lies in the block of grid point r / 4000
  have hi0 : (i 0).val < 800000 := (i 0).isLt
  have hi1 : (i 1).val < 128 := (i 1).isLt
  have hN : cfg0.N = 200 := N_0
  have ht : (i 0).val / 4000 < cfg0.N := by rw [hN]; omega
  obtain ⟨e0, e1⟩ := blockIndex_15 ⟨(i 0).val / 4000, ht⟩
  refine ⟨⟨(i 0).val / 4000, ht⟩, flush0_15 _, ?_⟩
  rw [mem_rowBlock]
  intro a
  match a with
  | ⟨0, _⟩ =>
    show win0_15.index ⟨(i 0).val / 4000, ht⟩ (0 : Fin 2) * 4000 ≤ (i 0).val
      ∧ (i 0).val < win0_15.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win0_15.index ⟨(i 0).val / 4000, ht⟩ (1 : Fin 2) * 128 ≤ (i 1).val
      ∧ (i 1).val < win0_15.index ⟨(i 0).val / 4000, ht⟩ (1 : Fin 2) * 128 + 128
    rw [e1]
    omega

end Cert.KernelIdeal.Region0

end
-- ==== Proof.K1.lean ====
/-
  The second kernel region (one grid point per 2000 nodes) at the extended reals: what it leaves in the
  result array, as one function of the arrays it finds when it is entered.
-/
import proofs.«418614_j29317446762811_1_alg».proof.Proof.Gen.KernelIdeal.Frame
import proofs.«418614_j29317446762811_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.Spec
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The zero offsets of a whole-buffer access. -/
theorem offs_zero : (![0, 0] : Fin 2 → Nat) = fun _ => 0 := funext fun a => by fin_cases a <;> rfl

/-! ## The product of a 2000×128 block with a 128×384 matrix, entry by entry -/

/-- Where the product's entry `i` reads its two factors for the shared index `q`: the left factor at row `i 0`,
    column `q`; the right factor at row `q`, column `i 1`. One statement per factor and axis. -/
theorem gate_lhs_0 (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide), dif_pos (show (0 : Fin S2000x128.rank) ∈ dot_S2000x128_S128x384_S2000x384_1_0_0_1_n_n.lhsNonContracting by decide)]
  rfl
theorem gate_lhs_1 (i : S2000x384.Idx) (q : dot_S2000x128_S128x384_S2000x384_1_0_0_1_n_n.contr.Idx) :
    (dot_S2000x128_S128x384_S2000x384_1_0_0_1_n_n.lhsIdx i q 1).val = (q ⟨0, by decide⟩).val :=
  dot_S2000x128_S128x384_S2000x384_1_0_0_1_n_n.lhsIdx_val_of_single rfl i q
theorem gate_rhs_0 (i : S2000x384.Idx) (q : dot_S2000x128_S128x384_S2000x384_1_0_0_1_n_n.contr.Idx) :
    (dot_S2000x128_S128x384_S2000x384_1_0_0_1_n_n.rhsIdx i q 0).val = (q ⟨0, by decide⟩).val :=
  dot_S2000x128_S128x384_S2000x384_1_0_0_1_n_n.rhsIdx_val_of_single rfl i q
theorem gate_rhs_1 (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide), dif_pos (show (1 : Fin S128x384.rank) ∈ dot_S2000x128_S128x384_S2000x384_1_0_0_1_n_n.rhsNonContracting by decide)]
  rfl

/-- Entry (p, j) of the product is the sum over the 128 shared indices. -/
theorem gate_matmul_apply (A : FVec Ideal S2000x128 .bf16) (B : FVec Ideal S128x384 .bf16) (p : Fin 2000) (j : Fin 384) :
    matmul dot_S2000x128_S128x384_S2000x384_1_0_0_1_n_n none A B (constant (F := Ideal) S2000x384 .f32 0x00000000#32) (ix2 p j)
      = ∑ k : Fin 128, A (ix2 p k) * B (ix2 k j) := by
  simp only [matmul]
  rw [Ideal.matmul_constant_zero_apply, ← Equiv.sum_comp (ValueIdx.contrEquiv1 dot_S2000x128_S128x384_S2000x384_1_0_0_1_n_n 128 rfl rfl).symm]
  refine Finset.sum_congr rfl fun k _ => ?_
  have hk := ValueIdx.contrEquiv1_symm_val dot_S2000x128_S128x384_S2000x384_1_0_0_1_n_n 128 rfl rfl k
  have el : dot_S2000x128_S128x384_S2000x384_1_0_0_1_n_n.lhsIdx (ix2 p j) ((ValueIdx.contrEquiv1 dot_S2000x128_S128x384_S2000x384_1_0_0_1_n_n 128 rfl rfl).symm k) = ix2 p k := funext fun a => Fin.ext (by
    match a with
    | ⟨0, _⟩ => exact gate_lhs_0 _ _
    | ⟨1, _⟩ => exact (gate_lhs_1 _ _).trans hk)
  have er : dot_S2000x128_S128x384_S2000x384_1_0_0_1_n_n.rhsIdx (ix2 p j) ((ValueIdx.contrEquiv1 dot_S2000x128_S128x384_S2000x384_1_0_0_1_n_n 128 rfl rfl).symm k) = ix2 k j := funext fun a => Fin.ext (by
    match a with
    | ⟨0, _⟩ => exact (gate_rhs_0 _ _).trans hk
    | ⟨1, _⟩ => exact gate_rhs_1 _ _)
  rw [el, er]

/-! ## Rows spread over a block, and column slices -/

/-- A 1×128 row spread over 2000 rows. -/
theorem stat_row_apply (b : FVec Ideal S1x128 .f32) (p : Fin 2000) (q : Fin 128) :
    broadcastTo S2000x128 b broadcasts_S1x128_S2000x128 (ix2 p q) = b (ix2 0 q) := by
  refine broadcastTo_apply b broadcasts_S1x128_S2000x128 (ix2 p q) (ix2 0 q) fun a => ?_
  match a with
  | ⟨0, _⟩ => rfl
  | ⟨1, _⟩ => rfl

/-- The three 128-wide column slices of a 2000×384 block. -/
theorem gate_slice0_apply (v : FVec Ideal S2000x384 .f32) (p : Fin 2000) (q : Fin 128) :
    extractStridedSlice S2000x128 ![0, 0] v slices_S2000x384_o0_0_S2000x128 (ix2 p q) = v (ix2 p ⟨q.val, by have := q.isLt; omega⟩) := by
  refine extractStridedSlice_apply ![0, 0] v slices_S2000x384_o0_0_S2000x128 (ix2 p q) _ fun a => ?_
  match a with
  | ⟨0, _⟩ => show p.val = 0 + p.val; omega
  | ⟨1, _⟩ => show q.val = 0 + q.val; omega
theorem gate_slice1_apply (v : FVec Ideal S2000x384 .f32) (p : Fin 2000) (q : Fin 128) :
    extractStridedSlice S2000x128 ![0, 128] v slices_S2000x384_o0_128_S2000x128 (ix2 p q) = v (ix2 p ⟨128 + q.val, by have := q.isLt; omega⟩) := by
  refine extractStridedSlice_apply ![0, 128] v slices_S2000x384_o0_128_S2000x128 (ix2 p q) _ fun a => ?_
  match a with
  | ⟨0, _⟩ => show p.val = 0 + p.val; omega
  | ⟨1, _⟩ => show 128 + q.val = 128 + q.val; rfl
theorem gate_slice2_apply (v : FVec Ideal S2000x384 .f32) (p : Fin 2000) (q : Fin 128) :
    extractStridedSlice S2000x128 ![0, 256] v slices_S2000x384_o0_256_S2000x128 (ix2 p q) = v (ix2 p ⟨256 + q.val, by have := q.isLt; omega⟩) := by
  refine extractStridedSlice_apply ![0, 256] v slices_S2000x384_o0_256_S2000x128 (ix2 p q) _ fun a => ?_
  match a with
  | ⟨0, _⟩ => show p.val = 0 + p.val; omega
  | ⟨1, _⟩ => show 256 + q.val = 256 + q.val; rfl

/-- The lane-by-lane operations read at an index. -/
theorem logistic_at {s : Shape} (v : FVec Ideal s .f32) (i : s.Idx) : logistic v i = Ideal.logistic (v i) := rfl
theorem tanh_at {s : Shape} (v : FVec Ideal s .f32) (i : s.Idx) : tanh v i = Ideal.tanh (v i) := rfl
theorem rsqrt_at {s : Shape} (v : FVec Ideal s .f32) (i : s.Idx) : rsqrt v i = Ideal.rsqrt (v i) := rfl

/-- A 1×384 row spread over 2000 rows. -/
theorem bias_row_apply' (b : Vec Ideal S1x384 .f32) (p : Fin 2000) (j : Fin 384) :
    broadcastTo S2000x384 b broadcasts_S1x384_S2000x384 (ix2 p j) = b (ix2 0 j) := by
  refine broadcastTo_apply b broadcasts_S1x384_S2000x384 (ix2 p j) (ix2 0 j) fun a => ?_
  match a with
  | ⟨0, _⟩ => rfl
  | ⟨1, _⟩ => rfl

/-- One of the two 384-wide affine maps of the cell, entry (p, j): row p of the block through the matrix, plus the bias. -/
theorem gate_apply (x : Vec Ideal S2000x128 .f32) (W : Vec Ideal S128x384 .f32) (b : Vec Ideal S1x384 .f32)
    (p : Fin 2000) (j : Fin 384) :
    addf (matmul dot_S2000x128_S128x384_S2000x384_1_0_0_1_n_n none (truncf .bf16 x bitsLt_bf16_f32)
        (truncf .bf16 W bitsLt_bf16_f32) (constant (F := Ideal) S2000x384 .f32 0x00000000#32))
      (broadcastTo S2000x384 b broadcasts_S1x384_S2000x384) (ix2 p j)
      = aff (row2 x p) (mat2 W) (row2 b 0) j := by
  rw [addf_apply, gate_matmul_apply, bias_row_apply']
  rfl

/-- The same with the sum of the two blocks already read at the entry. -/
theorem gate_apply' (x : Vec Ideal S2000x128 .f32) (W : Vec Ideal S128x384 .f32) (b : Vec Ideal S1x384 .f32)
    (p : Fin 2000) (j : Fin 384) :
    matmul dot_S2000x128_S128x384_S2000x384_1_0_0_1_n_n none (truncf .bf16 x bitsLt_bf16_f32)
        (truncf .bf16 W bitsLt_bf16_f32) (constant (F := Ideal) S2000x384 .f32 0x00000000#32) (ix2 p j)
      + broadcastTo S2000x384 b broadcasts_S1x384_S2000x384 (ix2 p j)
      = aff (row2 x p) (mat2 W) (row2 b 0) j :=
  gate_apply x W b p j

/-! ## What the body stores, entry by entry -/

/-- Entry (p, q) of what the body leaves in the result block is the update of row p of its blocks: the two
    384-wide affine maps, their three gate slices, the GRU cell, the normalisation and the residual. -/
theorem out_apply (x0 x1 : Vec Ideal S2000x128 .f32) (x2 : Vec Ideal S128x384 .f32) (x3 : Vec Ideal S1x384 .f32)
    (x4 : Vec Ideal S128x384 .f32) (x5 : Vec Ideal S1x384 .f32) (x6 x7 x8 x9 : Vec Ideal S1x128 .f32)
    (p : Fin 2000) (q : Fin 128) :
    out1_10 (F := Ideal) x0 x1 x2 x3 x4 x5 x6 x7 x8 x9 (ix2 p q)
      = updRow (row2 x0 p) (row2 x1 p) (mat2 x2) (row2 x3 0) (mat2 x4) (row2 x5 0) (row2 x6 0) (row2 x7 0)
          (row2 x8 0) (row2 x9 0) q := by
  unfold out1_10
  rw [View.canon_unit_zero offs_zero]
  simp only [View.ld_unit_zero (S := S2000x128) offs_zero, View.ld_unit_zero (S := S128x384) offs_zero,
    View.ld_unit_zero (S := S1x384) offs_zero, View.ld_unit_zero (S := S1x128) offs_zero]
  unfold k1_pay1 k1_pay2 k1_pay3
  simp only [addf_apply, mulf_apply, subf_apply, stat_row_apply, shapeCast_self, logistic_at, tanh_at, rsqrt_at,
    gate_slice0_apply, gate_slice1_apply, gate_slice2_apply, broadcast_apply]
  rw [gate_apply' x0 x2 x3 p ⟨q.val, by have := q.isLt; omega⟩,
    gate_apply' x0 x2 x3 p ⟨128 + q.val, by have := q.isLt; omega⟩,
    gate_apply' x0 x2 x3 p ⟨256 + q.val, by have := q.isLt; omega⟩,
    gate_apply' x1 x4 x5 p ⟨q.val, by have := q.isLt; omega⟩,
    gate_apply' x1 x4 x5 p ⟨128 + q.val, by have := q.isLt; omega⟩,
    gate_apply' x1 x4 x5 p ⟨256 + q.val, by have := q.isLt; omega⟩]
  rfl

/-! ## The blocks the body reads, as entries of the arrays the region finds -/

/-- Block indices at every grid point: the messages, the node features and the result move down one block of
    2000 rows per point; every other window stays on its whole array. -/
theorem block_index : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_10.index t (0 : Fin 2) = t.val ∧ win1_10.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0) :=
  (by decide +kernel : ∀ t : Fin grid1.N, _)

/-- Row p of the message block at point t is row 2000·t + p of the aggregated messages. -/
theorem msg_block_apply (c : Dev nD) (t : Fin cfg1.N) (p : Fin 2000) (k : Fin 128) (r : Fin 50000)
    (hr : r.val = 2000 * t.val + p.val) :
    (iblk1 (F := Ideal) V c 0 t : Vec Ideal S2000x128 .f32) (ix2 p k) = (V c main_v17 : S50000x128.Idx → EReal) (ix2 r k) := by
  obtain ⟨⟨h0, h1⟩, -⟩ := block_index t
  unfold iblk1
  rw [View.read_apply]
  show V c main_v17 _ = V c main_v17 _
  congr 1
  funext a
  apply Fin.ext
  match a with
  | ⟨0, _⟩ => show win1_0.index t (0 : Fin 2) * 2000 + 1 * p.val = r.val; rw [h0, hr]; omega
  | ⟨1, _⟩ => show win1_0.index t (1 : Fin 2) * 128 + 1 * k.val = k.val; rw [h1]; omega

/-- Row p of the feature block at point t is row 2000·t + p of the node features. -/
theorem feat_block_apply (c : Dev nD) (t : Fin cfg1.N) (p : Fin 2000) (k : Fin 128) (r : Fin 50000)
    (hr : r.val = 2000 * t.val + p.val) :
    (iblk1 (F := Ideal) V c 1 t : Vec Ideal S2000x128 .f32) (ix2 p k) = (V c main_arg0 : S50000x128.Idx → EReal) (ix2 r k) := by
  obtain ⟨-, ⟨h0, h1⟩, -⟩ := block_index t
  unfold iblk1
  rw [View.read_apply]
  show V c main_arg0 _ = V c main_arg0 _
  congr 1
  funext a
  apply Fin.ext
  match a with
  | ⟨0, _⟩ => show win1_1.index t (0 : Fin 2) * 2000 + 1 * p.val = r.val; rw [h0, hr]; omega
  | ⟨1, _⟩ => show win1_1.index t (1 : Fin 2) * 128 + 1 * k.val = k.val; rw [h1]; omega

/-- The input-to-hidden matrix is read whole at every point. -/
theorem wih_block (c : Dev nD) (t : Fin cfg1.N) :
    (iblk1 (F := Ideal) V c 2 t : Vec Ideal S128x384 .f32) = (V c main_arg13 : S128x384.Idx → EReal) := by
  obtain ⟨-, -, -, ⟨h0, h1⟩, -⟩ := block_index t
  funext y
  unfold iblk1
  rw [View.read_apply]
  show V c main_arg13 _ = V c main_arg13 y
  congr 1
  funext a
  apply Fin.ext
  match a with
  | ⟨0, _⟩ => show win1_2.index t (0 : Fin 2) * 128 + 1 * (y 0).val = (y 0).val; rw [h0]; omega
  | ⟨1, _⟩ => show win1_2.index t (1 : Fin 2) * 384 + 1 * (y 1).val = (y 1).val; rw [h1]; omega

/-- Its bias row is read whole at every point. -/
theorem bih_block (c : Dev nD) (t : Fin cfg1.N) :
    (iblk1 (F := Ideal) V c 3 t : Vec Ideal S1x384 .f32) = (V c main_v18 : S1x384.Idx → EReal) := by
  obtain ⟨-, -, -, -, ⟨h0, h1⟩, -⟩ := block_index t
  funext y
  unfold iblk1
  rw [View.read_apply]
  show V c main_v18 _ = V c main_v18 y
  congr 1
  funext a
  apply Fin.ext
  match a with
  | ⟨0, _⟩ => show win1_3.index t (0 : Fin 2) * 1 + 1 * (y 0).val = (y 0).val; rw [h0]; omega
  | ⟨1, _⟩ => show win1_3.index t (1 : Fin 2) * 384 + 1 * (y 1).val = (y 1).val; rw [h1]; omega

/-- The hidden-to-hidden matrix is read whole at every point. -/
theorem whh_block (c : Dev nD) (t : Fin cfg1.N) :
    (iblk1 (F := Ideal) V c 4 t : Vec Ideal S128x384 .f32) = (V c main_arg15 : S128x384.Idx → EReal) := by
  obtain ⟨-, -, -, -, -, ⟨h0, h1⟩, -⟩ := block_index t
  funext y
  unfold iblk1
  rw [View.read_apply]
  show V c main_arg15 _ = V c main_arg15 y
  congr 1
  funext a
  apply Fin.ext
  match a with
  | ⟨0, _⟩ => show win1_4.index t (0 : Fin 2) * 128 + 1 * (y 0).val = (y 0).val; rw [h0]; omega
  | ⟨1, _⟩ => show win1_4.index t (1 : Fin 2) * 384 + 1 * (y 1).val = (y 1).val; rw [h1]; omega

/-- Its bias row is read whole at every point. -/
theorem bhh_block (c : Dev nD) (t : Fin cfg1.N) :
    (iblk1 (F := Ideal) V c 5 t : Vec Ideal S1x384 .f32) = (V c main_v19 : S1x384.Idx → EReal) := by
  obtain ⟨-, -, -, -, -, -, ⟨h0, h1⟩, -⟩ := block_index t
  funext y
  unfold iblk1
  rw [View.read_apply]
  show V c main_v19 _ = V c main_v19 y
  congr 1
  funext a
  apply Fin.ext
  match a with
  | ⟨0, _⟩ => show win1_5.index t (0 : Fin 2) * 1 + 1 * (y 0).val = (y 0).val; rw [h0]; omega
  | ⟨1, _⟩ => show win1_5.index t (1 : Fin 2) * 384 + 1 * (y 1).val = (y 1).val; rw [h1]; omega

/-- The normalisation's scale row is read whole at every point. -/
theorem gamma_block (c : Dev nD) (t : Fin cfg1.N) :
    (iblk1 (F := Ideal) V c 6 t : Vec Ideal S1x128 .f32) = (V c main_v20 : S1x128.Idx → EReal) := by
  obtain ⟨-, -, -, -, -, -, -, ⟨h0, h1⟩, -⟩ := block_index t
  funext y
  unfold iblk1
  rw [View.read_apply]
  show V c main_v20 _ = V c main_v20 y
  congr 1
  funext a
  apply Fin.ext
  match a with
  | ⟨0, _⟩ => show win1_6.index t (0 : Fin 2) * 1 + 1 * (y 0).val = (y 0).val; rw [h0]; omega
  | ⟨1, _⟩ => show win1_6.index t (1 : Fin 2) * 128 + 1 * (y 1).val = (y 1).val; rw [h1]; omega

/-- The normalisation's shift row is read whole at every point. -/
theorem beta_block (c : Dev nD) (t : Fin cfg1.N) :
    (iblk1 (F := Ideal) V c 7 t : Vec Ideal S1x128 .f32) = (V c main_v21 : S1x128.Idx → EReal) := by
  obtain ⟨-, -, -, -, -, -, -, -, ⟨h0, h1⟩, -⟩ := block_index t
  funext y
  unfold iblk1
  rw [View.read_apply]
  show V c main_v21 _ = V c main_v21 y
  congr 1
  funext a
  apply Fin.ext
  match a with
  | ⟨0, _⟩ => show win1_7.index t (0 : Fin 2) * 1 + 1 * (y 0).val = (y 0).val; rw [h0]; omega
  | ⟨1, _⟩ => show win1_7.index t (1 : Fin 2) * 128 + 1 * (y 1).val = (y 1).val; rw [h1]; omega

/-- The running mean row is read whole at every point. -/
theorem rmean_block (c : Dev nD) (t : Fin cfg1.N) :
    (iblk1 (F := Ideal) V c 8 t : Vec Ideal S1x128 .f32) = (V c main_v22 : S1x128.Idx → EReal) := by
  obtain ⟨-, -, -, -, -, -, -, -, -, ⟨h0, h1⟩, -⟩ := block_index t
  funext y
  unfold iblk1
  rw [View.read_apply]
  show V c main_v22 _ = V c main_v22 y
  congr 1
  funext a
  apply Fin.ext
  match a with
  | ⟨0, _⟩ => show win1_8.index t (0 : Fin 2) * 1 + 1 * (y 0).val = (y 0).val; rw [h0]; omega
  | ⟨1, _⟩ => show win1_8.index t (1 : Fin 2) * 128 + 1 * (y 1).val = (y 1).val; rw [h1]; omega

/-- The running variance row is read whole at every point. -/
theorem rvar_block (c : Dev nD) (t : Fin cfg1.N) :
    (iblk1 (F := Ideal) V c 9 t : Vec Ideal S1x128 .f32) = (V c main_v23 : S1x128.Idx → EReal) := by
  obtain ⟨-, -, -, -, -, -, -, -, -, -, ⟨h0, h1⟩⟩ := block_index t
  funext y
  unfold iblk1
  rw [View.read_apply]
  show V c main_v23 _ = V c main_v23 y
  congr 1
  funext a
  apply Fin.ext
  match a with
  | ⟨0, _⟩ => show win1_9.index t (0 : Fin 2) * 1 + 1 * (y 0).val = (y 0).val; rw [h0]; omega
  | ⟨1, _⟩ => show win1_9.index t (1 : Fin 2) * 128 + 1 * (y 1).val = (y 1).val; rw [h1]; omega

/-! ## From blocks to the array -/

/-- The update of a row depends only on the row's data, whatever they are called. -/
theorem updRow_congr {mr mr' xr xr' : Fin 128 → EReal} {Wih Wih' Whh Whh' : Fin 128 → Fin 384 → EReal}
    {bih bih' bhh bhh' : Fin 384 → EReal} {g g' b b' rm rm' rv rv' : Fin 128 → EReal} {q q' : Fin 128}
    (e0 : mr = mr') (e1 : xr = xr') (e2 : Wih = Wih') (e3 : bih = bih') (e4 : Whh = Whh') (e5 : bhh = bhh')
    (e6 : g = g') (e7 : b = b') (e8 : rm = rm') (e9 : rv = rv') (eq : q = q') :
    updRow mr xr Wih bih Whh bhh g b rm rv q = updRow mr' xr' Wih' bih' Whh' bhh' g' b' rm' rv' q' := by
  subst e0 e1 e2 e3 e4 e5 e6 e7 e8 e9 eq
  rfl

/-- What point t writes back is block t of the array of updated rows. -/
theorem flushed_eq (c : Dev nD) (t : Fin cfg1.N) :
    (dat1 (F := Ideal) V c).flushed 10 t
      = ((cfg1.win 10).blk t).view.read (Elt Ideal)
          (updArr (V c main_v17) (V c main_arg0) (mat2 (V c main_arg13)) (row2 (V c main_v18) 0) (mat2 (V c main_arg15))
            (row2 (V c main_v19) 0) (row2 (V c main_v20) 0) (row2 (V c main_v21) 0) (row2 (V c main_v22) 0)
            (row2 (V c main_v23) 0)) := by
  show (cfg1.win 10).cut (grid1.coords t) ((dat1 V c).after 10 t) = _
  rw [after1_10]
  obtain ⟨-, -, ⟨h0, h1⟩, -⟩ := block_index t
  funext j
  obtain ⟨p, q, rfl⟩ : ∃ (p : Fin 2000) (q : Fin 128), j = ix2 p q := ⟨j 0, j 1, eq_ix2 j⟩
  have hrow : ((((cfg1.win 10).blk t).view.emb (ix2 p q)) 0).val = 2000 * t.val + p.val := by
    show win1_10.index t (0 : Fin 2) * 2000 + 1 * p.val = _; rw [h0]; omega
  have hcol : ((((cfg1.win 10).blk t).view.emb (ix2 p q)) 1).val = q.val := by
    show win1_10.index t (1 : Fin 2) * 128 + 1 * q.val = _; rw [h1]; omega
  show out1_10 (F := Ideal) (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (ix2 p q)
      = updArr (V c main_v17) (V c main_arg0) (mat2 (V c main_arg13)) (row2 (V c main_v18) 0) (mat2 (V c main_arg15))
          (row2 (V c main_v19) 0) (row2 (V c main_v20) 0) (row2 (V c main_v21) 0) (row2 (V c main_v22) 0)
          (row2 (V c main_v23) 0) (((cfg1.win 10).blk t).view.emb (ix2 p q))
  refine (out_apply (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) p q).trans ?_
  unfold updArr
  exact updRow_congr (funext fun k => msg_block_apply V c t p k _ hrow) (funext fun k => feat_block_apply V c t p k _ hrow)
    (congrArg mat2 (wih_block V c t)) (congrArg (fun b => row2 b 0) (bih_block V c t))
    (congrArg mat2 (whh_block V c t)) (congrArg (fun b => row2 b 0) (bhh_block V c t))
    (congrArg (fun b => row2 b 0) (gamma_block V c t)) (congrArg (fun b => row2 b 0) (beta_block V c t))
    (congrArg (fun b => row2 b 0) (rmean_block V c t)) (congrArg (fun b => row2 b 0) (rvar_block V c t))
    (Fin.ext hcol.symm)

/-- An entry of the result array lies in point t's block exactly when its coordinates lie in the block's ranges. -/
theorem mem_block (t : Fin cfg1.N) (i : S50000x128.Idx) :
    i ∈ ((cfg1.win 10).blk t).view.set
      ↔ ∀ a : Fin 2, win1_10.index t a * S2000x128.size a ≤ (i a).val
          ∧ (i a).val < win1_10.index t a * S2000x128.size a + S2000x128.size a := by
  show i ∈ ((View.whole main_v24).slice (win1_10.rect t)).set ↔ _
  rw [View.set_slice_whole, Rect.mem_set_unit]
  exact Iff.rfl

/-- Row r of the result lies in the block of point r / 2000, which writes it back. -/
theorem covered (i : S50000x128.Idx) :
    ∃ t : Fin cfg1.N, (cfg1.win 10).flush t = true ∧ i ∈ ((cfg1.win 10).blk t).view.set := by
  have hi0 : (i 0).val < 50000 := (i 0).isLt
  have hi1 : (i 1).val < 128 := (i 1).isLt
  have ht : (i 0).val / 2000 < cfg1.N := by show (i 0).val / 2000 < 25; omega
  obtain ⟨-, -, ⟨h0, h1⟩, -⟩ := block_index ⟨(i 0).val / 2000, ht⟩
  refine ⟨⟨(i 0).val / 2000, ht⟩, flush1_10 _, ?_⟩
  rw [mem_block]
  intro a
  match a with
  | ⟨0, _⟩ =>
    show win1_10.index ⟨(i 0).val / 2000, ht⟩ (0 : Fin 2) * 2000 ≤ (i 0).val
      ∧ (i 0).val < win1_10.index ⟨(i 0).val / 2000, ht⟩ (0 : Fin 2) * 2000 + 2000
    rw [h0]; show (i 0).val / 2000 * 2000 ≤ (i 0).val ∧ (i 0).val < (i 0).val / 2000 * 2000 + 2000; omega
  | ⟨1, _⟩ =>
    show win1_10.index ⟨(i 0).val / 2000, ht⟩ (1 : Fin 2) * 128 ≤ (i 1).val
      ∧ (i 1).val < win1_10.index ⟨(i 0).val / 2000, ht⟩ (1 : Fin 2) * 128 + 128
    rw [h1]; omega

/-- After the region the result array holds `Cert.Spec.updArr` of the region's input arrays: row `n` is the update of
    node `n`, computed from row `n` of the aggregated messages and of the node features. -/
theorem arr1_eq (c : Dev nD) :
    (dat1 (F := Ideal) V c).arrAt 10 cfg1.N
      = updArr (V c main_v17) (V c main_arg0) (mat2 (V c main_arg13)) (row2 (V c main_v18) 0) (mat2 (V c main_arg15))
          (row2 (V c main_v19) 0) (row2 (V c main_v20) 0) (row2 (V c main_v21) 0) (row2 (V c main_v22) 0)
          (row2 (V c main_v23) 0) :=
  (dat1 (F := Ideal) V c).arrAt_eq_of_cover 10 _ (fun t _ => flushed_eq V c t) covered

end Cert.KernelIdeal.Region1

end
-- ==== Proof.Layout.lean ====
/-
  The host-side reshapes and slices of the weights, read as the rows and blocks the specification names:
  a vector cast to a one-row matrix has that vector as its row, and the three row slices of the 288×128 first-layer
  matrix (rows 0–127, 128–255, 256–287) are its leading, middle and trailing rows.
-/
import proofs.«418614_j29317446762811_1_alg».proof.Proof.Spec
import Idealize.ShloMosaic.Lib.ValueLayout

noncomputable section

namespace Cert.Spec

open Idealize.ShloMosaic Idealize.ShloMosaic.ValueIdx

/-- The one row of a vector cast to a one-row matrix is the vector. -/
theorem row2_shapeCast {n : ℕ} (b : (⟨1, ![n]⟩ : Shape).Idx → EReal) (h : (⟨1, ![n]⟩ : Shape).ShapeCasts ⟨2, ![1, n]⟩) :
    row2 (shapeCast ⟨2, ![1, n]⟩ b h) 0 = vec1 b :=
  funext fun k => shapeCast_a_1a_apply b h 0 k

/-- Rows 0–127 of the first-layer matrix. -/
theorem mat2_slice_top (W : (⟨2, ![288, 128]⟩ : Shape).Idx → EReal)
    (h : (⟨2, ![288, 128]⟩ : Shape).Slices ![0, 0] ⟨2, ![128, 128]⟩) :
    mat2 (extractStridedSlice ⟨2, ![128, 128]⟩ ![0, 0] W h) = topRows (mat2 W) :=
  funext fun k => funext fun j =>
    slice2_axis0_apply 0 W h k j ⟨k.val, by have := k.isLt; omega⟩ (Nat.zero_add _).symm

/-- Rows 128–255 of the first-layer matrix. -/
theorem mat2_slice_mid (W : (⟨2, ![288, 128]⟩ : Shape).Idx → EReal)
    (h : (⟨2, ![288, 128]⟩ : Shape).Slices ![128, 0] ⟨2, ![128, 128]⟩) :
    mat2 (extractStridedSlice ⟨2, ![128, 128]⟩ ![128, 0] W h) = midRows (mat2 W) :=
  funext fun k => funext fun j =>
    slice2_axis0_apply 128 W h k j ⟨128 + k.val, by have := k.isLt; omega⟩ rfl

/-- Rows 256–287 of the first-layer matrix. -/
theorem mat2_slice_bot (W : (⟨2, ![288, 128]⟩ : Shape).Idx → EReal)
    (h : (⟨2, ![288, 128]⟩ : Shape).Slices ![256, 0] ⟨2, ![32, 128]⟩) :
    mat2 (extractStridedSlice ⟨2, ![32, 128]⟩ ![256, 0] W h) = botRows (mat2 W) :=
  funext fun k => funext fun j =>
    slice2_axis0_apply 256 W h k j ⟨256 + k.val, by have := k.isLt; omega⟩ rfl

end Cert.Spec

end
-- ==== Proof.KValue.lean ====
/-
  The kernel program's result, read back to its arguments: the second region's result array is the node update of
  the arrays it is entered from; of those the aggregated messages are the scatter-add of the first region's message
  array, which is the message function of the arrays THAT region is entered from: the two looked-up feature arrays, the
  edge attributes and the weights as the host operations laid them out.
-/
import proofs.«418614_j29317446762811_1_alg».proof.Proof.KTake
import proofs.«418614_j29317446762811_1_alg».proof.Proof.K0
import proofs.«418614_j29317446762811_1_alg».proof.Proof.K1
import proofs.«418614_j29317446762811_1_alg».proof.Proof.Layout

set_option maxRecDepth 16384

noncomputable section

namespace Cert.KernelIdeal.Glue

open Cert.KernelIdeal Cert.KernelIdeal.Gen Cert.KernelIdeal.Take Cert.Spec
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- Equal arguments give equal message arrays (congruence, over variables). -/
theorem msgArr_congr {xd xd' xs xs' : (⟨2, ![800000, 128]⟩ : Shape).Idx → EReal} {ea ea' : (⟨2, ![800000, 32]⟩ : Shape).Idx → EReal}
    {We1 We1' : Fin 32 → Fin 32 → EReal} {be1 be1' : Fin 32 → EReal} {We2 We2' : Fin 32 → Fin 32 → EReal} {be2 be2' : Fin 32 → EReal}
    {Wd Wd' Ws Ws' : Fin 128 → Fin 128 → EReal} {We We' : Fin 32 → Fin 128 → EReal} {bm1 bm1' : Fin 128 → EReal}
    {Wm2 Wm2' : Fin 128 → Fin 64 → EReal} {bm2 bm2' : Fin 64 → EReal} {Wm3 Wm3' : Fin 64 → Fin 128 → EReal} {bm3 bm3' : Fin 128 → EReal}
    (h1 : xd = xd') (h2 : xs = xs') (h3 : ea = ea') (h4 : We1 = We1') (h5 : be1 = be1') (h6 : We2 = We2') (h7 : be2 = be2')
    (h8 : Wd = Wd') (h9 : Ws = Ws') (h10 : We = We') (h11 : bm1 = bm1') (h12 : Wm2 = Wm2') (h13 : bm2 = bm2') (h14 : Wm3 = Wm3')
    (h15 : bm3 = bm3') :
    msgArr xd xs ea We1 be1 We2 be2 Wd Ws We bm1 Wm2 bm2 Wm3 bm3 = msgArr xd' xs' ea' We1' be1' We2' be2' Wd' Ws' We' bm1' Wm2' bm2' Wm3' bm3' := by
  subst h1 h2 h3 h4 h5 h6 h7 h8 h9 h10 h11 h12 h13 h14 h15; rfl

/-- Equal arguments give equal update arrays (congruence, over variables). -/
theorem updArr_congr {M M' x x' : (⟨2, ![50000, 128]⟩ : Shape).Idx → EReal} {Wih Wih' : Fin 128 → Fin 384 → EReal} {bih bih' : Fin 384 → EReal}
    {Whh Whh' : Fin 128 → Fin 384 → EReal} {bhh bhh' : Fin 384 → EReal} {g g' b b' rm rm' rv rv' : Fin 128 → EReal}
    (h1 : M = M') (h2 : x = x') (h3 : Wih = Wih') (h4 : bih = bih') (h5 : Whh = Whh') (h6 : bhh = bhh') (h7 : g = g') (h8 : b = b')
    (h9 : rm = rm') (h10 : rv = rv') :
    updArr M x Wih bih Whh bhh g b rm rv = updArr M' x' Wih' bih' Whh' bhh' g' b' rm' rv' := by
  subst h1 h2 h3 h4 h5 h6 h7 h8 h9 h10; rfl

/-- What the first region leaves in the message array, over the arguments. -/
def messages (c : Dev nD) : FVec Ideal S800000x128 .f32 :=
  msgArr (takeFill (m ((c : Thread nD τ).loc main_arg0)) (dstOf (m ((c : Thread nD τ).loc main_arg2)))) (takeFill (m ((c : Thread nD τ).loc main_arg0)) (srcOf (m ((c : Thread nD τ).loc main_arg2)))) (m ((c : Thread nD τ).loc main_arg1))
    (mat2 (m ((c : Thread nD τ).loc main_arg3))) (vec1 (m ((c : Thread nD τ).loc main_arg4))) (mat2 (m ((c : Thread nD τ).loc main_arg5))) (vec1 (m ((c : Thread nD τ).loc main_arg6)))
    (topRows (mat2 (m ((c : Thread nD τ).loc main_arg7)))) (midRows (mat2 (m ((c : Thread nD τ).loc main_arg7)))) (botRows (mat2 (m ((c : Thread nD τ).loc main_arg7))))
    (vec1 (m ((c : Thread nD τ).loc main_arg8))) (mat2 (m ((c : Thread nD τ).loc main_arg9))) (vec1 (m ((c : Thread nD τ).loc main_arg10))) (mat2 (m ((c : Thread nD τ).loc main_arg11))) (vec1 (m ((c : Thread nD τ).loc main_arg12)))

/-- After the first region its output array holds the messages. -/
theorem W5_v14 (c : Dev nD) : W5 (F := Ideal) m ρ c (Proc.devRef .tc main_v14) = messages m c := by
  refine (W5_arr m ρ c 15).trans ((Cert.KernelIdeal.Region0.arr0_eq (V4 m ρ) c).trans ?_)
  have e4 : V4 (F := Ideal) m ρ c main_v4 = takeFill (m ((c : Thread nD τ).loc main_arg0)) (dstOf (m ((c : Thread nD τ).loc main_arg2))) := W4_v4 m ρ c
  have e5 : V4 (F := Ideal) m ρ c main_v5 = takeFill (m ((c : Thread nD τ).loc main_arg0)) (srcOf (m ((c : Thread nD τ).loc main_arg2))) := W4_v5 m ρ c
  have a1 : V4 (F := Ideal) m ρ c main_arg1 = (m ((c : Thread nD τ).loc main_arg1)) := W4_arg1 m ρ c
  have a3 : V4 (F := Ideal) m ρ c main_arg3 = (m ((c : Thread nD τ).loc main_arg3)) := W4_arg3 m ρ c
  have a5 : V4 (F := Ideal) m ρ c main_arg5 = (m ((c : Thread nD τ).loc main_arg5)) := W4_arg5 m ρ c
  have a9 : V4 (F := Ideal) m ρ c main_arg9 = (m ((c : Thread nD τ).loc main_arg9)) := W4_arg9 m ρ c
  have a11 : V4 (F := Ideal) m ρ c main_arg11 = (m ((c : Thread nD τ).loc main_arg11)) := W4_arg11 m ρ c
  have r9 : row2 (V4 (F := Ideal) m ρ c main_v9) 0 = vec1 (m ((c : Thread nD τ).loc main_arg4)) := by
    rw [show V4 (F := Ideal) m ρ c main_v9 = _ from W4_v9 m ρ c]; exact row2_shapeCast _ _
  have r10 : row2 (V4 (F := Ideal) m ρ c main_v10) 0 = vec1 (m ((c : Thread nD τ).loc main_arg6)) := by
    rw [show V4 (F := Ideal) m ρ c main_v10 = _ from W4_v10 m ρ c]; exact row2_shapeCast _ _
  have r11 : row2 (V4 (F := Ideal) m ρ c main_v11) 0 = vec1 (m ((c : Thread nD τ).loc main_arg8)) := by
    rw [show V4 (F := Ideal) m ρ c main_v11 = _ from W4_v11 m ρ c]; exact row2_shapeCast _ _
  have r12 : row2 (V4 (F := Ideal) m ρ c main_v12) 0 = vec1 (m ((c : Thread nD τ).loc main_arg10)) := by
    rw [show V4 (F := Ideal) m ρ c main_v12 = _ from W4_v12 m ρ c]; exact row2_shapeCast _ _
  have r13 : row2 (V4 (F := Ideal) m ρ c main_v13) 0 = vec1 (m ((c : Thread nD τ).loc main_arg12)) := by
    rw [show V4 (F := Ideal) m ρ c main_v13 = _ from W4_v13 m ρ c]; exact row2_shapeCast _ _
  have s6 : mat2 (V4 (F := Ideal) m ρ c main_v6) = topRows (mat2 (m ((c : Thread nD τ).loc main_arg7))) := by
    rw [show V4 (F := Ideal) m ρ c main_v6 = _ from W4_v6 m ρ c]; exact mat2_slice_top _ _
  have s7 : mat2 (V4 (F := Ideal) m ρ c main_v7) = midRows (mat2 (m ((c : Thread nD τ).loc main_arg7))) := by
    rw [show V4 (F := Ideal) m ρ c main_v7 = _ from W4_v7 m ρ c]; exact mat2_slice_mid _ _
  have s8 : mat2 (V4 (F := Ideal) m ρ c main_v8) = botRows (mat2 (m ((c : Thread nD τ).loc main_arg7))) := by
    rw [show V4 (F := Ideal) m ρ c main_v8 = _ from W4_v8 m ρ c]; exact mat2_slice_bot _ _
  unfold messages
  exact msgArr_congr e4 e5 a1 (congrArg mat2 a3) r9 (congrArg mat2 a5) r10 s6 s7 s8 r11 (congrArg mat2 a9) r12 (congrArg mat2 a11) r13

/-! ## At the second region's entry -/

/-- The aggregated messages. -/
theorem W6_v17 (c : Dev nD) : W6 (F := Ideal) m ρ c (Proc.devRef .tc main_v17) = aggregate (m ((c : Thread nD τ).loc main_arg2)) (messages m c) := by
  show StableHlo.after hostOps1 (W5 m ρ c) (Proc.devRef .tc main_v17) = _
  after_results_simp
  rw [W5_v14, W5_of_ne m ρ c main_v3 (by decide), W4_v3]
  rfl

theorem W6_arg0 (c : Dev nD) : W6 (F := Ideal) m ρ c (Proc.devRef .tc main_arg0) = (m ((c : Thread nD τ).loc main_arg0)) := by
  show StableHlo.after hostOps1 (W5 m ρ c) (Proc.devRef .tc main_arg0) = _
  after_results_simp
  rw [W5_of_ne m ρ c main_arg0 (by decide), W4_arg0]
theorem W6_arg13 (c : Dev nD) : W6 (F := Ideal) m ρ c (Proc.devRef .tc main_arg13) = (m ((c : Thread nD τ).loc main_arg13)) := by
  show StableHlo.after hostOps1 (W5 m ρ c) (Proc.devRef .tc main_arg13) = _
  after_results_simp
  rw [W5_of_ne m ρ c main_arg13 (by decide), W4_arg13]
theorem W6_arg15 (c : Dev nD) : W6 (F := Ideal) m ρ c (Proc.devRef .tc main_arg15) = (m ((c : Thread nD τ).loc main_arg15)) := by
  show StableHlo.after hostOps1 (W5 m ρ c) (Proc.devRef .tc main_arg15) = _
  after_results_simp
  rw [W5_of_ne m ρ c main_arg15 (by decide), W4_arg15]

theorem W6_v18 (c : Dev nD) : W6 (F := Ideal) m ρ c (Proc.devRef .tc main_v18) = shapeCast S1x384 (m ((c : Thread nD τ).loc main_arg14)) shapeCasts_S384_S1x384 := by
  show StableHlo.after hostOps1 (W5 m ρ c) (Proc.devRef .tc main_v18) = _
  after_results_simp
  rw [W5_of_ne m ρ c main_arg14 (by decide), W4_arg14]
  rfl
theorem W6_v19 (c : Dev nD) : W6 (F := Ideal) m ρ c (Proc.devRef .tc main_v19) = shapeCast S1x384 (m ((c : Thread nD τ).loc main_arg16)) shapeCasts_S384_S1x384 := by
  show StableHlo.after hostOps1 (W5 m ρ c) (Proc.devRef .tc main_v19) = _
  after_results_simp
  rw [W5_of_ne m ρ c main_arg16 (by decide), W4_arg16]
  rfl
theorem W6_v20 (c : Dev nD) : W6 (F := Ideal) m ρ c (Proc.devRef .tc main_v20) = shapeCast S1x128 (m ((c : Thread nD τ).loc main_arg17)) shapeCasts_S128_S1x128 := by
  show StableHlo.after hostOps1 (W5 m ρ c) (Proc.devRef .tc main_v20) = _
  after_results_simp
  rw [W5_of_ne m ρ c main_arg17 (by decide), W4_arg17]
  rfl
theorem W6_v21 (c : Dev nD) : W6 (F := Ideal) m ρ c (Proc.devRef .tc main_v21) = shapeCast S1x128 (m ((c : Thread nD τ).loc main_arg18)) shapeCasts_S128_S1x128 := by
  show StableHlo.after hostOps1 (W5 m ρ c) (Proc.devRef .tc main_v21) = _
  after_results_simp
  rw [W5_of_ne m ρ c main_arg18 (by decide), W4_arg18]
  rfl
theorem W6_v22 (c : Dev nD) : W6 (F := Ideal) m ρ c (Proc.devRef .tc main_v22) = shapeCast S1x128 (m ((c : Thread nD τ).loc main_arg19)) shapeCasts_S128_S1x128 := by
  show StableHlo.after hostOps1 (W5 m ρ c) (Proc.devRef .tc main_v22) = _
  after_results_simp
  rw [W5_of_ne m ρ c main_arg19 (by decide), W4_arg19]
  rfl
theorem W6_v23 (c : Dev nD) : W6 (F := Ideal) m ρ c (Proc.devRef .tc main_v23) = shapeCast S1x128 (m ((c : Thread nD τ).loc main_arg20)) shapeCasts_S128_S1x128 := by
  show StableHlo.after hostOps1 (W5 m ρ c) (Proc.devRef .tc main_v23) = _
  after_results_simp
  rw [W5_of_ne m ρ c main_arg20 (by decide), W4_arg20]
  rfl

/-- The kernel program's result buffer at the end of the run, over the arguments. -/
theorem result_eq (c : Dev nD) :
    W7 (F := Ideal) m ρ c (Proc.devRef .tc main_v24)
      = kernelResult (takeFill (m ((c : Thread nD τ).loc main_arg0)) (dstOf (m ((c : Thread nD τ).loc main_arg2)))) (takeFill (m ((c : Thread nD τ).loc main_arg0)) (srcOf (m ((c : Thread nD τ).loc main_arg2))))
          (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  refine (W7_arr m ρ c 10).trans ((Cert.KernelIdeal.Region1.arr1_eq (V6 m ρ) c).trans ?_)
  have e17 : V6 (F := Ideal) m ρ c main_v17 = aggregate (m ((c : Thread nD τ).loc main_arg2)) (messages m c) := W6_v17 m ρ c
  have a0 : V6 (F := Ideal) m ρ c main_arg0 = (m ((c : Thread nD τ).loc main_arg0)) := W6_arg0 m ρ c
  have a13 : V6 (F := Ideal) m ρ c main_arg13 = (m ((c : Thread nD τ).loc main_arg13)) := W6_arg13 m ρ c
  have a15 : V6 (F := Ideal) m ρ c main_arg15 = (m ((c : Thread nD τ).loc main_arg15)) := W6_arg15 m ρ c
  have r18 : row2 (V6 (F := Ideal) m ρ c main_v18) 0 = vec1 (m ((c : Thread nD τ).loc main_arg14)) := by
    rw [show V6 (F := Ideal) m ρ c main_v18 = _ from W6_v18 m ρ c]; exact row2_shapeCast _ _
  have r19 : row2 (V6 (F := Ideal) m ρ c main_v19) 0 = vec1 (m ((c : Thread nD τ).loc main_arg16)) := by
    rw [show V6 (F := Ideal) m ρ c main_v19 = _ from W6_v19 m ρ c]; exact row2_shapeCast _ _
  have r20 : row2 (V6 (F := Ideal) m ρ c main_v20) 0 = vec1 (m ((c : Thread nD τ).loc main_arg17)) := by
    rw [show V6 (F := Ideal) m ρ c main_v20 = _ from W6_v20 m ρ c]; exact row2_shapeCast _ _
  have r21 : row2 (V6 (F := Ideal) m ρ c main_v21) 0 = vec1 (m ((c : Thread nD τ).loc main_arg18)) := by
    rw [show V6 (F := Ideal) m ρ c main_v21 = _ from W6_v21 m ρ c]; exact row2_shapeCast _ _
  have r22 : row2 (V6 (F := Ideal) m ρ c main_v22) 0 = vec1 (m ((c : Thread nD τ).loc main_arg19)) := by
    rw [show V6 (F := Ideal) m ρ c main_v22 = _ from W6_v22 m ρ c]; exact row2_shapeCast _ _
  have r23 : row2 (V6 (F := Ideal) m ρ c main_v23) 0 = vec1 (m ((c : Thread nD τ).loc main_arg20)) := by
    rw [show V6 (F := Ideal) m ρ c main_v23 = _ from W6_v23 m ρ c]; exact row2_shapeCast _ _
  unfold kernelResult
  exact updArr_congr e17 a0 (congrArg mat2 a13) r18 (congrArg mat2 a15) r19 r20 r21 r22 r23

end Cert.KernelIdeal.Glue

end
-- ==== Proof.R0.lean ====
/-
  The reference's per-edge message array at the extended reals, read index by index: row `e` of it is
  `Cert.Spec.msgRowCat` of row `e` of the two gathered feature arrays and of the edge attributes, which is
  `Cert.Spec.msgRow` over the leading, middle and trailing rows of the first layer's 288×128 matrix.
-/
import proofs.«418614_j29317446762811_1_alg».proof.Proof.Gen.ReferenceIdeal.Read
import proofs.«418614_j29317446762811_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.ReferenceIdeal.Messages

open Cert.ReferenceIdeal Cert.ReferenceIdeal.Gen Cert.ReferenceIdeal.Read Cert.Spec
open Idealize.ShloMosaic Idealize.ShloMosaic.TcCoe Idealize.ShloMosaic.ValueIdx Idealize.SL.Sem
open scoped BigOperators

section Layers

variable (x0 : (⟨S50000x128, .f32⟩ : BufTy).Contents (Elt Ideal)) (x1 : (⟨S800000x32, .f32⟩ : BufTy).Contents (Elt Ideal))
  (x2 : (⟨S2x800000, .i32⟩ : BufTy).Contents (Elt Ideal))
  (x3 : (⟨S32x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal))
  (x7 : (⟨S288x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal))
  (x11 : (⟨S64x128, .f32⟩ : BufTy).Contents (Elt Ideal)) (x12 : (⟨S128, .f32⟩ : BufTy).Contents (Elt Ideal))

/-! ### Where each operation reads its operands

A product reads row `e` of its left operand and column `k` of its right one; a bias broadcast along the rows
reads entry `k` of the bias. -/

theorem lidx4 (e : Fin 800000) (k k' : Fin 32) : lidx_main_v4 (ix2 e k) k' = ix2 e k' :=
  funext fun a => by match a with | ⟨0, _⟩ => rfl | ⟨1, _⟩ => rfl
theorem ridx4 (e : Fin 800000) (k k' : Fin 32) : ridx_main_v4 (ix2 e k) k' = ix2 k' k :=
  funext fun a => by match a with | ⟨0, _⟩ => rfl | ⟨1, _⟩ => rfl
theorem idx6 (e : Fin 800000) (k : Fin 32) : idx_main_v5 (idx_main_v6 (ix2 e k)) = ix1 k :=
  funext fun a => by match a with | ⟨0, _⟩ => rfl
theorem lidx9 (e : Fin 800000) (k k' : Fin 32) : lidx_main_v9 (ix2 e k) k' = ix2 e k' :=
  funext fun a => by match a with | ⟨0, _⟩ => rfl | ⟨1, _⟩ => rfl
theorem ridx9 (e : Fin 800000) (k k' : Fin 32) : ridx_main_v9 (ix2 e k) k' = ix2 k' k :=
  funext fun a => by match a with | ⟨0, _⟩ => rfl | ⟨1, _⟩ => rfl
theorem idx11 (e : Fin 800000) (k : Fin 32) : idx_main_v10 (idx_main_v11 (ix2 e k)) = ix1 k :=
  funext fun a => by match a with | ⟨0, _⟩ => rfl
theorem lidx28 (e : Fin 800000) (k : Fin 128) (k' : Fin 288) : lidx_main_v28 (ix2 e k) k' = ix2 e k' :=
  funext fun a => by match a with | ⟨0, _⟩ => rfl | ⟨1, _⟩ => rfl
theorem ridx28 (e : Fin 800000) (k : Fin 128) (k' : Fin 288) : ridx_main_v28 (ix2 e k) k' = ix2 k' k :=
  funext fun a => by match a with | ⟨0, _⟩ => rfl | ⟨1, _⟩ => rfl
theorem idx30 (e : Fin 800000) (k : Fin 128) : idx_main_v29 (idx_main_v30 (ix2 e k)) = ix1 k :=
  funext fun a => by match a with | ⟨0, _⟩ => rfl
theorem lidx33 (e : Fin 800000) (k : Fin 64) (k' : Fin 128) : lidx_main_v33 (ix2 e k) k' = ix2 e k' :=
  funext fun a => by match a with | ⟨0, _⟩ => rfl | ⟨1, _⟩ => rfl
theorem ridx33 (e : Fin 800000) (k : Fin 64) (k' : Fin 128) : ridx_main_v33 (ix2 e k) k' = ix2 k' k :=
  funext fun a => by match a with | ⟨0, _⟩ => rfl | ⟨1, _⟩ => rfl
theorem idx35 (e : Fin 800000) (k : Fin 64) : idx_main_v34 (idx_main_v35 (ix2 e k)) = ix1 k :=
  funext fun a => by match a with | ⟨0, _⟩ => rfl
theorem lidx38 (e : Fin 800000) (k : Fin 128) (k' : Fin 64) : lidx_main_v38 (ix2 e k) k' = ix2 e k' :=
  funext fun a => by match a with | ⟨0, _⟩ => rfl | ⟨1, _⟩ => rfl
theorem ridx38 (e : Fin 800000) (k : Fin 128) (k' : Fin 64) : ridx_main_v38 (ix2 e k) k' = ix2 k' k :=
  funext fun a => by match a with | ⟨0, _⟩ => rfl | ⟨1, _⟩ => rfl
theorem idx40 (e : Fin 800000) (k : Fin 128) : idx_main_v39 (idx_main_v40 (ix2 e k)) = ix1 k :=
  funext fun a => by match a with | ⟨0, _⟩ => rfl

/-! ### The edge encoder -/

/-- The encoder's first affine layer on edge `e`. -/
theorem v7_at (e : Fin 800000) (k : Fin 32) :
    val_main_v7 (F := Ideal) x1 x3 x4 (ix2 e k) = aff (row2 x1 e) (mat2 x3) (vec1 x4) k := by
  rw [val_main_v7_apply, val_main_v4_apply, val_main_v6_apply, val_main_v5_apply, idx6]
  simp only [lidx4, ridx4]
  rfl

/-- ... and its ReLU. -/
theorem v8_at (e : Fin 800000) (k : Fin 32) :
    val_main_v8 (F := Ideal) x1 x3 x4 (ix2 e k) = relu (aff (row2 x1 e) (mat2 x3) (vec1 x4) k) := by
  rw [val_main_v8_apply, v7_at, val_main_call0_v0_apply, val_main_call0_cst_apply]
  rfl

/-- The encoded attributes of edge `e`. -/
theorem v12_at (e : Fin 800000) (k : Fin 32) :
    val_main_v12 (F := Ideal) x1 x3 x4 x5 x6 (ix2 e k)
      = encRow (row2 x1 e) (mat2 x3) (vec1 x4) (mat2 x5) (vec1 x6) k := by
  rw [val_main_v12_apply, val_main_v9_apply, val_main_v11_apply, val_main_v10_apply, idx11]
  simp only [lidx9, ridx9, v8_at]
  rfl

/-! ### The concatenation [x_dst ; x_src ; e]

Along the columns the three pieces span 0–127, 128–255 and 256–287; a column is read from the piece whose
span holds it, at its offset within that span. -/

theorem v27_at (e : Fin 800000) (k : Fin 288) :
    val_main_v27 (F := Ideal) x0 x1 x2 x3 x4 x5 x6 (ix2 e k)
      = cat3 (row2 (val_main_v19 (F := Ideal) x0 x2) e) (row2 (val_main_v26 (F := Ideal) x0 x2) e)
          (encRow (row2 x1 e) (mat2 x3) (vec1 x4) (mat2 x5) (vec1 x6)) k := by
  unfold val_main_v27 cat3
  by_cases h1 : k.val < 128
  · rw [dif_pos h1]
    exact concatenate_apply_piece (t := S800000x288) 1 _ _ (ix2 e k) 0 (by show 0 < 3; omega) S800000x128 _ rfl rfl 0 rfl
      (ix2 e ⟨k.val, h1⟩)
      (fun b hb => by match b with | ⟨0, _⟩ => rfl | ⟨1, _⟩ => exact absurd (Fin.ext rfl) hb)
      (by show 0 + k.val = k.val; omega)
  · rw [dif_neg h1]
    by_cases h2 : k.val < 256
    · rw [dif_pos h2]
      exact concatenate_apply_piece (t := S800000x288) 1 _ _ (ix2 e k) 1 (by show 1 < 3; omega) S800000x128 _ rfl rfl 128 rfl
        (ix2 e ⟨k.val - 128, by omega⟩)
        (fun b hb => by match b with | ⟨0, _⟩ => rfl | ⟨1, _⟩ => exact absurd (Fin.ext rfl) hb)
        (by show 128 + (k.val - 128) = k.val; omega)
    · rw [dif_neg h2]
      have hk := k.isLt
      rw [← v12_at]
      exact concatenate_apply_piece (t := S800000x288) 1 _ _ (ix2 e k) 2 (by show 2 < 3; omega) S800000x32 _ rfl rfl 256 rfl
        (ix2 e ⟨k.val - 256, by omega⟩)
        (fun b hb => by match b with | ⟨0, _⟩ => rfl | ⟨1, _⟩ => exact absurd (Fin.ext rfl) hb)
        (by show 256 + (k.val - 256) = k.val; omega)

/-! ### The message layers -/

/-- The first message layer of edge `e`, on the concatenation. -/
theorem v32_at (e : Fin 800000) (k : Fin 128) :
    val_main_v32 (F := Ideal) x0 x1 x2 x3 x4 x5 x6 x7 x8 (ix2 e k)
      = h1RowCat (row2 (val_main_v19 (F := Ideal) x0 x2) e) (row2 (val_main_v26 (F := Ideal) x0 x2) e)
          (encRow (row2 x1 e) (mat2 x3) (vec1 x4) (mat2 x5) (vec1 x6)) (mat2 x7) (vec1 x8) k := by
  rw [val_main_v32_apply, val_main_v31_apply, val_main_v28_apply, val_main_v30_apply, val_main_v29_apply, idx30,
    val_main_call1_v0_apply, val_main_call1_cst_apply]
  simp only [lidx28, ridx28, v27_at]
  rfl

/-- The second message layer with its ReLU. -/
theorem v37_at (e : Fin 800000) (k : Fin 64) :
    val_main_v37 (F := Ideal) x0 x1 x2 x3 x4 x5 x6 x7 x8 x9 x10 (ix2 e k)
      = relu (aff (h1RowCat (row2 (val_main_v19 (F := Ideal) x0 x2) e) (row2 (val_main_v26 (F := Ideal) x0 x2) e)
          (encRow (row2 x1 e) (mat2 x3) (vec1 x4) (mat2 x5) (vec1 x6)) (mat2 x7) (vec1 x8)) (mat2 x9) (vec1 x10) k) := by
  rw [val_main_v37_apply, val_main_v36_apply, val_main_v33_apply, val_main_v35_apply, val_main_v34_apply, idx35,
    val_main_call2_v0_apply, val_main_call2_cst_apply]
  simp only [lidx33, ridx33, v32_at]
  rfl

/-- The message of edge `e`. -/
theorem v41_at (e : Fin 800000) (q : Fin 128) :
    val_main_v41 (F := Ideal) x0 x1 x2 x3 x4 x5 x6 x7 x8 x9 x10 x11 x12 (ix2 e q)
      = msgRowCat (row2 (val_main_v19 (F := Ideal) x0 x2) e) (row2 (val_main_v26 (F := Ideal) x0 x2) e) (row2 x1 e)
          (mat2 x3) (vec1 x4) (mat2 x5) (vec1 x6) (mat2 x7) (vec1 x8) (mat2 x9) (vec1 x10) (mat2 x11) (vec1 x12) q := by
  rw [val_main_v41_apply, val_main_v38_apply, val_main_v40_apply, val_main_v39_apply, idx40]
  simp only [lidx38, ridx38, v37_at]
  rfl

end Layers

/-- The reference's message array is `Cert.Spec.msgArr` of the gathered features, the edge attributes and the weights. -/
theorem msg_eq (x0 : (⟨S50000x128, .f32⟩ : BufTy).Contents (Elt Ideal)) (x1 : (⟨S800000x32, .f32⟩ : BufTy).Contents (Elt Ideal)) (x2 : (⟨S2x800000, .i32⟩ : BufTy).Contents (Elt Ideal)) (x3 : (⟨S32x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S288x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (x11 : (⟨S64x128, .f32⟩ : BufTy).Contents (Elt Ideal)) (x12 : (⟨S128, .f32⟩ : BufTy).Contents (Elt Ideal)) :
    val_main_v41 (F := Ideal) x0 x1 x2 x3 x4 x5 x6 x7 x8 x9 x10 x11 x12
      = msgArr (val_main_v19 (F := Ideal) x0 x2) (val_main_v26 (F := Ideal) x0 x2) x1 (mat2 x3) (vec1 x4) (mat2 x5) (vec1 x6)
          (topRows (mat2 x7)) (midRows (mat2 x7)) (botRows (mat2 x7)) (vec1 x8) (mat2 x9) (vec1 x10) (mat2 x11) (vec1 x12) := by
  funext i
  obtain ⟨e, q, rfl⟩ : ∃ (e : Fin 800000) (q : Fin 128), i = ix2 e q := ⟨i 0, i 1, eq_ix2 i⟩
  rw [v41_at, msgRowCat_eq]
  rfl

end Cert.ReferenceIdeal.Messages

end
-- ==== Proof.R1.lean ====
/-
  The reference's result at the extended reals, read index by index: row `n` of it is `Cert.Spec.updRow` of row `n`
  of the aggregated messages and of the node features. The host spells the logistic function as 1 / (1 + exp (−x)),
  which is `Ideal.logistic`.
-/
import proofs.«418614_j29317446762811_1_alg».proof.Proof.Gen.ReferenceIdeal.Read
import proofs.«418614_j29317446762811_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.ReferenceIdeal.Update

open Cert.ReferenceIdeal Cert.ReferenceIdeal.Gen Cert.ReferenceIdeal.Read Cert.Spec
open Idealize.ShloMosaic Idealize.ShloMosaic.TcCoe Idealize.ShloMosaic.ValueIdx Idealize.SL.Sem
open scoped BigOperators

section
variable (x0 : (⟨S50000x128, .f32⟩ : BufTy).Contents (Elt Ideal)) (x1 : (⟨S800000x32, .f32⟩ : BufTy).Contents (Elt Ideal)) (x2 : (⟨S2x800000, .i32⟩ : BufTy).Contents (Elt Ideal)) (x3 : (⟨S32x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S288x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (x11 : (⟨S64x128, .f32⟩ : BufTy).Contents (Elt Ideal)) (x12 : (⟨S128, .f32⟩ : BufTy).Contents (Elt Ideal)) (x13 : (⟨S128x384, .f32⟩ : BufTy).Contents (Elt Ideal)) (x14 : (⟨S384, .f32⟩ : BufTy).Contents (Elt Ideal)) (x15 : (⟨S128x384, .f32⟩ : BufTy).Contents (Elt Ideal)) (x16 : (⟨S384, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S128, .f32⟩ : BufTy).Contents (Elt Ideal))

/-! Which element each layout stage reads, written with the coordinates of the index. -/

theorem lidx45 (n : Fin 50000) (k : Fin 384) (k' : Fin 128) : lidx_main_v45 (ix2 n k) k' = ix2 n k' :=
  funext fun a => Fin.ext (by match a with | ⟨0, _⟩ => rfl | ⟨1, _⟩ => rfl)
theorem ridx45 (n : Fin 50000) (k : Fin 384) (k' : Fin 128) : ridx_main_v45 (ix2 n k) k' = ix2 k' k :=
  funext fun a => Fin.ext (by match a with | ⟨0, _⟩ => rfl | ⟨1, _⟩ => rfl)
theorem idx4647 (n : Fin 50000) (k : Fin 384) : idx_main_v46 (idx_main_v47 (ix2 n k)) = ix1 k :=
  funext fun a => Fin.ext (by match a with | ⟨0, _⟩ => rfl)
theorem lidx49 (n : Fin 50000) (k : Fin 384) (k' : Fin 128) : lidx_main_v49 (ix2 n k) k' = ix2 n k' :=
  funext fun a => Fin.ext (by match a with | ⟨0, _⟩ => rfl | ⟨1, _⟩ => rfl)
theorem ridx49 (n : Fin 50000) (k : Fin 384) (k' : Fin 128) : ridx_main_v49 (ix2 n k) k' = ix2 k' k :=
  funext fun a => Fin.ext (by match a with | ⟨0, _⟩ => rfl | ⟨1, _⟩ => rfl)
theorem idx5051 (n : Fin 50000) (k : Fin 384) : idx_main_v50 (idx_main_v51 (ix2 n k)) = ix1 k :=
  funext fun a => Fin.ext (by match a with | ⟨0, _⟩ => rfl)

/-- The three column blocks of a 384-wide row: columns `q`, `128 + q`, `256 + q`. -/
theorem idx53 (n : Fin 50000) (q : Fin 128) : idx_main_v53 (ix2 n q) = ix2 n (⟨q.val, by have := q.isLt; omega⟩ : Fin 384) :=
  funext fun a => Fin.ext (by match a with | ⟨0, _⟩ => rfl | ⟨1, _⟩ => rfl)
theorem idx54 (n : Fin 50000) (q : Fin 128) : idx_main_v54 (ix2 n q) = ix2 n (⟨128 + q.val, by have := q.isLt; omega⟩ : Fin 384) :=
  funext fun a => Fin.ext (by match a with | ⟨0, _⟩ => rfl | ⟨1, _⟩ => rfl)
theorem idx55 (n : Fin 50000) (q : Fin 128) : idx_main_v55 (ix2 n q) = ix2 n (⟨256 + q.val, by have := q.isLt; omega⟩ : Fin 384) :=
  funext fun a => Fin.ext (by match a with | ⟨0, _⟩ => rfl | ⟨1, _⟩ => rfl)
theorem idx56 (n : Fin 50000) (q : Fin 128) : idx_main_v56 (ix2 n q) = ix2 n (⟨q.val, by have := q.isLt; omega⟩ : Fin 384) :=
  funext fun a => Fin.ext (by match a with | ⟨0, _⟩ => rfl | ⟨1, _⟩ => rfl)
theorem idx57 (n : Fin 50000) (q : Fin 128) : idx_main_v57 (ix2 n q) = ix2 n (⟨128 + q.val, by have := q.isLt; omega⟩ : Fin 384) :=
  funext fun a => Fin.ext (by match a with | ⟨0, _⟩ => rfl | ⟨1, _⟩ => rfl)
theorem idx58 (n : Fin 50000) (q : Fin 128) : idx_main_v58 (ix2 n q) = ix2 n (⟨256 + q.val, by have := q.isLt; omega⟩ : Fin 384) :=
  funext fun a => Fin.ext (by match a with | ⟨0, _⟩ => rfl | ⟨1, _⟩ => rfl)

/-- A per-column vector broadcast over the rows reads its column. -/
theorem idx8182 (n : Fin 50000) (q : Fin 128) : idx_main_v81 (idx_main_v82 (ix2 n q)) = ix1 q :=
  funext fun a => Fin.ext (by match a with | ⟨0, _⟩ => rfl)
theorem idx8788 (n : Fin 50000) (q : Fin 128) : idx_main_v87 (idx_main_v88 (ix2 n q)) = ix1 q :=
  funext fun a => Fin.ext (by match a with | ⟨0, _⟩ => rfl)
theorem idx9091 (n : Fin 50000) (q : Fin 128) : idx_main_v90 (idx_main_v91 (ix2 n q)) = ix1 q :=
  funext fun a => Fin.ext (by match a with | ⟨0, _⟩ => rfl)
theorem idx9394 (n : Fin 50000) (q : Fin 128) : idx_main_v93 (idx_main_v94 (ix2 n q)) = ix1 q :=
  funext fun a => Fin.ext (by match a with | ⟨0, _⟩ => rfl)

/-! The two 384-wide affine maps. -/

/-- Row `n` of the aggregated messages through the input-side affine map. -/
theorem gi_apply (n : Fin 50000) (k : Fin 384) :
    val_main_v48 (F := Ideal) x0 x1 x2 x3 x4 x5 x6 x7 x8 x9 x10 x11 x12 x13 x14 (ix2 n k)
      = aff (row2 (val_main_v44 (F := Ideal) x0 x1 x2 x3 x4 x5 x6 x7 x8 x9 x10 x11 x12) n) (mat2 x13) (vec1 x14) k := by
  rw [val_main_v48_apply, val_main_v45_apply, val_main_v47_apply, val_main_v46_apply, idx4647]
  generalize val_main_v44 (F := Ideal) x0 x1 x2 x3 x4 x5 x6 x7 x8 x9 x10 x11 x12 = M
  simp only [lidx45, ridx45, Ideal.addf_def]
  rfl

/-- Row `n` of the node features through the hidden-side affine map. -/
theorem gh_apply (n : Fin 50000) (k : Fin 384) :
    val_main_v52 (F := Ideal) x0 x15 x16 (ix2 n k) = aff (row2 x0 n) (mat2 x15) (vec1 x16) k := by
  rw [val_main_v52_apply, val_main_v49_apply, val_main_v51_apply, val_main_v50_apply, idx5051]
  simp only [lidx49, ridx49, Ideal.addf_def]
  rfl

/-! The gates. The host writes the logistic function as 1 / (1 + exp (−x)). -/

/-- The reset gate. -/
theorem r_apply (n : Fin 50000) (q : Fin 128) :
    val_main_v65 (F := Ideal) x0 x1 x2 x3 x4 x5 x6 x7 x8 x9 x10 x11 x12 x13 x14 x15 x16 (ix2 n q)
      = Ideal.logistic (aff (row2 (val_main_v44 (F := Ideal) x0 x1 x2 x3 x4 x5 x6 x7 x8 x9 x10 x11 x12) n) (mat2 x13) (vec1 x14) (⟨q.val, by have := q.isLt; omega⟩ : Fin 384) + aff (row2 x0 n) (mat2 x15) (vec1 x16) (⟨q.val, by have := q.isLt; omega⟩ : Fin 384)) := by
  rw [val_main_v65_apply, val_main_v64_apply, val_main_cst_4_apply, val_main_v63_apply, val_main_v62_apply,
    val_main_cst_3_apply, val_main_v61_apply, val_main_v60_apply, val_main_v59_apply, val_main_v53_apply,
    val_main_v56_apply, idx53, idx56, gi_apply, gh_apply]
  simp only [Ideal.hostDivf_def, Ideal.addf_def, Ideal.hostUnary_exp_def, Ideal.hostNegf_def, Ideal.negf_def,
    Ideal.ofBits_def, Ideal.ofBits_one_f32]
  rfl

/-- The update gate. -/
theorem z_apply (n : Fin 50000) (q : Fin 128) :
    val_main_v72 (F := Ideal) x0 x1 x2 x3 x4 x5 x6 x7 x8 x9 x10 x11 x12 x13 x14 x15 x16 (ix2 n q)
      = Ideal.logistic (aff (row2 (val_main_v44 (F := Ideal) x0 x1 x2 x3 x4 x5 x6 x7 x8 x9 x10 x11 x12) n) (mat2 x13) (vec1 x14) (⟨128 + q.val, by have := q.isLt; omega⟩ : Fin 384) + aff (row2 x0 n) (mat2 x15) (vec1 x16) (⟨128 + q.val, by have := q.isLt; omega⟩ : Fin 384)) := by
  rw [val_main_v72_apply, val_main_v71_apply, val_main_cst_6_apply, val_main_v70_apply, val_main_v69_apply,
    val_main_cst_5_apply, val_main_v68_apply, val_main_v67_apply, val_main_v66_apply, val_main_v54_apply,
    val_main_v57_apply, idx54, idx57, gi_apply, gh_apply]
  simp only [Ideal.hostDivf_def, Ideal.addf_def, Ideal.hostUnary_exp_def, Ideal.hostNegf_def, Ideal.negf_def,
    Ideal.ofBits_def, Ideal.ofBits_one_f32]
  rfl

/-- The candidate state. -/
theorem n_apply (n : Fin 50000) (q : Fin 128) :
    val_main_v75 (F := Ideal) x0 x1 x2 x3 x4 x5 x6 x7 x8 x9 x10 x11 x12 x13 x14 x15 x16 (ix2 n q)
      = Ideal.tanh (aff (row2 (val_main_v44 (F := Ideal) x0 x1 x2 x3 x4 x5 x6 x7 x8 x9 x10 x11 x12) n) (mat2 x13) (vec1 x14) (⟨256 + q.val, by have := q.isLt; omega⟩ : Fin 384)
          + Ideal.logistic (aff (row2 (val_main_v44 (F := Ideal) x0 x1 x2 x3 x4 x5 x6 x7 x8 x9 x10 x11 x12) n) (mat2 x13) (vec1 x14) (⟨q.val, by have := q.isLt; omega⟩ : Fin 384) + aff (row2 x0 n) (mat2 x15) (vec1 x16) (⟨q.val, by have := q.isLt; omega⟩ : Fin 384)) * aff (row2 x0 n) (mat2 x15) (vec1 x16) (⟨256 + q.val, by have := q.isLt; omega⟩ : Fin 384)) := by
  rw [val_main_v75_apply, val_main_v74_apply, val_main_v73_apply, val_main_v55_apply, val_main_v58_apply,
    idx55, idx58, gi_apply, gh_apply, r_apply]
  simp only [Ideal.hostUnary_tanh_def, Ideal.addf_def, Ideal.mulf_def]

/-- The new hidden state: (1 − z) · n + z · x. -/
theorem h_apply (n : Fin 50000) (q : Fin 128) :
    val_main_v80 (F := Ideal) x0 x1 x2 x3 x4 x5 x6 x7 x8 x9 x10 x11 x12 x13 x14 x15 x16 (ix2 n q)
      = (Ideal.ofBits .f32 0x3F800000#32
            - Ideal.logistic (aff (row2 (val_main_v44 (F := Ideal) x0 x1 x2 x3 x4 x5 x6 x7 x8 x9 x10 x11 x12) n) (mat2 x13) (vec1 x14) (⟨128 + q.val, by have := q.isLt; omega⟩ : Fin 384) + aff (row2 x0 n) (mat2 x15) (vec1 x16) (⟨128 + q.val, by have := q.isLt; omega⟩ : Fin 384)))
          * Ideal.tanh (aff (row2 (val_main_v44 (F := Ideal) x0 x1 x2 x3 x4 x5 x6 x7 x8 x9 x10 x11 x12) n) (mat2 x13) (vec1 x14) (⟨256 + q.val, by have := q.isLt; omega⟩ : Fin 384)
              + Ideal.logistic (aff (row2 (val_main_v44 (F := Ideal) x0 x1 x2 x3 x4 x5 x6 x7 x8 x9 x10 x11 x12) n) (mat2 x13) (vec1 x14) (⟨q.val, by have := q.isLt; omega⟩ : Fin 384) + aff (row2 x0 n) (mat2 x15) (vec1 x16) (⟨q.val, by have := q.isLt; omega⟩ : Fin 384)) * aff (row2 x0 n) (mat2 x15) (vec1 x16) (⟨256 + q.val, by have := q.isLt; omega⟩ : Fin 384))
        + Ideal.logistic (aff (row2 (val_main_v44 (F := Ideal) x0 x1 x2 x3 x4 x5 x6 x7 x8 x9 x10 x11 x12) n) (mat2 x13) (vec1 x14) (⟨128 + q.val, by have := q.isLt; omega⟩ : Fin 384) + aff (row2 x0 n) (mat2 x15) (vec1 x16) (⟨128 + q.val, by have := q.isLt; omega⟩ : Fin 384)) * x0 (ix2 n q) := by
  rw [val_main_v80_apply, val_main_v78_apply, val_main_v79_apply, val_main_v77_apply, val_main_v76_apply,
    val_main_cst_7_apply, z_apply, n_apply]
  simp only [Ideal.addf_def, Ideal.mulf_def, Ideal.subf_def, Ideal.ofBits_def]

end

/-- The reference's result is `Cert.Spec.updArr` of the aggregated messages, the node features and the weights. -/
theorem upd_eq (x0 : (⟨S50000x128, .f32⟩ : BufTy).Contents (Elt Ideal)) (x1 : (⟨S800000x32, .f32⟩ : BufTy).Contents (Elt Ideal)) (x2 : (⟨S2x800000, .i32⟩ : BufTy).Contents (Elt Ideal)) (x3 : (⟨S32x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S288x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (x11 : (⟨S64x128, .f32⟩ : BufTy).Contents (Elt Ideal)) (x12 : (⟨S128, .f32⟩ : BufTy).Contents (Elt Ideal)) (x13 : (⟨S128x384, .f32⟩ : BufTy).Contents (Elt Ideal)) (x14 : (⟨S384, .f32⟩ : BufTy).Contents (Elt Ideal)) (x15 : (⟨S128x384, .f32⟩ : BufTy).Contents (Elt Ideal)) (x16 : (⟨S384, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S128, .f32⟩ : BufTy).Contents (Elt Ideal)) :
    val_main_v96 (F := Ideal) x0 x1 x2 x3 x4 x5 x6 x7 x8 x9 x10 x11 x12 x13 x14 x15 x16 x17 x18 x19 x20
      = updArr (val_main_v44 (F := Ideal) x0 x1 x2 x3 x4 x5 x6 x7 x8 x9 x10 x11 x12) x0 (mat2 x13) (vec1 x14) (mat2 x15) (vec1 x16)
          (vec1 x17) (vec1 x18) (vec1 x19) (vec1 x20) := by
  funext i
  obtain ⟨n, q, rfl⟩ : ∃ (n : Fin 50000) (q : Fin 128), i = ix2 n q := ⟨i 0, i 1, eq_ix2 i⟩
  rw [val_main_v96_apply, val_main_v95_apply, val_main_v94_apply, val_main_v93_apply, val_main_v92_apply,
    val_main_v91_apply, val_main_v90_apply, val_main_v89_apply, val_main_v88_apply, val_main_v87_apply,
    val_main_v86_apply, val_main_v85_apply, val_main_v84_apply, val_main_cst_8_apply, val_main_v83_apply,
    val_main_v82_apply, val_main_v81_apply, idx9394, idx9091, idx8788, idx8182, h_apply]
  simp only [Ideal.addf_def, Ideal.mulf_def, Ideal.subf_def, Ideal.hostUnary_rsqrt_def, Ideal.ofBits_def]
  rfl

end Cert.ReferenceIdeal.Update

end
-- ==== Proof.Bridge.lean ====
/-
  The two programs' results are one function of the arguments. The kernel's program, with its row lookups read as plain
  gathers (which they are on indices in range), computes the node update of the scatter-added messages; the
  reference computes the same update and the same messages (the first message layer on the concatenated row is
  the sum of the three partial products), from the same gathered rows at the same wrapped indices and through the
  same scatter-add.
-/
import proofs.«418614_j29317446762811_1_alg».proof.Proof.KResult
import proofs.«418614_j29317446762811_1_alg».proof.Proof.R0
import proofs.«418614_j29317446762811_1_alg».proof.Proof.R1
import proofs.«418614_j29317446762811_1_alg».proof.Proof.Layout

set_option maxRecDepth 16384

noncomputable section

namespace Cert.Bridge

open Cert.Spec Idealize.ShloMosaic Idealize.ShloMosaic.ValueIdx
open Cert.KernelIdeal.Glue Cert.KernelIdeal.Take

variable [Cert.KernelIdeal.Facts] [Cert.ReferenceIdeal.Facts]

/-! The two programs spell the same index columns, the same zero array and the same gather and scatter-add
    dimension numbers, each under its own names: unfolded to the primitive operations the two spellings are one term. -/

/-- The destination rows: the kernel program's gather at the wrapped destination column is the reference's. -/
theorem gather_dst (x0 : FVec Ideal Cert.KernelIdeal.S50000x128 .f32) (x2 : IVec Cert.KernelIdeal.S2x800000 32) :
    Host.gather Cert.KernelIdeal.gather_S50000x128_S800000x1_S800000x128_1_0_n_n_0_1_1128 x0 (wrapIdx (dstOf x2)) = Cert.ReferenceIdeal.Read.val_main_v19 (F := Ideal) x0 x2 := by
  unfold Cert.ReferenceIdeal.Read.val_main_v19 Cert.ReferenceIdeal.Read.val_main_v18 Cert.ReferenceIdeal.Read.val_main_v17 Cert.ReferenceIdeal.Read.val_main_v16 Cert.ReferenceIdeal.Read.val_main_v15
    Cert.ReferenceIdeal.Read.val_main_c_0 Cert.ReferenceIdeal.Read.val_main_v14 Cert.ReferenceIdeal.Read.val_main_v13 Cert.ReferenceIdeal.Read.val_main_c Cert.ReferenceIdeal.Read.val_main_v3 Cert.ReferenceIdeal.Read.val_main_v2
    wrapIdx dstOf
  rfl

/-- The source rows, likewise. -/
theorem gather_src (x0 : FVec Ideal Cert.KernelIdeal.S50000x128 .f32) (x2 : IVec Cert.KernelIdeal.S2x800000 32) :
    Host.gather Cert.KernelIdeal.gather_S50000x128_S800000x1_S800000x128_1_0_n_n_0_1_1128 x0 (wrapIdx (srcOf x2)) = Cert.ReferenceIdeal.Read.val_main_v26 (F := Ideal) x0 x2 := by
  unfold Cert.ReferenceIdeal.Read.val_main_v26 Cert.ReferenceIdeal.Read.val_main_v25 Cert.ReferenceIdeal.Read.val_main_v24 Cert.ReferenceIdeal.Read.val_main_v23 Cert.ReferenceIdeal.Read.val_main_v22
    Cert.ReferenceIdeal.Read.val_main_c_2 Cert.ReferenceIdeal.Read.val_main_v21 Cert.ReferenceIdeal.Read.val_main_v20 Cert.ReferenceIdeal.Read.val_main_c_1 Cert.ReferenceIdeal.Read.val_main_v1 Cert.ReferenceIdeal.Read.val_main_v0
    wrapIdx srcOf
  rfl

/-- The scatter-add from zero at the destination column, of any messages. -/
theorem scatter_eq (x2 : IVec Cert.KernelIdeal.S2x800000 32) (M : FVec Ideal Cert.KernelIdeal.S800000x128 .f32) :
    aggregate x2 M
      = Host.scatterAdd Cert.ReferenceIdeal.scatter_S50000x128_S800000x1_S800000x128_1_0_0_1 (Cert.ReferenceIdeal.Read.val_main_v42 (F := Ideal)) (Cert.ReferenceIdeal.Read.val_main_v43 (F := Ideal) x2) M := by
  unfold aggregate Cert.ReferenceIdeal.Read.val_main_v42 Cert.ReferenceIdeal.Read.val_main_cst Cert.ReferenceIdeal.Read.val_main_v43 Cert.ReferenceIdeal.Read.val_main_v3 Cert.ReferenceIdeal.Read.val_main_v2 dstOf
  rfl

/-- The aggregated messages of the two programs. -/
theorem agg_eq (x0 : FVec Ideal Cert.KernelIdeal.S50000x128 .f32) (x1 : FVec Ideal Cert.KernelIdeal.S800000x32 .f32) (x2 : IVec Cert.KernelIdeal.S2x800000 32) (x3 : FVec Ideal Cert.KernelIdeal.S32x32 .f32) (x4 : FVec Ideal Cert.KernelIdeal.S32 .f32) (x5 : FVec Ideal Cert.KernelIdeal.S32x32 .f32) (x6 : FVec Ideal Cert.KernelIdeal.S32 .f32) (x7 : FVec Ideal Cert.KernelIdeal.S288x128 .f32) (x8 : FVec Ideal Cert.KernelIdeal.S128 .f32) (x9 : FVec Ideal Cert.KernelIdeal.S128x64 .f32) (x10 : FVec Ideal Cert.KernelIdeal.S64 .f32) (x11 : FVec Ideal Cert.KernelIdeal.S64x128 .f32) (x12 : FVec Ideal Cert.KernelIdeal.S128 .f32) :
    aggregate x2 (msgArr (Cert.ReferenceIdeal.Read.val_main_v19 (F := Ideal) x0 x2) (Cert.ReferenceIdeal.Read.val_main_v26 (F := Ideal) x0 x2) x1 (mat2 x3) (vec1 x4) (mat2 x5) (vec1 x6) (topRows (mat2 x7)) (midRows (mat2 x7)) (botRows (mat2 x7)) (vec1 x8) (mat2 x9) (vec1 x10) (mat2 x11) (vec1 x12))
      = Cert.ReferenceIdeal.Read.val_main_v44 (F := Ideal) x0 x1 x2 x3 x4 x5 x6 x7 x8 x9 x10 x11 x12 := by
  rw [← Cert.ReferenceIdeal.Messages.msg_eq x0 x1 x2 x3 x4 x5 x6 x7 x8 x9 x10 x11 x12]
  exact scatter_eq x2 _

/-- With the kernel program's two lookups read as gathers at the wrapped index columns, its result is the
    reference's last stage of the same arguments. -/
theorem kernelResult_eq_ref (x0 : FVec Ideal Cert.KernelIdeal.S50000x128 .f32) (x1 : FVec Ideal Cert.KernelIdeal.S800000x32 .f32) (x2 : IVec Cert.KernelIdeal.S2x800000 32) (x3 : FVec Ideal Cert.KernelIdeal.S32x32 .f32) (x4 : FVec Ideal Cert.KernelIdeal.S32 .f32) (x5 : FVec Ideal Cert.KernelIdeal.S32x32 .f32) (x6 : FVec Ideal Cert.KernelIdeal.S32 .f32) (x7 : FVec Ideal Cert.KernelIdeal.S288x128 .f32) (x8 : FVec Ideal Cert.KernelIdeal.S128 .f32) (x9 : FVec Ideal Cert.KernelIdeal.S128x64 .f32) (x10 : FVec Ideal Cert.KernelIdeal.S64 .f32) (x11 : FVec Ideal Cert.KernelIdeal.S64x128 .f32) (x12 : FVec Ideal Cert.KernelIdeal.S128 .f32) (x13 : FVec Ideal Cert.KernelIdeal.S128x384 .f32) (x14 : FVec Ideal Cert.KernelIdeal.S384 .f32) (x15 : FVec Ideal Cert.KernelIdeal.S128x384 .f32) (x16 : FVec Ideal Cert.KernelIdeal.S384 .f32) (x17 : FVec Ideal Cert.KernelIdeal.S128 .f32) (x18 : FVec Ideal Cert.KernelIdeal.S128 .f32) (x19 : FVec Ideal Cert.KernelIdeal.S128 .f32) (x20 : FVec Ideal Cert.KernelIdeal.S128 .f32) :
    kernelResult
        (Host.gather Cert.KernelIdeal.gather_S50000x128_S800000x1_S800000x128_1_0_n_n_0_1_1128 x0 (wrapIdx (dstOf x2)))
        (Host.gather Cert.KernelIdeal.gather_S50000x128_S800000x1_S800000x128_1_0_n_n_0_1_1128 x0 (wrapIdx (srcOf x2)))
        x0 x1 x2 x3 x4 x5 x6 x7 x8 x9 x10 x11 x12 x13 x14 x15 x16 x17 x18 x19 x20
      = Cert.ReferenceIdeal.Read.val_main_v96 (F := Ideal) x0 x1 x2 x3 x4 x5 x6 x7 x8 x9 x10 x11 x12 x13 x14 x15 x16 x17 x18 x19 x20 := by
  rw [Cert.ReferenceIdeal.Update.upd_eq]
  unfold kernelResult
  rw [gather_dst, gather_src, agg_eq]

end Cert.Bridge

end
-- ==== Proof.lean ====
/-
  The certificate of a message-passing layer on a graph of 50000 nodes and 800000 edges: a Pallas kernel pair
  (per-edge message MLP, per-node GRU update with normalisation and residual, a gather before and a scatter-add
  between them on the host) against the plain jnp reference, equal over the extended reals whenever every float
  input is finite and every entry of the edge index array lies in [0, 50000).

  The three frames are the generated ones. Nothing was rewritten when the kernel was idealized, so `preserves` holds
  trivially. For the value claim: the kernel's program run names its result as a function of the arguments
  (`Cert.KernelIdeal.Glue.result_eq` over the run of `Cert.KernelIdeal.ValueRun.run_named`) in which the two row lookups
  fill out-of-range rows; on indices in range they are plain gathers (`Take.takeFill_eq`, the range read off the
  precondition by `Take.range_of_pre`), and with gathers the function is the reference's last stage
  (`Cert.Bridge.kernelResult_eq_ref`): the first message layer on the concatenated row is the sum of the kernel's
  three partial products, every other operation is the same one on both sides.
-/
import proofs.«418614_j29317446762811_1_alg».proof.Defs
import proofs.«418614_j29317446762811_1_alg».proof.Proof.Gen.Kernel
import proofs.«418614_j29317446762811_1_alg».proof.Proof.Gen.Kernel.Skeleton
import proofs.«418614_j29317446762811_1_alg».proof.Proof.Gen.Kernel.Launch
import proofs.«418614_j29317446762811_1_alg».proof.Proof.Gen.Kernel.Points
import proofs.«418614_j29317446762811_1_alg».proof.Proof.Gen.Kernel.Frame
import proofs.«418614_j29317446762811_1_alg».proof.Proof.Gen.KernelIdeal
import proofs.«418614_j29317446762811_1_alg».proof.Proof.Gen.KernelIdeal.Skeleton
import proofs.«418614_j29317446762811_1_alg».proof.Proof.Gen.KernelIdeal.Launch
import proofs.«418614_j29317446762811_1_alg».proof.Proof.Gen.KernelIdeal.Points
import proofs.«418614_j29317446762811_1_alg».proof.Proof.Gen.KernelIdeal.Frame
import proofs.«418614_j29317446762811_1_alg».proof.Proof.Gen.ReferenceIdeal
import proofs.«418614_j29317446762811_1_alg».proof.Proof.Gen.ReferenceIdeal.Run
import proofs.«418614_j29317446762811_1_alg».proof.Proof.Gen.ReferenceIdeal.Read
import proofs.«418614_j29317446762811_1_alg».proof.Proof.Gen.Pre_finite_inputs
import proofs.«418614_j29317446762811_1_alg».proof.Proof.KRun
import proofs.«418614_j29317446762811_1_alg».proof.Proof.KValue
import proofs.«418614_j29317446762811_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal.Glue Cert.KernelIdeal.Take

/-- An entry of a flattened row of the edge index array is an entry of the array. -/
theorem dstOf_lt (a : IVec Cert.KernelIdeal.S2x800000 32) (h : ∀ j : Cert.KernelIdeal.S2x800000.Idx, (a j).toNat < 50000)
    (e : Cert.KernelIdeal.S800000.Idx) : (dstOf a e).toNat < 50000 := by
  unfold dstOf shapeCast extractStridedSlice
  exact h _

theorem srcOf_lt (a : IVec Cert.KernelIdeal.S2x800000 32) (h : ∀ j : Cert.KernelIdeal.S2x800000.Idx, (a j).toNat < 50000)
    (e : Cert.KernelIdeal.S800000.Idx) : (srcOf a e).toNat < 50000 := by
  unfold srcOf shapeCast extractStridedSlice
  exact h _

/-- The common result: the node update of the scatter-added messages of the gathered features. -/
def result (m : (ℓ : Loc Cert.KernelIdeal.nD Cert.KernelIdeal.τ Cert.KernelIdeal.sig) → Buf (Elt Ideal) ℓ)
    (c : Dev Cert.KernelIdeal.nD) : Buf (Elt Ideal) ((c.tc : Thread Cert.KernelIdeal.nD Cert.KernelIdeal.τ).loc Cert.KernelIdeal.main_v24) :=
  kernelResult
    (Host.gather Cert.KernelIdeal.gather_S50000x128_S800000x1_S800000x128_1_0_n_n_0_1_1128 (m ((c.tc : Thread Cert.KernelIdeal.nD Cert.KernelIdeal.τ).loc Cert.KernelIdeal.main_arg0)) (wrapIdx (dstOf (m ((c.tc : Thread Cert.KernelIdeal.nD Cert.KernelIdeal.τ).loc Cert.KernelIdeal.main_arg2)))))
    (Host.gather Cert.KernelIdeal.gather_S50000x128_S800000x1_S800000x128_1_0_n_n_0_1_1128 (m ((c.tc : Thread Cert.KernelIdeal.nD Cert.KernelIdeal.τ).loc Cert.KernelIdeal.main_arg0)) (wrapIdx (srcOf (m ((c.tc : Thread Cert.KernelIdeal.nD Cert.KernelIdeal.τ).loc Cert.KernelIdeal.main_arg2)))))
    (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨result m, ?_, ?_⟩
  · refine (θ_run Cert.KernelIdeal.defs _ _).mono (fun r h c => ⟨(h c).1.trans ?_, (h c).2⟩)
      (Cert.KernelIdeal.ValueRun.run_named (F := Ideal) m ρ)
    have hr := range_of_pre _ _ _ _ _ _ _ _ _ _ _ _ _ _ _ _ _ _ _ _ _ (hpre c)
    rw [Cert.KernelIdeal.Glue.result_eq m ρ c, takeFill_eq _ _ (dstOf_lt _ hr), takeFill_eq _ _ (srcOf_lt _ hr)]
    rfl
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20⟩ := hagree c
    rw [Cert.ReferenceIdeal.Read.val_main_v96_eq, h0, h1, h2, h3, h4, h5, h6, h7, h8, h9, h10, h11, h12, h13, h14, h15, h16,
      h17, h18, h19, h20]
    exact (Cert.Bridge.kernelResult_eq_ref _ _ _ _ _ _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
